-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192x8 : Shape := ⟨3, ![2048, 8192, 8]⟩
abbrev S8192 : Shape := ⟨1, ![8192]⟩
abbrev S2048x8192 : Shape := ⟨2, ![2048, 8192]⟩
abbrev S8192x2048x8 : Shape := ⟨3, ![8192, 2048, 8]⟩
abbrev S2048 : Shape := ⟨1, ![2048]⟩
abbrev S8192x2048 : Shape := ⟨2, ![8192, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192x8 : S_.BroadcastsInDim S2048x8192x8 (![] : Fin 0 → Fin S2048x8192x8.rank)
  reducesTo_S2048x8192x8_S_d0_1_2 : S2048x8192x8.ReducesTo [0, 1, 2] S_
  bcast_S_S8192 : S_.BroadcastsInDim S8192 (![] : Fin 0 → Fin S8192.rank)
  reducesTo_S8192_S_d0 : S8192.ReducesTo [0] S_
  bcast_S_S8192x2048x8 : S_.BroadcastsInDim S8192x2048x8 (![] : Fin 0 → Fin S8192x2048x8.rank)
  reducesTo_S8192x2048x8_S_d0_1_2 : S8192x2048x8.ReducesTo [0, 1, 2] S_
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part2 {F : FTy → Type} [FloatOps F] (main_arg6 : IVec S8192x2048 32) (main_v30 : IVec S_ 1) (main_v32 : IVec S8192x2048 1) (main_c_12 : IVec S_ 32) : IVec S_ 1 :=
  let main_v33 : IVec S8192x2048 32 := broadcastInDim S8192x2048 ![] bcast_S_S8192x2048 main_c_12
  let main_v34 : IVec S8192x2048 1 := cmpi .slt main_arg6 main_v33
  let main_v35 : IVec S8192x2048 1 := andi main_v32 main_v34
  let main_c_13 : IVec S_ 1 := constantI S_ 1 1#1
  let main_v36 : IVec S_ 1 := (fun x v => Host.reduce IntOp.andi x v reducesTo_S8192x2048_S_d0_1 h_S_) main_v35 main_c_13
  let main_v37 : IVec S_ 1 := andi main_v30 main_v36
  main_v37

def fn_part1 {F : FTy → Type} [FloatOps F] (main_arg3 : IVec S2048x8192 32) (main_arg5 : FVec F S2048 .f32) (main_arg6 : IVec S8192x2048 32) (main_v13 : IVec S_ 1) (main_v16 : IVec S8192x2048x8 1) : IVec S_ 1 :=
  let main_c_5 : IVec S_ 1 := constantI S_ 1 1#1
  let main_v17 : IVec S_ 1 := (fun x v => Host.reduce IntOp.andi x v reducesTo_S8192x2048x8_S_d0_1_2 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_c_8 : IVec S_ 32 := constantI S_ 32 0#32
  let main_v24 : IVec S2048x8192 32 := broadcastInDim S2048x8192 ![] bcast_S_S2048x8192 main_c_8
  let main_v25 : IVec S2048x8192 1 := cmpi .sge main_arg3 main_v24
  let main_c_9 : IVec S_ 32 := constantI S_ 32 8#32
  let main_v26 : IVec S2048x8192 32 := broadcastInDim S2048x8192 ![] bcast_S_S2048x8192 main_c_9
  let main_v27 : IVec S2048x8192 1 := cmpi .slt main_arg3 main_v26
  let main_v28 : IVec S2048x8192 1 := andi main_v25 main_v27
  let main_c_10 : IVec S_ 1 := constantI S_ 1 1#1
  let main_v29 : IVec S_ 1 := (fun x v => Host.reduce IntOp.andi x v reducesTo_S2048x8192_S_d0_1 h_S_) main_v28 main_c_10
  let main_v30 : IVec S_ 1 := andi main_v23 main_v29
  let main_c_11 : IVec S_ 32 := constantI S_ 32 0#32
  let main_v31 : IVec S8192x2048 32 := broadcastInDim S8192x2048 ![] bcast_S_S8192x2048 main_c_11
  let main_v32 : IVec S8192x2048 1 := cmpi .sge main_arg6 main_v31
  let main_c_12 : IVec S_ 32 := constantI S_ 32 8#32
  fn_part2 (F := F) main_arg6 main_v30 main_v32 main_c_12

def fn {F : FTy → Type} [FloatOps F] (main_arg0 : FVec F S4096x2048 .f32) (main_arg1 : FVec F S2048x8192x8 .f32) (main_arg2 : FVec F S8192 .f32) (main_arg3 : IVec S2048x8192 32) (main_arg4 : FVec F S8192x2048x8 .f32) (main_arg5 : FVec F S2048 .f32) (main_arg6 : IVec S8192x2048 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x8192x8 .f32 := Host.absf main_arg1
  let main_cst_0 : FVec F S_ .f32 := constant S_ .f32 0x7F800000#32
  let main_v5 : FVec F S2048x8192x8 .f32 := broadcastInDim S2048x8192x8 ![] bcast_S_S2048x8192x8 main_cst_0
  let main_v6 : IVec S2048x8192x8 1 := cmpf .olt main_v4 main_v5
  let main_c_1 : IVec S_ 1 := constantI S_ 1 1#1
  let main_v7 : IVec S_ 1 := (fun x v => Host.reduce IntOp.andi x v reducesTo_S2048x8192x8_S_d0_1_2 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048x8 .f32 := Host.absf main_arg4
  let main_cst_4 : FVec F S_ .f32 := constant S_ .f32 0x7F800000#32
  let main_v15 : FVec F S8192x2048x8 .f32 := broadcastInDim S8192x2048x8 ![] bcast_S_S8192x2048x8 main_cst_4
  let main_v16 : IVec S8192x2048x8 1 := cmpf .olt main_v14 main_v15
  fn_part1 (F := F) main_arg3 main_arg5 main_arg6 main_v13 main_v16
-- ==== Kernel.lean ====
abbrev S4096x2048 : Shape := ⟨2, ![4096, 2048]⟩
abbrev S2048x8192x8 : Shape := ⟨3, ![2048, 8192, 8]⟩
abbrev S8192 : Shape := ⟨1, ![8192]⟩
abbrev S2048x8192 : Shape := ⟨2, ![2048, 8192]⟩
abbrev S8192x2048x8 : Shape := ⟨3, ![8192, 2048, 8]⟩
abbrev S2048 : Shape := ⟨1, ![2048]⟩
abbrev S8192x2048 : Shape := ⟨2, ![8192, 2048]⟩
abbrev S1x8192 : Shape := ⟨2, ![1, 8192]⟩
abbrev S8x2048x8192 : Shape := ⟨3, ![8, 2048, 8192]⟩
abbrev S4096x8192 : Shape := ⟨2, ![4096, 8192]⟩
abbrev S1x2048 : Shape := ⟨2, ![1, 2048]⟩
abbrev S8x8192x2048 : Shape := ⟨3, ![8, 8192, 2048]⟩
abbrev S4096x256 : Shape := ⟨2, ![4096, 256]⟩
abbrev S8x256x512 : Shape := ⟨3, ![8, 256, 512]⟩
abbrev S256x512 : Shape := ⟨2, ![256, 512]⟩
abbrev S1x512 : Shape := ⟨2, ![1, 512]⟩
abbrev S4096x512 : Shape := ⟨2, ![4096, 512]⟩
abbrev S1x256x512 : Shape := ⟨3, ![1, 256, 512]⟩

abbrev nBuf : Space → Nat
  | .hbm => 16
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048x8192x8, .f32⟩
  | .hbm, ⟨2, _⟩ => ⟨S8192, .f32⟩
  | .hbm, ⟨3, _⟩ => ⟨S2048x8192, .i32⟩
  | .hbm, ⟨4, _⟩ => ⟨S8192x2048x8, .f32⟩
  | .hbm, ⟨5, _⟩ => ⟨S2048, .f32⟩
  | .hbm, ⟨6, _⟩ => ⟨S8192x2048, .i32⟩
  | .hbm, ⟨7, _⟩ => ⟨S4096x2048, .bf16⟩
  | .hbm, ⟨8, _⟩ => ⟨S1x8192, .f32⟩
  | .hbm, ⟨9, _⟩ => ⟨S8x2048x8192, .f32⟩
  | .hbm, ⟨10, _⟩ => ⟨S8x2048x8192, .bf16⟩
  | .hbm, ⟨11, _⟩ => ⟨S4096x8192, .bf16⟩
  | .hbm, ⟨12, _⟩ => ⟨S1x2048, .f32⟩
  | .hbm, ⟨13, _⟩ => ⟨S8x8192x2048, .f32⟩
  | .hbm, ⟨14, _⟩ => ⟨S8x8192x2048, .bf16⟩
  | .hbm, ⟨15, _⟩ => ⟨S4096x2048, .f32⟩
  | .local _ .vmem, ⟨0, _⟩ => ⟨S4096x256, .bf16⟩
  | .local _ .vmem, ⟨1, _⟩ => ⟨S4096x256, .bf16⟩
  | .local _ .vmem, ⟨2, _⟩ => ⟨S8x256x512, .bf16⟩
  | .local _ .vmem, ⟨3, _⟩ => ⟨S8x256x512, .bf16⟩
  | .local _ .vmem, ⟨4, _⟩ => ⟨S256x512, .i32⟩
  | .local _ .vmem, ⟨5, _⟩ => ⟨S256x512, .i32⟩
  | .local _ .vmem, ⟨6, _⟩ => ⟨S1x512, .f32⟩
  | .local _ .vmem, ⟨7, _⟩ => ⟨S1x512, .f32⟩
  | .local _ .vmem, ⟨8, _⟩ => ⟨S4096x512, .bf16⟩
  | .local _ .vmem, ⟨9, _⟩ => ⟨S4096x512, .bf16⟩
  | .local _ .vmem, ⟨10, _⟩ => ⟨S4096x512, .f32⟩
  | .local _ .vmem, ⟨11, _⟩ => ⟨S4096x256, .bf16⟩
  | .local _ .vmem, ⟨12, _⟩ => ⟨S4096x256, .bf16⟩
  | .local _ .vmem, ⟨13, _⟩ => ⟨S8x256x512, .bf16⟩
  | .local _ .vmem, ⟨14, _⟩ => ⟨S8x256x512, .bf16⟩
  | .local _ .vmem, ⟨15, _⟩ => ⟨S256x512, .i32⟩
  | .local _ .vmem, ⟨16, _⟩ => ⟨S256x512, .i32⟩
  | .local _ .vmem, ⟨17, _⟩ => ⟨S1x512, .f32⟩
  | .local _ .vmem, ⟨18, _⟩ => ⟨S1x512, .f32⟩
  | .local _ .vmem, ⟨19, _⟩ => ⟨S4096x512, .f32⟩
  | .local _ .vmem, ⟨20, _⟩ => ⟨S4096x512, .f32⟩
  | .local _ .vmem, ⟨21, _⟩ => ⟨S4096x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32_27 : BitVec 32 := 7#32
  let v53 : BitVec 1 := Scalar.cmpi .eq arg1 c7_i32_27
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v53 : BitVec 1 := Scalar.cmpi .eq arg1 c31_i32
  let v54 : BitVec 32 := Scalar.extui v53
  let c0_i32_27 : BitVec 32 := 0#32
  let v55 : BitVec 1 := Scalar.cmpi .ne v54 c0_i32_27
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  shapeCasts_S8192_S1x8192 : S8192.ShapeCasts S1x8192
  transposes_S2048x8192x8_S8x2048x8192_2_0_1 : S2048x8192x8.Transposes [2, 0, 1] S8x2048x8192
  shapeCasts_S2048_S1x2048 : S2048.ShapeCasts S1x2048
  transposes_S8192x2048x8_S8x8192x2048_2_0_1 : S8192x2048x8.Transposes [2, 0, 1] S8x8192x2048
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x512_S256x512_0_0 : ∀ a, (![0, 0] : Fin 2 → Nat) a + S256x512.size a ≤ S256x512.size a
  h_S256x512 : 0 < S256x512.numel
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  inb_S8x256x512_S1x256x512_1_0_0 : ∀ a, (![1, 0, 0] : Fin 3 → Nat) a + S1x256x512.size a ≤ S8x256x512.size a
  inb_S8x256x512_S1x256x512_2_0_0 : ∀ a, (![2, 0, 0] : Fin 3 → Nat) a + S1x256x512.size a ≤ S8x256x512.size a
  inb_S8x256x512_S1x256x512_3_0_0 : ∀ a, (![3, 0, 0] : Fin 3 → Nat) a + S1x256x512.size a ≤ S8x256x512.size a
  inb_S8x256x512_S1x256x512_4_0_0 : ∀ a, (![4, 0, 0] : Fin 3 → Nat) a + S1x256x512.size a ≤ S8x256x512.size a
  inb_S8x256x512_S1x256x512_5_0_0 : ∀ a, (![5, 0, 0] : Fin 3 → Nat) a + S1x256x512.size a ≤ S8x256x512.size a
  inb_S8x256x512_S1x256x512_6_0_0 : ∀ a, (![6, 0, 0] : Fin 3 → Nat) a + S1x256x512.size a ≤ S8x256x512.size a
  inb_S8x256x512_S1x256x512_7_0_0 : ∀ a, (![7, 0, 0] : Fin 3 → Nat) a + S1x256x512.size a ≤ S8x256x512.size a
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  packedbf16_S4096x512_S4096x512_0_0 : (Rect.unit (s := S4096x512) ![0, 0] S4096x512.size inb_S4096x512_S4096x512_0_0).PackedRows (EltTy.packing .bf16)
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x2048.size a
  hwx0_0 : ∀ i : grid0.Coords, EltTy.bits .bf16 = 32 ∨ (Rect.block (s := S4096x2048) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x2048x8192.size a
  hwx0_1 : ∀ i : grid0.Coords, EltTy.bits .bf16 = 32 ∨ (Rect.block (s := S8x2048x8192) S8x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x8192.size a
  hwx0_2 : ∀ i : grid0.Coords, EltTy.bits .i32 = 32 ∨ (Rect.block (s := S2048x8192) S256x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x8192.size a
  hwx0_4 : ∀ i : grid0.Coords, EltTy.bits .bf16 = 32 ∨ (Rect.block (s := S4096x8192) S4096x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x8192.size a
  hwx1_0 : ∀ i : grid1.Coords, EltTy.bits .bf16 = 32 ∨ (Rect.block (s := S4096x8192) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x512.size a ≤ S8x8192x2048.size a
  hwx1_1 : ∀ i : grid1.Coords, EltTy.bits .bf16 = 32 ∨ (Rect.block (s := S8x8192x2048) S8x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x2048.size a
  hwx1_2 : ∀ i : grid1.Coords, EltTy.bits .i32 = 32 ∨ (Rect.block (s := S8192x2048) S256x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x512.size a ≤ S4096x2048.size a
  hwx1_4 : ∀ i : grid1.Coords, EltTy.bits .f32 = 32 ∨ (Rect.block (s := S4096x2048) S4096x512.size (cc1_transform_4 i) (hinb1_4 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_call0_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_call0_v4) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7) S8x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S4096x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192x8 : Shape := ⟨3, ![2048, 8192, 8]⟩
abbrev S8192 : Shape := ⟨1, ![8192]⟩
abbrev S2048x8192 : Shape := ⟨2, ![2048, 8192]⟩
abbrev S8192x2048x8 : Shape := ⟨3, ![8192, 2048, 8]⟩
abbrev S2048 : Shape := ⟨1, ![2048]⟩
abbrev S8192x2048 : Shape := ⟨2, ![8192, 2048]⟩
abbrev S2048x8192x1 : Shape := ⟨3, ![2048, 8192, 1]⟩
abbrev S_ : Shape := ⟨0, ![]⟩
abbrev S2048x8192x1x1 : Shape := ⟨4, ![2048, 8192, 1, 1]⟩
abbrev S1 : Shape := ⟨1, ![1]⟩
abbrev S1x1x1x1 : Shape := ⟨4, ![1, 1, 1, 1]⟩
abbrev S4096x8192 : Shape := ⟨2, ![4096, 8192]⟩
abbrev S1x8192 : Shape := ⟨2, ![1, 8192]⟩
abbrev S8192x2048x1 : Shape := ⟨3, ![8192, 2048, 1]⟩
abbrev S8192x2048x1x1 : Shape := ⟨4, ![8192, 2048, 1, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192x8, .f32⟩
  | .hbm, ⟨2, _⟩ => ⟨S8192, .f32⟩
  | .hbm, ⟨3, _⟩ => ⟨S2048x8192, .i32⟩
  | .hbm, ⟨4, _⟩ => ⟨S8192x2048x8, .f32⟩
  | .hbm, ⟨5, _⟩ => ⟨S2048, .f32⟩
  | .hbm, ⟨6, _⟩ => ⟨S8192x2048, .i32⟩
  | .hbm, ⟨7, _⟩ => ⟨S2048x8192x1, .i32⟩
  | .hbm, ⟨8, _⟩ => ⟨S_, .i32⟩
  | .hbm, ⟨9, _⟩ => ⟨S2048x8192x1, .i32⟩
  | .hbm, ⟨10, _⟩ => ⟨S2048x8192x1, .i1⟩
  | .hbm, ⟨11, _⟩ => ⟨S_, .i32⟩
  | .hbm, ⟨12, _⟩ => ⟨S2048x8192x1, .i32⟩
  | .hbm, ⟨13, _⟩ => ⟨S2048x8192x1, .i32⟩
  | .hbm, ⟨14, _⟩ => ⟨S2048x8192x1, .i32⟩
  | .hbm, ⟨15, _⟩ => ⟨S2048x8192x1x1, .i32⟩
  | .hbm, ⟨16, _⟩ => ⟨S1, .i32⟩
  | .hbm, ⟨17, _⟩ => ⟨S_, .i32⟩
  | .hbm, ⟨18, _⟩ => ⟨S2048x8192x1x1, .i32⟩
  | .hbm, ⟨19, _⟩ => ⟨S2048x8192x1x1, .i1⟩
  | .hbm, ⟨20, _⟩ => ⟨S1x1x1x1, .i32⟩
  | .hbm, ⟨21, _⟩ => ⟨S2048x8192x1x1, .i32⟩
  | .hbm, ⟨22, _⟩ => ⟨S2048x8192x1x1, .i1⟩
  | .hbm, ⟨23, _⟩ => ⟨S2048x8192x1x1, .i1⟩
  | .hbm, ⟨24, _⟩ => ⟨S_, .i1⟩
  | .hbm, ⟨25, _⟩ => ⟨S2048x8192x1, .i1⟩
  | .hbm, ⟨26, _⟩ => ⟨S2048x8192x1, .f32⟩
  | .hbm, ⟨27, _⟩ => ⟨S_, .f32⟩
  | .hbm, ⟨28, _⟩ => ⟨S2048x8192x1, .f32⟩
  | .hbm, ⟨29, _⟩ => ⟨S2048x8192x1, .f32⟩
  | .hbm, ⟨30, _⟩ => ⟨S2048x8192, .f32⟩
  | .hbm, ⟨31, _⟩ => ⟨S4096x8192, .f32⟩
  | .hbm, ⟨32, _⟩ => ⟨S1x8192, .f32⟩
  | .hbm, ⟨33, _⟩ => ⟨S4096x8192, .f32⟩
  | .hbm, ⟨34, _⟩ => ⟨S4096x8192, .f32⟩
  | .hbm, ⟨35, _⟩ => ⟨S_, .f32⟩
  | .hbm, ⟨36, _⟩ => ⟨S4096x8192, .f32⟩
  | .hbm, ⟨37, _⟩ => ⟨S4096x8192, .f32⟩
  | .hbm, ⟨38, _⟩ => ⟨S8192x2048x1, .i32⟩
  | .hbm, ⟨39, _⟩ => ⟨S_, .i32⟩
  | .hbm, ⟨40, _⟩ => ⟨S8192x2048x1, .i32⟩
  | .hbm, ⟨41, _⟩ => ⟨S8192x2048x1, .i1⟩
  | .hbm, ⟨42, _⟩ => ⟨S_, .i32⟩
  | .hbm, ⟨43, _⟩ => ⟨S8192x2048x1, .i32⟩
  | .hbm, ⟨44, _⟩ => ⟨S8192x2048x1, .i32⟩
  | .hbm, ⟨45, _⟩ => ⟨S8192x2048x1, .i32⟩
  | .hbm, ⟨46, _⟩ => ⟨S8192x2048x1x1, .i32⟩
  | .hbm, ⟨47, _⟩ => ⟨S1, .i32⟩
  | .hbm, ⟨48, _⟩ => ⟨S_, .i32⟩
  | .hbm, ⟨49, _⟩ => ⟨S8192x2048x1x1, .i32⟩
  | .hbm, ⟨50, _⟩ => ⟨S8192x2048x1x1, .i1⟩
  | .hbm, ⟨51, _⟩ => ⟨S1x1x1x1, .i32⟩
  | .hbm, ⟨52, _⟩ => ⟨S8192x2048x1x1, .i32⟩
  | .hbm, ⟨53, _⟩ => ⟨S8192x2048x1x1, .i1⟩
  | .hbm, ⟨54, _⟩ => ⟨S8192x2048x1x1, .i1⟩
  | .hbm, ⟨55, _⟩ => ⟨S_, .i1⟩
  | .hbm, ⟨56, _⟩ => ⟨S8192x2048x1, .i1⟩
  | .hbm, ⟨57, _⟩ => ⟨S8192x2048x1, .f32⟩
  | .hbm, ⟨58, _⟩ => ⟨S_, .f32⟩
  | .hbm, ⟨59, _⟩ => ⟨S8192x2048x1, .f32⟩
  | .hbm, ⟨60, _⟩ => ⟨S8192x2048x1, .f32⟩
  | .hbm, ⟨61, _⟩ => ⟨S8192x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_cst : Ref sig .tc := ⟨.hbm, 35, rfl⟩
abbrev main_call1_v0 : Ref sig .tc := ⟨.hbm, 36, rfl⟩
abbrev main_v7 : Ref sig .tc := ⟨.hbm, 37, rfl⟩
abbrev main_v8 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_call3_cst : Ref sig .tc := ⟨.hbm, 66, rfl⟩
abbrev main_call3_v0 : Ref sig .tc := ⟨.hbm, 67, rfl⟩
abbrev main_v15 : Ref sig .tc := ⟨.hbm, 68, rfl⟩

abbrev nD : Nat := 1
abbrev τ : Topo := Topo.v7x

variable {F : FTy → Type} [FloatOps F]

class Facts₀ : Prop where
  bcast_S2048x8192_S2048x8192x1_0_1 : S2048x8192.BroadcastsInDim S2048x8192x1 (![0, 1] : Fin 2 → Fin S2048x8192x1.rank)
  bcast_S_S2048x8192x1 : S_.BroadcastsInDim S2048x8192x1 (![] : Fin 0 → Fin S2048x8192x1.rank)
  shapeCasts_S2048x8192x1_S2048x8192x1x1 : S2048x8192x1.ShapeCasts S2048x8192x1x1
  bcast_S_S2048x8192x1x1 : S_.BroadcastsInDim S2048x8192x1x1 (![] : Fin 0 → Fin S2048x8192x1x1.rank)
  bcast_S1_S1x1x1x1_3 : S1.BroadcastsInDim S1x1x1x1 (![3] : Fin 1 → Fin S1x1x1x1.rank)
  bcast_S1x1x1x1_S2048x8192x1x1_0_1_2_3 : S1x1x1x1.BroadcastsInDim S2048x8192x1x1 (![0, 1, 2, 3] : Fin 4 → Fin S2048x8192x1x1.rank)
  reducesTo_S2048x8192x1x1_S2048x8192x1_d3 : S2048x8192x1x1.ReducesTo [3] S2048x8192x1
  h_S_ : 0 < S_.numel
  shapeCasts_S2048x8192x1_S2048x8192 : S2048x8192x1.ShapeCasts S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S8192x2048_S8192x2048x1_0_1 : S8192x2048.BroadcastsInDim S8192x2048x1 (![0, 1] : Fin 2 → Fin S8192x2048x1.rank)
  bcast_S_S8192x2048x1 : S_.BroadcastsInDim S8192x2048x1 (![] : Fin 0 → Fin S8192x2048x1.rank)
  shapeCasts_S8192x2048x1_S8192x2048x1x1 : S8192x2048x1.ShapeCasts S8192x2048x1x1
  bcast_S_S8192x2048x1x1 : S_.BroadcastsInDim S8192x2048x1x1 (![] : Fin 0 → Fin S8192x2048x1x1.rank)
  bcast_S1x1x1x1_S8192x2048x1x1_0_1_2_3 : S1x1x1x1.BroadcastsInDim S8192x2048x1x1 (![0, 1, 2, 3] : Fin 4 → Fin S8192x2048x1x1.rank)
  reducesTo_S8192x2048x1x1_S8192x2048x1_d3 : S8192x2048x1x1.ReducesTo [3] S8192x2048x1
  shapeCasts_S8192x2048x1_S8192x2048 : S8192x2048x1.ShapeCasts S8192x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  gather_S2048x8192x8_S2048x8192x1x1_S2048x8192x1_n_2_01_01_2_3_111_wf : GatherDims.WF S2048x8192x8 S2048x8192x1x1 S2048x8192x1 [] [2] [0, 1] [2] [0, 1] 3 ![1, 1, 1]
  dot_S4096x2048_S2048x8192_S4096x8192_1_0_0_1_n_n_wf : DotDims.WF S4096x2048 S2048x8192 S4096x8192 [1] [0] [0] [1] [] []
  gather_S8192x2048x8_S8192x2048x1x1_S8192x2048x1_n_2_01_01_2_3_111_wf : GatherDims.WF S8192x2048x8 S8192x2048x1x1 S8192x2048x1 [] [2] [0, 1] [2] [0, 1] 3 ![1, 1, 1]
  dot_S4096x8192_S8192x2048_S4096x2048_1_0_0_1_n_n_wf : DotDims.WF S4096x8192 S8192x2048 S4096x2048 [1] [0] [0] [1] [] []

variable [Facts₀]

def gather_S2048x8192x8_S2048x8192x1x1_S2048x8192x1_n_2_01_01_2_3_111 : GatherDims S2048x8192x8 S2048x8192x1x1 S2048x8192x1 where
  offsetDims := []
  collapsedSliceDims := [2]
  operandBatchingDims := [0, 1]
  startIndicesBatchingDims := [0, 1]
  startIndexMap := [2]
  indexVectorDim := 3
  sliceSizes := ![1, 1, 1]
  wf := gather_S2048x8192x8_S2048x8192x1x1_S2048x8192x1_n_2_01_01_2_3_111_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def gather_S8192x2048x8_S8192x2048x1x1_S8192x2048x1_n_2_01_01_2_3_111 : GatherDims S8192x2048x8 S8192x2048x1x1 S8192x2048x1 where
  offsetDims := []
  collapsedSliceDims := [2]
  operandBatchingDims := [0, 1]
  startIndicesBatchingDims := [0, 1]
  startIndexMap := [2]
  indexVectorDim := 3
  sliceSizes := ![1, 1, 1]
  wf := gather_S8192x2048x8_S8192x2048x1x1_S8192x2048x1_n_2_01_01_2_3_111_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.Kernel.Region0.Shared.lean ====
/-
  The first layer's kernel (grid 16 × 8: output-column tile o, reduction tile k), what its runs share.

  The body branches twice on the reduction coordinate k: at k = 0 it clears its accumulator, at k = 7 it adds
  the bias, clamps at zero and stores the output tile. Both tests are decided over the 128 grid points in closed
  form. The output tile's staging buffer is stored, and written back, only at k = 7; elsewhere it is idle.
  The accumulator is the kernel's one scratch buffer; every other scoped buffer of the core (the second
  layer's staging buffers and accumulator) rides along untouched.
-/
import proofs.«423610_j1151051235470_3_alg».proof.Proof.Gen.Kernel.Launch
import proofs.«423610_j1151051235470_3_alg».proof.Proof.Gen.Kernel.Skeleton
import proofs.«423610_j1151051235470_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the reduction coordinate -/

/-- The test `k = 0`, as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The test `k = 7` (the last reduction step). -/
abbrev isLast (i : grid0.Coords) : Prop := k0_cond2 i = 1#1
/-- It holds at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before the last reduction step the output tile is idle, -/
theorem idle4 : ∀ t : Fin cfg0.N, ¬isLast (grid0.coords t) → cfg0.idle 4 (grid0.coords t) = true := by decide +kernel
/-- and not written back; -/
theorem noFlush4 : ∀ t : Fin cfg0.N, ¬isLast (grid0.coords t) → (cfg0.win 4).flush t = false := by decide +kernel
/-- at the last step it is live. -/
theorem live4 : ∀ t : Fin cfg0.N, isLast (grid0.coords t) → cfg0.idle 4 (grid0.coords t) = false := by decide +kernel

/-! ## The memrefs the body is called with -/

abbrev ms0 (t : Fin cfg0.N) : Memref sig .tc .vmem S4096x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x512 .bf16 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S4096x512 .f32 := Memref.whole cc0_scratch0
/-- One staging buffer of the output tile, and the accumulator, as views: contents are stated through them. -/
abbrev VO : View sig .tc .vmem S4096x512 .bf16 := (Memref.whole cc0_stg4_0 : Memref sig .tc .vmem S4096x512 .bf16).view
abbrev VS : View sig .tc .vmem S4096x512 .f32 := scM.view

/-! ## The region invariant with the accumulator taken out -/

/-- The core's other scoped buffers that are no staging buffer of this kernel, at some contents each. -/
def Other (c : Dev nD) : sProp 𝕄 :=
  Pipeline.scopedRestBut (Ix := Unit) (Name := ℕ) (U := UR sig nD τ) (Lvl := ℕ) (Val := Elt F) spec0 c [cc0_scratch0]

/-- The class's invariant is: the accumulator at some contents, the other scoped buffers, the generator register. -/
theorem PhiA_eq (c : Dev nD) :
    (Pipeline.ΦA spec0 c : sProp 𝕄)
      = iprop(iprop((∃ d, owns (c : Thread nD τ) scM fullShare d) ∗ Other c) ∗ (∃ r, prngReg c r)) := by
  unfold Pipeline.ΦA Other
  rw [Pipeline.scopedRest_split_of_list spec0 c [cc0_scratch0] (by decide) (by decide)]
  simp only [bigSepL_singleton, scM, owns_whole]
  try rfl

end Cert.Kernel.Region0

end
-- ==== Proof.Kernel.Region0.RunFirst.lean ====
/-
  The first layer's kernel body at a point with k = 0 (and k ≠ 7): it clears the accumulator, reads it back, adds the
  tile's product and stores the sum. The output tile's buffer is not touched. What the accumulator ends with is the
  list of its stores, last first: the witness the run finds.
-/
import proofs.«423610_j1151051235470_3_alg».proof.Proof.Kernel.Region0.Shared

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : isFirst i) (hc1 : ¬isLast i)
    (x0 : Vec F S4096x256 .bf16) (x1 : Vec F S8x256x512 .bf16) (x2 : Vec F S256x512 .i32) (x3 : Vec F S1x512 .f32) :
    { LS : List (View.Piece (Elt F) S4096x512 .f32) //
      ∀ (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, fun xi E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region0

end
-- ==== Proof.Kernel.Region0.RunMid.lean ====
/-
  The first layer's kernel body at a point with 0 < k < 7: it reads the accumulator as the point before left it, adds the
  tile's product and stores the sum. The output tile's buffer is not touched.
-/
import proofs.«423610_j1151051235470_3_alg».proof.Proof.Kernel.Region0.RunFirst

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : ¬isFirst i) (hc1 : ¬isLast i)
    (x0 : Vec F S4096x256 .bf16) (x1 : Vec F S8x256x512 .bf16) (x2 : Vec F S256x512 .i32) (x3 : Vec F S1x512 .f32) (xs : Vec F S4096x512 .f32) :
    { LS : List (View.Piece (Elt F) S4096x512 .f32) //
      ∀ (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, fun xi E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region0

end
-- ==== Proof.Kernel.Region0.RunLast.lean ====
/-
  The first layer's kernel body at a point with k = 7: it adds the tile's product to the accumulator as the point before
  left it, stores the sum, reads it back, adds the bias row, clamps at zero and stores the result into the output tile's
  buffer, whatever that held.
-/
import proofs.«423610_j1151051235470_3_alg».proof.Proof.Kernel.Region0.RunMid

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : ¬isFirst i) (hc1 : isLast i)
    (x0 : Vec F S4096x256 .bf16) (x1 : Vec F S8x256x512 .bf16) (x2 : Vec F S256x512 .i32) (x3 : Vec F S1x512 .f32) (xs : Vec F S4096x512 .f32) :
    Σ' (L4 : List (View.Piece (Elt F) S4096x512 .bf16)), { LS : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, ?_, fun E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Region0

end
-- ==== Proof.Kernel.Region0.Frame.lean ====
/-
  The first layer's region at a PARAMETER `V`, the TensorCore's buffer contents when the region is entered.

  Per grid point t = 8·o + k the body finds in its input buffers the blocks of the arrays at t (fetched there or
  not: the bias row is fetched only at k = 0 and kept since). What the accumulator holds after point t is defined by
  recursion on t — cleared and updated at k = 0, updated from the point before otherwise —, each case's contents
  being what that case's run of the body stores, read back. The region's invariant carries the accumulator at
  exactly those contents from one point to the next; the output tile's buffer is stored at k = 7, from the
  accumulator, and idle elsewhere.
-/
import proofs.«423610_j1151051235470_3_alg».proof.Proof.Kernel.Region0.RunLast

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverFirst (c : Dev nD) (t : Fin cfg0.N) (h0 : t.val % 8 = 0) (h1 : ¬t.val % 8 = 7) (y : S4096x512.Idx) :
    ∃ pc ∈ (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1, y ∈ pc.1.set :=
  View.cover_of_tiledL (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1 S4096x512.size (by sl_kernel_rfl) y

/-- The accumulator after a point with k = 0: the case's stores read back. -/
def sFirst (c : Dev nD) (t : Fin cfg0.N) (h0 : t.val % 8 = 0) (h1 : ¬t.val % 8 = 7) : Vec F S4096x512 .f32 :=
  VS.read (Elt F) (VS.writes (Elt F) VS.junk (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1)

theorem scoverMid (c : Dev nD) (t : Fin cfg0.N) (h0 : ¬t.val % 8 = 0) (h1 : ¬t.val % 8 = 7) (xs : Vec F S4096x512 .f32) (y : S4096x512.Idx) :
    ∃ pc ∈ (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1, y ∈ pc.1.set :=
  View.cover_of_tiledL (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1 S4096x512.size (by sl_kernel_rfl) y

/-- The accumulator after a point with 0 < k < 7, over what the point before left (`xs`). -/
def sMid (c : Dev nD) (t : Fin cfg0.N) (h0 : ¬t.val % 8 = 0) (h1 : ¬t.val % 8 = 7) (xs : Vec F S4096x512 .f32) : Vec F S4096x512 .f32 :=
  VS.read (Elt F) (VS.writes (Elt F) VS.junk (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1)

theorem scoverLast (c : Dev nD) (t : Fin cfg0.N) (h0 : ¬t.val % 8 = 0) (h1 : t.val % 8 = 7) (xs : Vec F S4096x512 .f32) (y : S4096x512.Idx) :
    ∃ pc ∈ (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1, y ∈ pc.1.set :=
  View.cover_of_tiledL (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1 S4096x512.size (by sl_kernel_rfl) y

/-- The accumulator after a point with k = 7. -/
def sLast (c : Dev nD) (t : Fin cfg0.N) (h0 : ¬t.val % 8 = 0) (h1 : t.val % 8 = 7) (xs : Vec F S4096x512 .f32) : Vec F S4096x512 .f32 :=
  VS.read (Elt F) (VS.writes (Elt F) VS.junk (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1)

theorem ocoverLast (c : Dev nD) (t : Fin cfg0.N) (h0 : ¬t.val % 8 = 0) (h1 : t.val % 8 = 7) (xs : Vec F S4096x512 .f32) (y : S4096x512.Idx) :
    ∃ pc ∈ (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1, y ∈ pc.1.set :=
  View.cover_of_tiledL (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1 S4096x512.size (by sl_kernel_rfl) y

/-- The output tile's staging buffer after a point with k = 7. -/
def oLast (c : Dev nD) (t : Fin cfg0.N) (h0 : ¬t.val % 8 = 0) (h1 : t.val % 8 = 7) (xs : Vec F S4096x512 .f32) : Vec F S4096x512 .bf16 :=
  VO.read (Elt F) (VO.writes (Elt F) VO.junk (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1)

/-! ## The accumulator point by point -/

/-- What the accumulator holds after the body at position `n`. -/
def accAt (c : Dev nD) : (n : ℕ) → n < cfg0.N → Vec F S4096x512 .f32
  | 0, hn => sFirst V c ⟨0, hn⟩ (Nat.zero_mod _) (by show ¬(0 % 8 = 7); decide)
  | n + 1, hn =>
    if h0 : (n + 1) % 8 = 0 then sFirst V c ⟨n + 1, hn⟩ h0 (by show ¬((n + 1) % 8 = 7); omega)
    else if h1 : (n + 1) % 8 = 7 then sLast V c ⟨n + 1, hn⟩ h0 h1 (accAt c n (Nat.lt_of_succ_lt hn))
    else sMid V c ⟨n + 1, hn⟩ h0 h1 (accAt c n (Nat.lt_of_succ_lt hn))

theorem accAt_first (c : Dev nD) (t : Fin cfg0.N) (h0 : t.val % 8 = 0) (h1 : ¬t.val % 8 = 7) :
    accAt V c t.val t.isLt = sFirst V c t h0 h1 := by
  obtain ⟨n, hn⟩ := t
  cases n with
  | zero => rfl
  | succ n => exact (dif_pos h0).trans rfl

theorem accAt_mid (c : Dev nD) (t : Fin cfg0.N) (h0 : ¬t.val % 8 = 0) (h1 : ¬t.val % 8 = 7) :
    accAt V c t.val t.isLt = sMid V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt V c t.val t.isLt = sLast V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output tile's staging buffer holds after the body at point `t`: at k = 7 the case's store; elsewhere the
    window is idle and this value is consulted by nothing. -/
def outAt (c : Dev nD) (t : Fin cfg0.N) : Vec F S4096x512 .bf16 :=
  if h1 : t.val % 8 = 7 then
    oLast V c t (by omega) h1 (accAt V c (t.val - 1) (Nat.lt_of_le_of_lt (Nat.sub_le _ _) t.isLt))
  else VO.read (Elt F) (VO.writes (Elt F) VO.junk [])

theorem outAt_last (c : Dev nD) (t : Fin cfg0.N) (h0 : ¬t.val % 8 = 0) (h1 : t.val % 8 = 7) :
    outAt V c t = oLast V c t h0 h1 (accAt V c (t.val - 1) (Nat.lt_of_le_of_lt (Nat.sub_le _ _) t.isLt)) := dif_pos h1

/-! ## The invariant: the accumulator carried from point to point -/

/-- Before position `n`: at the first point the class's invariant (the accumulator at anything); afterwards the
    accumulator at what the point before left, the other scoped buffers and the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ Other c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ Other c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ Other c) ∗ (∃ r, prngReg c r)) := by
  cases n with
  | zero => exact absurd rfl hz
  | succ n => rfl

/-! ## The proof data -/

/-- The arrays as the region finds them; after the body each input's buffer at its block, the output tile's at
    `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case the point is in;
    the invariant hands the body the accumulator at what the point before left (at anything at the very first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold sFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live4 t ((isLast_iff t).mpr h1)], after_4]
      rw [outAt_last V c t h0 h1, accAt_last V c t h0 h1]
      unfold oLast sLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid0.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverLast V c t h0 h1 _)
    · rw [Dat.leavesExact_idle (dat V c) 4 t (idle4 t (fun h => h1 ((isLast_iff t).mp h))) (noFlush4 t (fun h => h1 ((isLast_iff t).mp h)))]
      rw [accAt_mid V c t h0 h1]
      unfold sMid
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid0.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverMid V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS, Hoth⟩, Hg⟩
  isplitl [HS Hoth]
  · isplitl [HS]; · iexists _; iexact HS
    iexact Hoth
  iexact Hg

end Cert.Kernel.Region0

end
-- ==== Proof.Kernel.Region1.Shared.lean ====
/-
  The second layer's kernel (grid 4 × 32: output-column tile o, reduction tile k), what its runs share.

  The body branches twice on the reduction coordinate k: at k = 0 it clears its accumulator, at k = 31 it adds
  the bias, clamps at zero and stores the output tile. Both tests are decided over the 128 grid points in closed
  form. The output tile's staging buffer is stored, and written back, only at k = 31; elsewhere it is idle.
  The accumulator is the kernel's one scratch buffer; every other scoped buffer of the core (the first
  layer's staging buffers and accumulator) rides along untouched.
-/
import proofs.«423610_j1151051235470_3_alg».proof.Proof.Gen.Kernel.Launch
import proofs.«423610_j1151051235470_3_alg».proof.Proof.Gen.Kernel.Skeleton
import proofs.«423610_j1151051235470_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the reduction coordinate -/

/-- The test `k = 0`, as the body computes it from the grid coordinates. -/
abbrev isFirst (i : grid1.Coords) : Prop :=
  (Scalar.cmpi .ne (Scalar.extui (Scalar.cmpi .eq (BitVec.ofNat 32 (i 1).val) 0#32)) 0#32) = 1#1
/-- It holds at the points ≡ 0 (mod 32). -/
theorem isFirst_iff : ∀ t : Fin cfg1.N, isFirst (grid1.coords t) ↔ t.val % 32 = 0 :=
  (by decide +kernel : ∀ t : Fin grid1.N, isFirst (grid1.coords t) ↔ t.val % 32 = 0)

/-- The test `k = 31` (the last reduction step). -/
abbrev isLast (i : grid1.Coords) : Prop := k1_cond2 i = 1#1
/-- It holds at the points ≡ 7 (mod 32). -/
theorem isLast_iff : ∀ t : Fin cfg1.N, isLast (grid1.coords t) ↔ t.val % 32 = 31 :=
  (by decide +kernel : ∀ t : Fin grid1.N, isLast (grid1.coords t) ↔ t.val % 32 = 31)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Before the last reduction step the output tile is idle, -/
theorem idle4 : ∀ t : Fin cfg1.N, ¬isLast (grid1.coords t) → cfg1.idle 4 (grid1.coords t) = true := by decide +kernel
/-- and not written back; -/
theorem noFlush4 : ∀ t : Fin cfg1.N, ¬isLast (grid1.coords t) → (cfg1.win 4).flush t = false := by decide +kernel
/-- at the last step it is live. -/
theorem live4 : ∀ t : Fin cfg1.N, isLast (grid1.coords t) → cfg1.idle 4 (grid1.coords t) = false := by decide +kernel

/-! ## The memrefs the body is called with -/

abbrev ms0 (t : Fin cfg1.N) : Memref sig .tc .vmem S4096x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x256x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x512 .f32 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S4096x512 .f32 := Memref.whole cc1_scratch0
/-- One staging buffer of the output tile, and the accumulator, as views: contents are stated through them. -/
abbrev VO : View sig .tc .vmem S4096x512 .f32 := (Memref.whole cc1_stg4_0 : Memref sig .tc .vmem S4096x512 .f32).view
abbrev VS : View sig .tc .vmem S4096x512 .f32 := scM.view

/-! ## The region invariant with the accumulator taken out -/

/-- The core's other scoped buffers that are no staging buffer of this kernel, at some contents each. -/
def Other (c : Dev nD) : sProp 𝕄 :=
  Pipeline.scopedRestBut (Ix := Unit) (Name := ℕ) (U := UR sig nD τ) (Lvl := ℕ) (Val := Elt F) spec1 c [cc1_scratch0]

/-- The class's invariant is: the accumulator at some contents, the other scoped buffers, the generator register. -/
theorem PhiA_eq (c : Dev nD) :
    (Pipeline.ΦA spec1 c : sProp 𝕄)
      = iprop(iprop((∃ d, owns (c : Thread nD τ) scM fullShare d) ∗ Other c) ∗ (∃ r, prngReg c r)) := by
  unfold Pipeline.ΦA Other
  rw [Pipeline.scopedRest_split_of_list spec1 c [cc1_scratch0] (by decide) (by decide)]
  simp only [bigSepL_singleton, scM, owns_whole]
  try rfl

end Cert.Kernel.Region1

end
-- ==== Proof.Kernel.Region1.RunFirst.lean ====
/-
  The second layer's kernel body at a point with k = 0 (and k ≠ 31): it clears the accumulator, reads it back, adds the
  tile's product and stores the sum. The output tile's buffer is not touched. What the accumulator ends with is the
  list of its stores, last first: the witness the run finds.
-/
import proofs.«423610_j1151051235470_3_alg».proof.Proof.Kernel.Region1.Shared

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : isFirst i) (hc1 : ¬isLast i)
    (x0 : Vec F S4096x256 .bf16) (x1 : Vec F S8x256x512 .bf16) (x2 : Vec F S256x512 .i32) (x3 : Vec F S1x512 .f32) :
    { LS : List (View.Piece (Elt F) S4096x512 .f32) //
      ∀ (xi : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, fun xi E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region1

end
-- ==== Proof.Kernel.Region1.RunMid.lean ====
/-
  The second layer's kernel body at a point with 0 < k < 31: it reads the accumulator as the point before left it, adds the
  tile's product and stores the sum. The output tile's buffer is not touched.
-/
import proofs.«423610_j1151051235470_3_alg».proof.Proof.Kernel.Region1.RunFirst

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : ¬isFirst i) (hc1 : ¬isLast i)
    (x0 : Vec F S4096x256 .bf16) (x1 : Vec F S8x256x512 .bf16) (x2 : Vec F S256x512 .i32) (x3 : Vec F S1x512 .f32) (xs : Vec F S4096x512 .f32) :
    { LS : List (View.Piece (Elt F) S4096x512 .f32) //
      ∀ (xi : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, fun xi E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region1

end
-- ==== Proof.Kernel.Region1.RunLast.lean ====
/-
  The second layer's kernel body at a point with k = 31: it adds the tile's product to the accumulator as the point before
  left it, stores the sum, reads it back, adds the bias row, clamps at zero and stores the result into the output tile's
  buffer, whatever that held.
-/
import proofs.«423610_j1151051235470_3_alg».proof.Proof.Kernel.Region1.RunMid

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : ¬isFirst i) (hc1 : isLast i)
    (x0 : Vec F S4096x256 .bf16) (x1 : Vec F S8x256x512 .bf16) (x2 : Vec F S256x512 .i32) (x3 : Vec F S1x512 .f32) (xs : Vec F S4096x512 .f32) :
    Σ' (L4 : List (View.Piece (Elt F) S4096x512 .f32)), { LS : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, ?_, fun E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Region1

end
-- ==== Proof.Kernel.Region1.Frame.lean ====
/-
  The second layer's region at a PARAMETER `V`, the TensorCore's buffer contents when the region is entered.

  Per grid point t = 32·o + k the body finds in its input buffers the blocks of the arrays at t (fetched there or
  not: the bias row is fetched only at k = 0 and kept since). What the accumulator holds after point t is defined by
  recursion on t — cleared and updated at k = 0, updated from the point before otherwise —, each case's contents
  being what that case's run of the body stores, read back. The region's invariant carries the accumulator at
  exactly those contents from one point to the next; the output tile's buffer is stored at k = 31, from the
  accumulator, and idle elsewhere.
-/
import proofs.«423610_j1151051235470_3_alg».proof.Proof.Kernel.Region1.RunLast

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverFirst (c : Dev nD) (t : Fin cfg1.N) (h0 : t.val % 32 = 0) (h1 : ¬t.val % 32 = 31) (y : S4096x512.Idx) :
    ∃ pc ∈ (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1, y ∈ pc.1.set :=
  View.cover_of_tiledL (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1 S4096x512.size (by sl_kernel_rfl) y

/-- The accumulator after a point with k = 0: the case's stores read back. -/
def sFirst (c : Dev nD) (t : Fin cfg1.N) (h0 : t.val % 32 = 0) (h1 : ¬t.val % 32 = 31) : Vec F S4096x512 .f32 :=
  VS.read (Elt F) (VS.writes (Elt F) VS.junk (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1)

theorem scoverMid (c : Dev nD) (t : Fin cfg1.N) (h0 : ¬t.val % 32 = 0) (h1 : ¬t.val % 32 = 31) (xs : Vec F S4096x512 .f32) (y : S4096x512.Idx) :
    ∃ pc ∈ (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1, y ∈ pc.1.set :=
  View.cover_of_tiledL (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1 S4096x512.size (by sl_kernel_rfl) y

/-- The accumulator after a point with 0 < k < 31, over what the point before left (`xs`). -/
def sMid (c : Dev nD) (t : Fin cfg1.N) (h0 : ¬t.val % 32 = 0) (h1 : ¬t.val % 32 = 31) (xs : Vec F S4096x512 .f32) : Vec F S4096x512 .f32 :=
  VS.read (Elt F) (VS.writes (Elt F) VS.junk (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1)

theorem scoverLast (c : Dev nD) (t : Fin cfg1.N) (h0 : ¬t.val % 32 = 0) (h1 : t.val % 32 = 31) (xs : Vec F S4096x512 .f32) (y : S4096x512.Idx) :
    ∃ pc ∈ (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1, y ∈ pc.1.set :=
  View.cover_of_tiledL (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1 S4096x512.size (by sl_kernel_rfl) y

/-- The accumulator after a point with k = 31. -/
def sLast (c : Dev nD) (t : Fin cfg1.N) (h0 : ¬t.val % 32 = 0) (h1 : t.val % 32 = 31) (xs : Vec F S4096x512 .f32) : Vec F S4096x512 .f32 :=
  VS.read (Elt F) (VS.writes (Elt F) VS.junk (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1)

theorem ocoverLast (c : Dev nD) (t : Fin cfg1.N) (h0 : ¬t.val % 32 = 0) (h1 : t.val % 32 = 31) (xs : Vec F S4096x512 .f32) (y : S4096x512.Idx) :
    ∃ pc ∈ (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1, y ∈ pc.1.set :=
  View.cover_of_tiledL (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1 S4096x512.size (by sl_kernel_rfl) y

/-- The output tile's staging buffer after a point with k = 31. -/
def oLast (c : Dev nD) (t : Fin cfg1.N) (h0 : ¬t.val % 32 = 0) (h1 : t.val % 32 = 31) (xs : Vec F S4096x512 .f32) : Vec F S4096x512 .f32 :=
  VO.read (Elt F) (VO.writes (Elt F) VO.junk (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1)

/-! ## The accumulator point by point -/

/-- What the accumulator holds after the body at position `n`. -/
def accAt (c : Dev nD) : (n : ℕ) → n < cfg1.N → Vec F S4096x512 .f32
  | 0, hn => sFirst V c ⟨0, hn⟩ (Nat.zero_mod _) (by show ¬(0 % 32 = 31); decide)
  | n + 1, hn =>
    if h0 : (n + 1) % 32 = 0 then sFirst V c ⟨n + 1, hn⟩ h0 (by show ¬((n + 1) % 32 = 31); omega)
    else if h1 : (n + 1) % 32 = 31 then sLast V c ⟨n + 1, hn⟩ h0 h1 (accAt c n (Nat.lt_of_succ_lt hn))
    else sMid V c ⟨n + 1, hn⟩ h0 h1 (accAt c n (Nat.lt_of_succ_lt hn))

theorem accAt_first (c : Dev nD) (t : Fin cfg1.N) (h0 : t.val % 32 = 0) (h1 : ¬t.val % 32 = 31) :
    accAt V c t.val t.isLt = sFirst V c t h0 h1 := by
  obtain ⟨n, hn⟩ := t
  cases n with
  | zero => rfl
  | succ n => exact (dif_pos h0).trans rfl

theorem accAt_mid (c : Dev nD) (t : Fin cfg1.N) (h0 : ¬t.val % 32 = 0) (h1 : ¬t.val % 32 = 31) :
    accAt V c t.val t.isLt = sMid V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg1.N) (h0 : ¬t.val % 32 = 0) (h1 : t.val % 32 = 31) :
    accAt V c t.val t.isLt = sLast V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output tile's staging buffer holds after the body at point `t`: at k = 31 the case's store; elsewhere the
    window is idle and this value is consulted by nothing. -/
def outAt (c : Dev nD) (t : Fin cfg1.N) : Vec F S4096x512 .f32 :=
  if h1 : t.val % 32 = 31 then
    oLast V c t (by omega) h1 (accAt V c (t.val - 1) (Nat.lt_of_le_of_lt (Nat.sub_le _ _) t.isLt))
  else VO.read (Elt F) (VO.writes (Elt F) VO.junk [])

theorem outAt_last (c : Dev nD) (t : Fin cfg1.N) (h0 : ¬t.val % 32 = 0) (h1 : t.val % 32 = 31) :
    outAt V c t = oLast V c t h0 h1 (accAt V c (t.val - 1) (Nat.lt_of_le_of_lt (Nat.sub_le _ _) t.isLt)) := dif_pos h1

/-! ## The invariant: the accumulator carried from point to point -/

/-- Before position `n`: at the first point the class's invariant (the accumulator at anything); afterwards the
    accumulator at what the point before left, the other scoped buffers and the generator register. -/
def PhiS (c : Dev nD) : (n : ℕ) → n ≤ cfg1.N → sProp 𝕄
  | 0, _ => Pipeline.ΦA spec1 c
  | n + 1, hn => iprop(iprop(owns (c : Thread nD τ) scM fullShare (accAt V c n hn) ∗ Other c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ Other c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ Other c) ∗ (∃ r, prngReg c r)) := by
  cases n with
  | zero => exact absurd rfl hz
  | succ n => rfl

/-! ## The proof data -/

/-- The arrays as the region finds them; after the body each input's buffer at its block, the output tile's at
    `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case the point is in;
    the invariant hands the body the accumulator at what the point before left (at anything at the very first
    point) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 32 = 0
  · have h1 : ¬t.val % 32 = 31 := by omega
    rw [Dat.leavesExact_idle (dat V c) 4 t (idle4 t (fun h => h1 ((isLast_iff t).mp h))) (noFlush4 t (fun h => h1 ((isLast_iff t).mp h)))]
    rw [accAt_first V c t h0 h1]
    unfold sFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 32 = 31
    · rw [show (dat V c).leavesExact 4 t = owns (c : Thread nD τ) (ms4 t) fullShare ((dat V c).after 4 t) from by
        unfold Dat.leavesExact; rw [live4 t ((isLast_iff t).mpr h1)], after_4]
      rw [outAt_last V c t h0 h1, accAt_last V c t h0 h1]
      unfold oLast sLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid1.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverLast V c t h0 h1 _)
    · rw [Dat.leavesExact_idle (dat V c) 4 t (idle4 t (fun h => h1 ((isLast_iff t).mp h))) (noFlush4 t (fun h => h1 ((isLast_iff t).mp h)))]
      rw [accAt_mid V c t h0 h1]
      unfold sMid
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid1.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverMid V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS, Hoth⟩, Hg⟩
  isplitl [HS Hoth]
  · isplitl [HS]; · iexists _; iexact HS
    iexact Hoth
  iexact Hg

end Cert.Kernel.Region1

end
-- ==== Proof.Kernel.Whole.lean ====
/-
  The whole program: two host stretches (casts, a reshape of the bias, a transposition of the weight bank) each
  followed by a layer's kernel region. The TensorCore's unscoped buffers are followed from the launch memory
  through the four segments: a host stretch applies its operations, a region replaces its windows' arrays by what
  its write-backs leave and keeps every other buffer. Each argument array is read back through that fold to its
  launch contents; the result buffer holds what the second region's write-backs leave in its output array.
-/
import proofs.«423610_j1151051235470_3_alg».proof.Proof.Kernel.Region0.Frame
import proofs.«423610_j1151051235470_3_alg».proof.Proof.Kernel.Region1.Frame
import proofs.«423610_j1151051235470_3_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev at0 : Dev nD → Valuation τ sig (Elt F) := fun c b => (s₀ m ρ).mem ((c : Dev nD), b)
/-- After the first host stretch (the first region's entry). -/
abbrev at1 : Dev nD → Valuation τ sig (Elt F) := fun c => StableHlo.after hostOps0 (at0 m ρ c)
/-- The same read at the TensorCore's references. -/
abbrev in0 : (c : Dev nD) → (b : Ref sig .tc) → Buf (Elt F) ((c : Thread nD τ).loc b) := fun c b => at1 m ρ c b
/-- At the first region's exit: its arrays at what the pipeline leaves, every other buffer as entered. -/
def at2 (c : Dev nD) : Valuation τ sig (Elt F) :=
  Pipeline.withArrays spec0 c (at1 m ρ c) fun w => (Region0.dat (in0 m ρ) c).arrAt w cfg0.N
theorem at2_arr (c : Dev nD) (w : Fin cfg0.W) :
    at2 m ρ c (Proc.devRef .tc (Pipeline.arrRef spec0 w)) = (Region0.dat (in0 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev ex0 : (c : Dev nD) → (b : Ref sig .tc) → Buf (Elt F) ((c : Thread nD τ).loc b) := fun c b => at2 m ρ c b
theorem hF0 (c : Dev nD) (w : Fin cfg0.W) : (Region0.dat (in0 m ρ) c).arrAt w cfg0.N = ex0 m ρ c (Pipeline.arrRef spec0 w) :=
  (at2_arr m ρ c w).symm
theorem hrest0 (c : Dev nD) : ∀ b, b ∉ Finset.univ.image (Pipeline.arrRef spec0) → ex0 m ρ c b = in0 m ρ c b :=
  fun b hb => at2_of_ne m ρ c b fun w e => hb (Finset.mem_image.mpr ⟨w, Finset.mem_univ _, e⟩)

/-- After the second host stretch (the second region's entry). -/
abbrev at3 : Dev nD → Valuation τ sig (Elt F) := fun c => StableHlo.after hostOps1 (at2 m ρ c)
abbrev in1 : (c : Dev nD) → (b : Ref sig .tc) → Buf (Elt F) ((c : Thread nD τ).loc b) := fun c b => at3 m ρ c b
/-- At the second region's exit. -/
def at4 (c : Dev nD) : Valuation τ sig (Elt F) :=
  Pipeline.withArrays spec1 c (at3 m ρ c) fun w => (Region1.dat (in1 m ρ) c).arrAt w cfg1.N
theorem at4_arr (c : Dev nD) (w : Fin cfg1.W) :
    at4 m ρ c (Proc.devRef .tc (Pipeline.arrRef spec1 w)) = (Region1.dat (in1 m ρ) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
abbrev ex1 : (c : Dev nD) → (b : Ref sig .tc) → Buf (Elt F) ((c : Thread nD τ).loc b) := fun c b => at4 m ρ c b
theorem hF1 (c : Dev nD) (w : Fin cfg1.W) : (Region1.dat (in1 m ρ) c).arrAt w cfg1.N = ex1 m ρ c (Pipeline.arrRef spec1 w) :=
  (at4_arr m ρ c w).symm
theorem hrest1 (c : Dev nD) : ∀ b, b ∉ Finset.univ.image (Pipeline.arrRef spec1) → ex1 m ρ c b = in1 m ρ c b :=
  fun b hb => at4_of_ne m ρ c b fun w e => hb (Finset.mem_image.mpr ⟨w, Finset.mem_univ _, e⟩)

/-! ### The arguments end as launched, and the result is the second region's output array -/

theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := at4_of_ne m ρ c main_arg0 (by decide)
    _ = at2 m ρ c (Proc.devRef .tc main_arg0) := StableHlo.after_of_writes_sub hostOps1 _ hostOps1_writes (by decide)
    _ = at1 m ρ c (Proc.devRef .tc main_arg0) := at2_of_ne m ρ c main_arg0 (by decide)
    _ = at0 m ρ c (Proc.devRef .tc main_arg0) := StableHlo.after_of_writes_sub hostOps0 _ hostOps0_writes (by decide)
    _ = m ((c : Thread nD τ).loc main_arg0) := rfl
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := at4_of_ne m ρ c main_arg1 (by decide)
    _ = at2 m ρ c (Proc.devRef .tc main_arg1) := StableHlo.after_of_writes_sub hostOps1 _ hostOps1_writes (by decide)
    _ = at1 m ρ c (Proc.devRef .tc main_arg1) := at2_of_ne m ρ c main_arg1 (by decide)
    _ = at0 m ρ c (Proc.devRef .tc main_arg1) := StableHlo.after_of_writes_sub hostOps0 _ hostOps0_writes (by decide)
    _ = m ((c : Thread nD τ).loc main_arg1) := rfl
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := at4_of_ne m ρ c main_arg2 (by decide)
    _ = at2 m ρ c (Proc.devRef .tc main_arg2) := StableHlo.after_of_writes_sub hostOps1 _ hostOps1_writes (by decide)
    _ = at1 m ρ c (Proc.devRef .tc main_arg2) := at2_of_ne m ρ c main_arg2 (by decide)
    _ = at0 m ρ c (Proc.devRef .tc main_arg2) := StableHlo.after_of_writes_sub hostOps0 _ hostOps0_writes (by decide)
    _ = m ((c : Thread nD τ).loc main_arg2) := rfl
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := at4_of_ne m ρ c main_arg3 (by decide)
    _ = at2 m ρ c (Proc.devRef .tc main_arg3) := StableHlo.after_of_writes_sub hostOps1 _ hostOps1_writes (by decide)
    _ = at1 m ρ c (Proc.devRef .tc main_arg3) := (at2_arr m ρ c 2).trans (((Region0.dat (in0 m ρ) c).arrAt_in 2 rfl _).trans (Region0.A_eq (in0 m ρ) c 2))
    _ = at0 m ρ c (Proc.devRef .tc main_arg3) := StableHlo.after_of_writes_sub hostOps0 _ hostOps0_writes (by decide)
    _ = m ((c : Thread nD τ).loc main_arg3) := rfl
theorem at4_main_arg4 (c : Dev nD) : at4 m ρ c (Proc.devRef .tc main_arg4) = m ((c : Thread nD τ).loc main_arg4) :=
  calc at4 m ρ c (Proc.devRef .tc main_arg4)
    _ = at3 m ρ c (Proc.devRef .tc main_arg4) := at4_of_ne m ρ c main_arg4 (by decide)
    _ = at2 m ρ c (Proc.devRef .tc main_arg4) := StableHlo.after_of_writes_sub hostOps1 _ hostOps1_writes (by decide)
    _ = at1 m ρ c (Proc.devRef .tc main_arg4) := at2_of_ne m ρ c main_arg4 (by decide)
    _ = at0 m ρ c (Proc.devRef .tc main_arg4) := StableHlo.after_of_writes_sub hostOps0 _ hostOps0_writes (by decide)
    _ = m ((c : Thread nD τ).loc main_arg4) := rfl
theorem at4_main_arg5 (c : Dev nD) : at4 m ρ c (Proc.devRef .tc main_arg5) = m ((c : Thread nD τ).loc main_arg5) :=
  calc at4 m ρ c (Proc.devRef .tc main_arg5)
    _ = at3 m ρ c (Proc.devRef .tc main_arg5) := at4_of_ne m ρ c main_arg5 (by decide)
    _ = at2 m ρ c (Proc.devRef .tc main_arg5) := StableHlo.after_of_writes_sub hostOps1 _ hostOps1_writes (by decide)
    _ = at1 m ρ c (Proc.devRef .tc main_arg5) := at2_of_ne m ρ c main_arg5 (by decide)
    _ = at0 m ρ c (Proc.devRef .tc main_arg5) := StableHlo.after_of_writes_sub hostOps0 _ hostOps0_writes (by decide)
    _ = m ((c : Thread nD τ).loc main_arg5) := rfl
theorem at4_main_arg6 (c : Dev nD) : at4 m ρ c (Proc.devRef .tc main_arg6) = m ((c : Thread nD τ).loc main_arg6) :=
  calc at4 m ρ c (Proc.devRef .tc main_arg6)
    _ = at3 m ρ c (Proc.devRef .tc main_arg6) := (at4_arr m ρ c 2).trans (((Region1.dat (in1 m ρ) c).arrAt_in 2 rfl _).trans (Region1.A_eq (in1 m ρ) c 2))
    _ = at2 m ρ c (Proc.devRef .tc main_arg6) := StableHlo.after_of_writes_sub hostOps1 _ hostOps1_writes (by decide)
    _ = at1 m ρ c (Proc.devRef .tc main_arg6) := at2_of_ne m ρ c main_arg6 (by decide)
    _ = at0 m ρ c (Proc.devRef .tc main_arg6) := StableHlo.after_of_writes_sub hostOps0 _ hostOps0_writes (by decide)
    _ = m ((c : Thread nD τ).loc main_arg6) := rfl

/-- The result buffer is the second region's output window's array. -/
theorem at4_main_v0 (c : Dev nD) : at4 m ρ c (Proc.devRef .tc main_v0) = (Region1.dat (in1 m ρ) c).arrAt 4 cfg1.N :=
  at4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (in0 m ρ) c
  | ⟨1, _⟩ => fun c => Region1.dat (in1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (at4 m ρ c) ∗ ∃ r, prngReg c r)

/-! ## The regions as segments -/

set_option backward.isDefEq.respectTransparency.types false in
/-- REGION 0 over the thread state: entered from every unscoped buffer at `at1`, left at `at2`. Its arrays are split
    out of the unscoped buffers and put back at the exit contents; the generator register and the scoped rest go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (in0 m ρ) c)
    unfold Pipeline.ΦA
    iintro ⟨Hp, -, Hr⟩
    isplitl [Hr]; · iexact Hr
    iexact Hp
  hout c := by
    rw [Pipeline.ownSems0_none]
    refine BIBase.Entails.trans (Region0.hout (in0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `at3`, left at `at4`. Its arrays are split
    out of the unscoped buffers and put back at the exit contents; the generator register and the scoped rest go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (in1 m ρ) c)
    unfold Pipeline.ΦA
    iintro ⟨Hp, -, Hr⟩
    isplitl [Hr]; · iexact Hr
    iexact Hp
  hout c := by
    rw [Pipeline.ownSems0_none]
    refine BIBase.Entails.trans (Region1.hout (in1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (at0 m ρ)),
    .region (reg0 m ρ),
    .host (hseg hostOps1 hostOps1_sub hostOps1_fresh (at2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds in the result buffer what the second region's write-backs leave in
    its output array, and every argument array as launched. -/
theorem run_main : θ_run defs (onTc (τ := τ) (main (F := F))) ⟨m, fun _ => 0, ρ⟩ (fun r => ∀ c : Dev nD,
      r.2.mem ((c.tc : Thread nD τ).loc main_v0) = (Region1.dat (in1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c =>
      ⟨(h c _ (mem_uc main_v0 (by decide))).trans (at4_main_v0 m ρ c),
       (h c _ (mem_uc main_arg0 (by decide))).trans (at4_main_arg0 m ρ c),
       (h c _ (mem_uc main_arg1 (by decide))).trans (at4_main_arg1 m ρ c),
       (h c _ (mem_uc main_arg2 (by decide))).trans (at4_main_arg2 m ρ c),
       (h c _ (mem_uc main_arg3 (by decide))).trans (at4_main_arg3 m ρ c),
       (h c _ (mem_uc main_arg4 (by decide))).trans (at4_main_arg4 m ρ c),
       (h c _ (mem_uc main_arg5 (by decide))).trans (at4_main_arg5 m ρ c),
       (h c _ (mem_uc main_arg6 (by decide))).trans (at4_main_arg6 m ρ c)⟩)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Whole

end
-- ==== Proof.KernelIdeal.Region0.Shared.lean ====
/-
  The first layer's kernel (grid 16 × 8: output-column tile o, reduction tile k), what its runs share.

  The body branches twice on the reduction coordinate k: at k = 0 it clears its accumulator, at k = 7 it adds
  the bias, clamps at zero and stores the output tile. Both tests are decided over the 128 grid points in closed
  form. The output tile's staging buffer is stored, and written back, only at k = 7; elsewhere it is idle.
  The accumulator is the kernel's one scratch buffer; every other scoped buffer of the core (the second
  layer's staging buffers and accumulator) rides along untouched.
-/
import proofs.«423610_j1151051235470_3_alg».proof.Proof.Gen.KernelIdeal.Launch
import proofs.«423610_j1151051235470_3_alg».proof.Proof.Gen.KernelIdeal.Skeleton
import proofs.«423610_j1151051235470_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the reduction coordinate -/

/-- The test `k = 0`, as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The test `k = 7` (the last reduction step). -/
abbrev isLast (i : grid0.Coords) : Prop := k0_cond2 i = 1#1
/-- It holds at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before the last reduction step the output tile is idle, -/
theorem idle4 : ∀ t : Fin cfg0.N, ¬isLast (grid0.coords t) → cfg0.idle 4 (grid0.coords t) = true := by decide +kernel
/-- and not written back; -/
theorem noFlush4 : ∀ t : Fin cfg0.N, ¬isLast (grid0.coords t) → (cfg0.win 4).flush t = false := by decide +kernel
/-- at the last step it is live. -/
theorem live4 : ∀ t : Fin cfg0.N, isLast (grid0.coords t) → cfg0.idle 4 (grid0.coords t) = false := by decide +kernel

/-! ## The memrefs the body is called with -/

abbrev ms0 (t : Fin cfg0.N) : Memref sig .tc .vmem S4096x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x512 .bf16 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S4096x512 .f32 := Memref.whole cc0_scratch0
/-- One staging buffer of the output tile, and the accumulator, as views: contents are stated through them. -/
abbrev VO : View sig .tc .vmem S4096x512 .bf16 := (Memref.whole cc0_stg4_0 : Memref sig .tc .vmem S4096x512 .bf16).view
abbrev VS : View sig .tc .vmem S4096x512 .f32 := scM.view

/-! ## The region invariant with the accumulator taken out -/

/-- The core's other scoped buffers that are no staging buffer of this kernel, at some contents each. -/
def Other (c : Dev nD) : sProp 𝕄 :=
  Pipeline.scopedRestBut (Ix := Unit) (Name := ℕ) (U := UR sig nD τ) (Lvl := ℕ) (Val := Elt F) spec0 c [cc0_scratch0]

/-- The class's invariant is: the accumulator at some contents, the other scoped buffers, the generator register. -/
theorem PhiA_eq (c : Dev nD) :
    (Pipeline.ΦA spec0 c : sProp 𝕄)
      = iprop(iprop((∃ d, owns (c : Thread nD τ) scM fullShare d) ∗ Other c) ∗ (∃ r, prngReg c r)) := by
  unfold Pipeline.ΦA Other
  rw [Pipeline.scopedRest_split_of_list spec0 c [cc0_scratch0] (by decide) (by decide)]
  simp only [bigSepL_singleton, scM, owns_whole]
  try rfl

end Cert.KernelIdeal.Region0

end
-- ==== Proof.KernelIdeal.Region0.RunFirst.lean ====
/-
  The first layer's kernel body at a point with k = 0 (and k ≠ 7): it clears the accumulator, reads it back, adds the
  tile's product and stores the sum. The output tile's buffer is not touched. What the accumulator ends with is the
  list of its stores, last first: the witness the run finds.
-/
import proofs.«423610_j1151051235470_3_alg».proof.Proof.KernelIdeal.Region0.Shared

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : isFirst i) (hc1 : ¬isLast i)
    (x0 : Vec F S4096x256 .bf16) (x1 : Vec F S8x256x512 .bf16) (x2 : Vec F S256x512 .i32) (x3 : Vec F S1x512 .f32) :
    { LS : List (View.Piece (Elt F) S4096x512 .f32) //
      ∀ (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, fun xi E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region0

end
-- ==== Proof.KernelIdeal.Region0.RunMid.lean ====
/-
  The first layer's kernel body at a point with 0 < k < 7: it reads the accumulator as the point before left it, adds the
  tile's product and stores the sum. The output tile's buffer is not touched.
-/
import proofs.«423610_j1151051235470_3_alg».proof.Proof.KernelIdeal.Region0.RunFirst

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : ¬isFirst i) (hc1 : ¬isLast i)
    (x0 : Vec F S4096x256 .bf16) (x1 : Vec F S8x256x512 .bf16) (x2 : Vec F S256x512 .i32) (x3 : Vec F S1x512 .f32) (xs : Vec F S4096x512 .f32) :
    { LS : List (View.Piece (Elt F) S4096x512 .f32) //
      ∀ (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, fun xi E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region0

end
-- ==== Proof.KernelIdeal.Region0.RunLast.lean ====
/-
  The first layer's kernel body at a point with k = 7: it adds the tile's product to the accumulator as the point before
  left it, stores the sum, reads it back, adds the bias row, clamps at zero and stores the result into the output tile's
  buffer, whatever that held.
-/
import proofs.«423610_j1151051235470_3_alg».proof.Proof.KernelIdeal.Region0.RunMid

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S4096x512 .f32) (harg7 : arg7.IsWhole) (hc0 : ¬isFirst i) (hc1 : isLast i)
    (x0 : Vec F S4096x256 .bf16) (x1 : Vec F S8x256x512 .bf16) (x2 : Vec F S256x512 .i32) (x3 : Vec F S1x512 .f32) (xs : Vec F S4096x512 .f32) :
    Σ' (L4 : List (View.Piece (Elt F) S4096x512 .bf16)), { LS : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__dwb_kernel i arg2 harg2 arg3 harg3 arg4 harg4 arg5 harg5 arg6 harg6 arg7 harg7) K } := by
  refine ⟨?_, ?_, fun E K => ?run⟩
  case run =>
    simp only [cc0__dwb_kernel_eq_skeleton]; unfold cc0__dwb_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Region0

end
-- ==== Proof.KernelIdeal.Region0.Frame.lean ====
/-
  The first layer's region at a PARAMETER `V`, the TensorCore's buffer contents when the region is entered.

  Per grid point t = 8·o + k the body finds in its input buffers the blocks of the arrays at t (fetched there or
  not: the bias row is fetched only at k = 0 and kept since). What the accumulator holds after point t is defined by
  recursion on t — cleared and updated at k = 0, updated from the point before otherwise —, each case's contents
  being what that case's run of the body stores, read back. The region's invariant carries the accumulator at
  exactly those contents from one point to the next; the output tile's buffer is stored at k = 7, from the
  accumulator, and idle elsewhere.
-/
import proofs.«423610_j1151051235470_3_alg».proof.Proof.KernelIdeal.Region0.RunLast

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverFirst (c : Dev nD) (t : Fin cfg0.N) (h0 : t.val % 8 = 0) (h1 : ¬t.val % 8 = 7) (y : S4096x512.Idx) :
    ∃ pc ∈ (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1, y ∈ pc.1.set :=
  View.cover_of_tiledL (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1 S4096x512.size (by sl_kernel_rfl) y

/-- The accumulator after a point with k = 0: the case's stores read back. -/
def sFirst (c : Dev nD) (t : Fin cfg0.N) (h0 : t.val % 8 = 0) (h1 : ¬t.val % 8 = 7) : Vec F S4096x512 .f32 :=
  VS.read (Elt F) (VS.writes (Elt F) VS.junk (runFirst (F := F) c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1)

theorem scoverMid (c : Dev nD) (t : Fin cfg0.N) (h0 : ¬t.val % 8 = 0) (h1 : ¬t.val % 8 = 7) (xs : Vec F S4096x512 .f32) (y : S4096x512.Idx) :
    ∃ pc ∈ (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1, y ∈ pc.1.set :=
  View.cover_of_tiledL (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1 S4096x512.size (by sl_kernel_rfl) y

/-- The accumulator after a point with 0 < k < 7, over what the point before left (`xs`). -/
def sMid (c : Dev nD) (t : Fin cfg0.N) (h0 : ¬t.val % 8 = 0) (h1 : ¬t.val % 8 = 7) (xs : Vec F S4096x512 .f32) : Vec F S4096x512 .f32 :=
  VS.read (Elt F) (VS.writes (Elt F) VS.junk (runMid (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1)

theorem scoverLast (c : Dev nD) (t : Fin cfg0.N) (h0 : ¬t.val % 8 = 0) (h1 : t.val % 8 = 7) (xs : Vec F S4096x512 .f32) (y : S4096x512.Idx) :
    ∃ pc ∈ (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1, y ∈ pc.1.set :=
  View.cover_of_tiledL (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1 S4096x512.size (by sl_kernel_rfl) y

/-- The accumulator after a point with k = 7. -/
def sLast (c : Dev nD) (t : Fin cfg0.N) (h0 : ¬t.val % 8 = 0) (h1 : t.val % 8 = 7) (xs : Vec F S4096x512 .f32) : Vec F S4096x512 .f32 :=
  VS.read (Elt F) (VS.writes (Elt F) VS.junk (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1)

theorem ocoverLast (c : Dev nD) (t : Fin cfg0.N) (h0 : ¬t.val % 8 = 0) (h1 : t.val % 8 = 7) (xs : Vec F S4096x512 .f32) (y : S4096x512.Idx) :
    ∃ pc ∈ (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1, y ∈ pc.1.set :=
  View.cover_of_tiledL (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1 S4096x512.size (by sl_kernel_rfl) y

/-- The output tile's staging buffer after a point with k = 7. -/
def oLast (c : Dev nD) (t : Fin cfg0.N) (h0 : ¬t.val % 8 = 0) (h1 : t.val % 8 = 7) (xs : Vec F S4096x512 .f32) : Vec F S4096x512 .bf16 :=
  VO.read (Elt F) (VO.writes (Elt F) VO.junk (runLast (F := F) c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1)

/-! ## The accumulator point by point -/

/-- What the accumulator holds after the body at position `n`. -/
def accAt (c : Dev nD) : (n : ℕ) → n < cfg0.N → Vec F S4096x512 .f32
  | 0, hn => sFirst V c ⟨0, hn⟩ (Nat.zero_mod _) (by show ¬(0 % 8 = 7); decide)
  | n + 1, hn =>
    if h0 : (n + 1) % 8 = 0 then sFirst V c ⟨n + 1, hn⟩ h0 (by show ¬((n + 1) % 8 = 7); omega)
    else if h1 : (n + 1) % 8 = 7 then sLast V c ⟨n + 1, hn⟩ h0 h1 (accAt c n (Nat.lt_of_succ_lt hn))
    else sMid V c ⟨n + 1, hn⟩ h0 h1 (accAt c n (Nat.lt_of_succ_lt hn))

theorem accAt_first (c : Dev nD) (t : Fin cfg0.N) (h0 : t.val % 8 = 0) (h1 : ¬t.val % 8 = 7) :
    accAt V c t.val t.isLt = sFirst V c t h0 h1 := by
  obtain ⟨n, hn⟩ := t
  cases n with
  | zero => rfl
  | succ n => exact (dif_pos h0).trans rfl

theorem accAt_mid (c : Dev nD) (t : Fin cfg0.N) (h0 : ¬t.val % 8 = 0) (h1 : ¬t.val % 8 = 7) :
    accAt V c t.val t.isLt = sMid V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt V c t.val t.isLt = sLast V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output tile's staging buffer holds after the body at point `t`: at k = 7 the case's store; elsewhere the
    window is idle and this value is consulted by nothing. -/
def outAt (c : Dev nD) (t : Fin cfg0.N) : Vec F S4096x512 .bf16 :=
  if h1 : t.val % 8 = 7 then
    oLast V c t (by omega) h1 (accAt V c (t.val - 1) (Nat.lt_of_le_of_lt (Nat.sub_le _ _) t.isLt))
  else VO.read (Elt F) (VO.writes (Elt F) VO.junk [])

theorem outAt_last (c : Dev nD) (t : Fin cfg0.N) (h0 : ¬t.val % 8 = 0) (h1 : t.val % 8 = 7) :
    outAt V c t = oLast V c t h0 h1 (accAt V c (t.val - 1) (Nat.lt_of_le_of_lt (Nat.sub_le _ _) t.isLt)) := dif_pos h1

/-! ## The invariant: the accumulator carried from point to point -/

/-- Before position `n`: at the first point the class's invariant (the accumulator at anything); afterwards the
    accumulator at what the point before left, the other scoped buffers and the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ Other c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ Other c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ Other c) ∗ (∃ r, prngReg c r)) := by
  cases n with
  | zero => exact absurd rfl hz
  | succ n => rfl

/-! ## The proof data -/

/-- The arrays as the region finds them; after the body each input's buffer at its block, the output tile's at
    `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case the point is in;
    the invariant hands the body the accumulator at what the point before left (at anything at the very first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold sFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live4 t ((isLast_iff t).mpr h1)], after_4]
      rw [outAt_last V c t h0 h1, accAt_last V c t h0 h1]
      unfold oLast sLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid0.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverLast V c t h0 h1 _)
    · rw [Dat.leavesExact_idle (dat V c) 4 t (idle4 t (fun h => h1 ((isLast_iff t).mp h))) (noFlush4 t (fun h => h1 ((isLast_iff t).mp h)))]
      rw [accAt_mid V c t h0 h1]
      unfold sMid
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid0.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverMid V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS, Hoth⟩, Hg⟩
  isplitl [HS Hoth]
  · isplitl [HS]; · iexists _; iexact HS
    iexact Hoth
  iexact Hg

end Cert.KernelIdeal.Region0

end
-- ==== Proof.KernelIdeal.Region1.Shared.lean ====
/-
  The second layer's kernel (grid 4 × 32: output-column tile o, reduction tile k), what its runs share.

  The body branches twice on the reduction coordinate k: at k = 0 it clears its accumulator, at k = 31 it adds
  the bias, clamps at zero and stores the output tile. Both tests are decided over the 128 grid points in closed
  form. The output tile's staging buffer is stored, and written back, only at k = 31; elsewhere it is idle.
  The accumulator is the kernel's one scratch buffer; every other scoped buffer of the core (the first
  layer's staging buffers and accumulator) rides along untouched.
-/
import proofs.«423610_j1151051235470_3_alg».proof.Proof.Gen.KernelIdeal.Launch
import proofs.«423610_j1151051235470_3_alg».proof.Proof.Gen.KernelIdeal.Skeleton
import proofs.«423610_j1151051235470_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the reduction coordinate -/

/-- The test `k = 0`, as the body computes it from the grid coordinates. -/
abbrev isFirst (i : grid1.Coords) : Prop :=
  (Scalar.cmpi .ne (Scalar.extui (Scalar.cmpi .eq (BitVec.ofNat 32 (i 1).val) 0#32)) 0#32) = 1#1
/-- It holds at the points ≡ 0 (mod 32). -/
theorem isFirst_iff : ∀ t : Fin cfg1.N, isFirst (grid1.coords t) ↔ t.val % 32 = 0 :=
  (by decide +kernel : ∀ t : Fin grid1.N, isFirst (grid1.coords t) ↔ t.val % 32 = 0)

/-- The test `k = 31` (the last reduction step). -/
abbrev isLast (i : grid1.Coords) : Prop := k1_cond2 i = 1#1
/-- It holds at the points ≡ 7 (mod 32). -/
theorem isLast_iff : ∀ t : Fin cfg1.N, isLast (grid1.coords t) ↔ t.val % 32 = 31 :=
  (by decide +kernel : ∀ t : Fin grid1.N, isLast (grid1.coords t) ↔ t.val % 32 = 31)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Before the last reduction step the output tile is idle, -/
theorem idle4 : ∀ t : Fin cfg1.N, ¬isLast (grid1.coords t) → cfg1.idle 4 (grid1.coords t) = true := by decide +kernel
/-- and not written back; -/
theorem noFlush4 : ∀ t : Fin cfg1.N, ¬isLast (grid1.coords t) → (cfg1.win 4).flush t = false := by decide +kernel
/-- at the last step it is live. -/
theorem live4 : ∀ t : Fin cfg1.N, isLast (grid1.coords t) → cfg1.idle 4 (grid1.coords t) = false := by decide +kernel

/-! ## The memrefs the body is called with -/

abbrev ms0 (t : Fin cfg1.N) : Memref sig .tc .vmem S4096x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x256x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x512 .f32 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S4096x512 .f32 := Memref.whole cc1_scratch0
/-- One staging buffer of the output tile, and the accumulator, as views: contents are stated through them. -/
abbrev VO : View sig .tc .vmem S4096x512 .f32 := (Memref.whole cc1_stg4_0 : Memref sig .tc .vmem S4096x512 .f32).view
abbrev VS : View sig .tc .vmem S4096x512 .f32 := scM.view

/-! ## The region invariant with the accumulator taken out -/

/-- The core's other scoped buffers that are no staging buffer of this kernel, at some contents each. -/
def Other (c : Dev nD) : sProp 𝕄 :=
  Pipeline.scopedRestBut (Ix := Unit) (Name := ℕ) (U := UR sig nD τ) (Lvl := ℕ) (Val := Elt F) spec1 c [cc1_scratch0]

/-- The class's invariant is: the accumulator at some contents, the other scoped buffers, the generator register. -/
theorem PhiA_eq (c : Dev nD) :
    (Pipeline.ΦA spec1 c : sProp 𝕄)
      = iprop(iprop((∃ d, owns (c : Thread nD τ) scM fullShare d) ∗ Other c) ∗ (∃ r, prngReg c r)) := by
  unfold Pipeline.ΦA Other
  rw [Pipeline.scopedRest_split_of_list spec1 c [cc1_scratch0] (by decide) (by decide)]
  simp only [bigSepL_singleton, scM, owns_whole]
  try rfl

end Cert.KernelIdeal.Region1

end
-- ==== Proof.KernelIdeal.Region1.RunFirst.lean ====
/-
  The second layer's kernel body at a point with k = 0 (and k ≠ 31): it clears the accumulator, reads it back, adds the
  tile's product and stores the sum. The output tile's buffer is not touched. What the accumulator ends with is the
  list of its stores, last first: the witness the run finds.
-/
import proofs.«423610_j1151051235470_3_alg».proof.Proof.KernelIdeal.Region1.Shared

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : isFirst i) (hc1 : ¬isLast i)
    (x0 : Vec F S4096x256 .bf16) (x1 : Vec F S8x256x512 .bf16) (x2 : Vec F S256x512 .i32) (x3 : Vec F S1x512 .f32) :
    { LS : List (View.Piece (Elt F) S4096x512 .f32) //
      ∀ (xi : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, fun xi E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region1

end
-- ==== Proof.KernelIdeal.Region1.RunMid.lean ====
/-
  The second layer's kernel body at a point with 0 < k < 31: it reads the accumulator as the point before left it, adds the
  tile's product and stores the sum. The output tile's buffer is not touched.
-/
import proofs.«423610_j1151051235470_3_alg».proof.Proof.KernelIdeal.Region1.RunFirst

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : ¬isFirst i) (hc1 : ¬isLast i)
    (x0 : Vec F S4096x256 .bf16) (x1 : Vec F S8x256x512 .bf16) (x2 : Vec F S256x512 .i32) (x3 : Vec F S1x512 .f32) (xs : Vec F S4096x512 .f32) :
    { LS : List (View.Piece (Elt F) S4096x512 .f32) //
      ∀ (xi : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, fun xi E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region1

end
-- ==== Proof.KernelIdeal.Region1.RunLast.lean ====
/-
  The second layer's kernel body at a point with k = 31: it adds the tile's product to the accumulator as the point before
  left it, stores the sum, reads it back, adds the bias row, clamps at zero and stores the result into the output tile's
  buffer, whatever that held.
-/
import proofs.«423610_j1151051235470_3_alg».proof.Proof.KernelIdeal.Region1.RunMid

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S4096x256 .bf16) (harg2 : arg2.IsWhole) (arg3 : Memref sig .tc .vmem S8x256x512 .bf16) (harg3 : arg3.IsWhole) (arg4 : Memref sig .tc .vmem S256x512 .i32) (harg4 : arg4.IsWhole) (arg5 : Memref sig .tc .vmem S1x512 .f32) (harg5 : arg5.IsWhole) (arg6 : Memref sig .tc .vmem S4096x512 .f32) (harg6 : arg6.IsWhole) (arg7 : Memref sig .tc .vmem S4096x512 .f32) (harg7 : arg7.IsWhole) (hc0 : ¬isFirst i) (hc1 : isLast i)
    (x0 : Vec F S4096x256 .bf16) (x1 : Vec F S8x256x512 .bf16) (x2 : Vec F S256x512 .i32) (x3 : Vec F S1x512 .f32) (xs : Vec F S4096x512 .f32) :
    Σ' (L4 : List (View.Piece (Elt F) S4096x512 .f32)), { LS : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__dwb_kernel i arg2 harg2 arg3 harg3 arg4 harg4 arg5 harg5 arg6 harg6 arg7 harg7) K } := by
  refine ⟨?_, ?_, fun E K => ?run⟩
  case run =>
    simp only [cc1__dwb_kernel_eq_skeleton]; unfold cc1__dwb_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Region1

end
-- ==== Proof.KernelIdeal.Region1.Frame.lean ====
/-
  The second layer's region at a PARAMETER `V`, the TensorCore's buffer contents when the region is entered.

  Per grid point t = 32·o + k the body finds in its input buffers the blocks of the arrays at t (fetched there or
  not: the bias row is fetched only at k = 0 and kept since). What the accumulator holds after point t is defined by
  recursion on t — cleared and updated at k = 0, updated from the point before otherwise —, each case's contents
  being what that case's run of the body stores, read back. The region's invariant carries the accumulator at
  exactly those contents from one point to the next; the output tile's buffer is stored at k = 31, from the
  accumulator, and idle elsewhere.
-/
import proofs.«423610_j1151051235470_3_alg».proof.Proof.KernelIdeal.Region1.RunLast

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverFirst (c : Dev nD) (t : Fin cfg1.N) (h0 : t.val % 32 = 0) (h1 : ¬t.val % 32 = 31) (y : S4096x512.Idx) :
    ∃ pc ∈ (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1, y ∈ pc.1.set :=
  View.cover_of_tiledL (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1 S4096x512.size (by sl_kernel_rfl) y

/-- The accumulator after a point with k = 0: the case's stores read back. -/
def sFirst (c : Dev nD) (t : Fin cfg1.N) (h0 : t.val % 32 = 0) (h1 : ¬t.val % 32 = 31) : Vec F S4096x512 .f32 :=
  VS.read (Elt F) (VS.writes (Elt F) VS.junk (runFirst (F := F) c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).1)

theorem scoverMid (c : Dev nD) (t : Fin cfg1.N) (h0 : ¬t.val % 32 = 0) (h1 : ¬t.val % 32 = 31) (xs : Vec F S4096x512 .f32) (y : S4096x512.Idx) :
    ∃ pc ∈ (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1, y ∈ pc.1.set :=
  View.cover_of_tiledL (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1 S4096x512.size (by sl_kernel_rfl) y

/-- The accumulator after a point with 0 < k < 31, over what the point before left (`xs`). -/
def sMid (c : Dev nD) (t : Fin cfg1.N) (h0 : ¬t.val % 32 = 0) (h1 : ¬t.val % 32 = 31) (xs : Vec F S4096x512 .f32) : Vec F S4096x512 .f32 :=
  VS.read (Elt F) (VS.writes (Elt F) VS.junk (runMid (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) xs).1)

theorem scoverLast (c : Dev nD) (t : Fin cfg1.N) (h0 : ¬t.val % 32 = 0) (h1 : t.val % 32 = 31) (xs : Vec F S4096x512 .f32) (y : S4096x512.Idx) :
    ∃ pc ∈ (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1, y ∈ pc.1.set :=
  View.cover_of_tiledL (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1 S4096x512.size (by sl_kernel_rfl) y

/-- The accumulator after a point with k = 31. -/
def sLast (c : Dev nD) (t : Fin cfg1.N) (h0 : ¬t.val % 32 = 0) (h1 : t.val % 32 = 31) (xs : Vec F S4096x512 .f32) : Vec F S4096x512 .f32 :=
  VS.read (Elt F) (VS.writes (Elt F) VS.junk (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).2.1)

theorem ocoverLast (c : Dev nD) (t : Fin cfg1.N) (h0 : ¬t.val % 32 = 0) (h1 : t.val % 32 = 31) (xs : Vec F S4096x512 .f32) (y : S4096x512.Idx) :
    ∃ pc ∈ (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1, y ∈ pc.1.set :=
  View.cover_of_tiledL (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1 S4096x512.size (by sl_kernel_rfl) y

/-- The output tile's staging buffer after a point with k = 31. -/
def oLast (c : Dev nD) (t : Fin cfg1.N) (h0 : ¬t.val % 32 = 0) (h1 : t.val % 32 = 31) (xs : Vec F S4096x512 .f32) : Vec F S4096x512 .f32 :=
  VO.read (Elt F) (VO.writes (Elt F) VO.junk (runLast (F := F) c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) xs).1)

/-! ## The accumulator point by point -/

/-- What the accumulator holds after the body at position `n`. -/
def accAt (c : Dev nD) : (n : ℕ) → n < cfg1.N → Vec F S4096x512 .f32
  | 0, hn => sFirst V c ⟨0, hn⟩ (Nat.zero_mod _) (by show ¬(0 % 32 = 31); decide)
  | n + 1, hn =>
    if h0 : (n + 1) % 32 = 0 then sFirst V c ⟨n + 1, hn⟩ h0 (by show ¬((n + 1) % 32 = 31); omega)
    else if h1 : (n + 1) % 32 = 31 then sLast V c ⟨n + 1, hn⟩ h0 h1 (accAt c n (Nat.lt_of_succ_lt hn))
    else sMid V c ⟨n + 1, hn⟩ h0 h1 (accAt c n (Nat.lt_of_succ_lt hn))

theorem accAt_first (c : Dev nD) (t : Fin cfg1.N) (h0 : t.val % 32 = 0) (h1 : ¬t.val % 32 = 31) :
    accAt V c t.val t.isLt = sFirst V c t h0 h1 := by
  obtain ⟨n, hn⟩ := t
  cases n with
  | zero => rfl
  | succ n => exact (dif_pos h0).trans rfl

theorem accAt_mid (c : Dev nD) (t : Fin cfg1.N) (h0 : ¬t.val % 32 = 0) (h1 : ¬t.val % 32 = 31) :
    accAt V c t.val t.isLt = sMid V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg1.N) (h0 : ¬t.val % 32 = 0) (h1 : t.val % 32 = 31) :
    accAt V c t.val t.isLt = sLast V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output tile's staging buffer holds after the body at point `t`: at k = 31 the case's store; elsewhere the
    window is idle and this value is consulted by nothing. -/
def outAt (c : Dev nD) (t : Fin cfg1.N) : Vec F S4096x512 .f32 :=
  if h1 : t.val % 32 = 31 then
    oLast V c t (by omega) h1 (accAt V c (t.val - 1) (Nat.lt_of_le_of_lt (Nat.sub_le _ _) t.isLt))
  else VO.read (Elt F) (VO.writes (Elt F) VO.junk [])

theorem outAt_last (c : Dev nD) (t : Fin cfg1.N) (h0 : ¬t.val % 32 = 0) (h1 : t.val % 32 = 31) :
    outAt V c t = oLast V c t h0 h1 (accAt V c (t.val - 1) (Nat.lt_of_le_of_lt (Nat.sub_le _ _) t.isLt)) := dif_pos h1

/-! ## The invariant: the accumulator carried from point to point -/

/-- Before position `n`: at the first point the class's invariant (the accumulator at anything); afterwards the
    accumulator at what the point before left, the other scoped buffers and the generator register. -/
def PhiS (c : Dev nD) : (n : ℕ) → n ≤ cfg1.N → sProp 𝕄
  | 0, _ => Pipeline.ΦA spec1 c
  | n + 1, hn => iprop(iprop(owns (c : Thread nD τ) scM fullShare (accAt V c n hn) ∗ Other c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ Other c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ Other c) ∗ (∃ r, prngReg c r)) := by
  cases n with
  | zero => exact absurd rfl hz
  | succ n => rfl

/-! ## The proof data -/

/-- The arrays as the region finds them; after the body each input's buffer at its block, the output tile's at
    `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case the point is in;
    the invariant hands the body the accumulator at what the point before left (at anything at the very first
    point) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 32 = 0
  · have h1 : ¬t.val % 32 = 31 := by omega
    rw [Dat.leavesExact_idle (dat V c) 4 t (idle4 t (fun h => h1 ((isLast_iff t).mp h))) (noFlush4 t (fun h => h1 ((isLast_iff t).mp h)))]
    rw [accAt_first V c t h0 h1]
    unfold sFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverFirst V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 32 = 31
    · rw [show (dat V c).leavesExact 4 t = owns (c : Thread nD τ) (ms4 t) fullShare ((dat V c).after 4 t) from by
        unfold Dat.leavesExact; rw [live4 t ((isLast_iff t).mpr h1)], after_4]
      rw [outAt_last V c t h0 h1, accAt_last V c t h0 h1]
      unfold oLast sLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid1.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverLast V c t h0 h1 _)
    · rw [Dat.leavesExact_idle (dat V c) 4 t (idle4 t (fun h => h1 ((isLast_iff t).mp h))) (noFlush4 t (fun h => h1 ((isLast_iff t).mp h)))]
      rw [accAt_mid V c t h0 h1]
      unfold sMid
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid1.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverMid V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS, Hoth⟩, Hg⟩
  isplitl [HS Hoth]
  · isplitl [HS]; · iexists _; iexact HS
    iexact Hoth
  iexact Hg

end Cert.KernelIdeal.Region1

end
-- ==== Proof.KernelIdeal.Whole.lean ====
/-
  The whole program: two host stretches (casts, a reshape of the bias, a transposition of the weight bank) each
  followed by a layer's kernel region. The TensorCore's unscoped buffers are followed from the launch memory
  through the four segments: a host stretch applies its operations, a region replaces its windows' arrays by what
  its write-backs leave and keeps every other buffer. Each argument array is read back through that fold to its
  launch contents; the result buffer holds what the second region's write-backs leave in its output array.
-/
import proofs.«423610_j1151051235470_3_alg».proof.Proof.KernelIdeal.Region0.Frame
import proofs.«423610_j1151051235470_3_alg».proof.Proof.KernelIdeal.Region1.Frame
import proofs.«423610_j1151051235470_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev at0 : Dev nD → Valuation τ sig (Elt F) := fun c b => (s₀ m ρ).mem ((c : Dev nD), b)
/-- After the first host stretch (the first region's entry). -/
abbrev at1 : Dev nD → Valuation τ sig (Elt F) := fun c => StableHlo.after hostOps0 (at0 m ρ c)
/-- The same read at the TensorCore's references. -/
abbrev in0 : (c : Dev nD) → (b : Ref sig .tc) → Buf (Elt F) ((c : Thread nD τ).loc b) := fun c b => at1 m ρ c b
/-- At the first region's exit: its arrays at what the pipeline leaves, every other buffer as entered. -/
def at2 (c : Dev nD) : Valuation τ sig (Elt F) :=
  Pipeline.withArrays spec0 c (at1 m ρ c) fun w => (Region0.dat (in0 m ρ) c).arrAt w cfg0.N
theorem at2_arr (c : Dev nD) (w : Fin cfg0.W) :
    at2 m ρ c (Proc.devRef .tc (Pipeline.arrRef spec0 w)) = (Region0.dat (in0 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev ex0 : (c : Dev nD) → (b : Ref sig .tc) → Buf (Elt F) ((c : Thread nD τ).loc b) := fun c b => at2 m ρ c b
theorem hF0 (c : Dev nD) (w : Fin cfg0.W) : (Region0.dat (in0 m ρ) c).arrAt w cfg0.N = ex0 m ρ c (Pipeline.arrRef spec0 w) :=
  (at2_arr m ρ c w).symm
theorem hrest0 (c : Dev nD) : ∀ b, b ∉ Finset.univ.image (Pipeline.arrRef spec0) → ex0 m ρ c b = in0 m ρ c b :=
  fun b hb => at2_of_ne m ρ c b fun w e => hb (Finset.mem_image.mpr ⟨w, Finset.mem_univ _, e⟩)

/-- After the second host stretch (the second region's entry). -/
abbrev at3 : Dev nD → Valuation τ sig (Elt F) := fun c => StableHlo.after hostOps1 (at2 m ρ c)
abbrev in1 : (c : Dev nD) → (b : Ref sig .tc) → Buf (Elt F) ((c : Thread nD τ).loc b) := fun c b => at3 m ρ c b
/-- At the second region's exit. -/
def at4 (c : Dev nD) : Valuation τ sig (Elt F) :=
  Pipeline.withArrays spec1 c (at3 m ρ c) fun w => (Region1.dat (in1 m ρ) c).arrAt w cfg1.N
theorem at4_arr (c : Dev nD) (w : Fin cfg1.W) :
    at4 m ρ c (Proc.devRef .tc (Pipeline.arrRef spec1 w)) = (Region1.dat (in1 m ρ) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
abbrev ex1 : (c : Dev nD) → (b : Ref sig .tc) → Buf (Elt F) ((c : Thread nD τ).loc b) := fun c b => at4 m ρ c b
theorem hF1 (c : Dev nD) (w : Fin cfg1.W) : (Region1.dat (in1 m ρ) c).arrAt w cfg1.N = ex1 m ρ c (Pipeline.arrRef spec1 w) :=
  (at4_arr m ρ c w).symm
theorem hrest1 (c : Dev nD) : ∀ b, b ∉ Finset.univ.image (Pipeline.arrRef spec1) → ex1 m ρ c b = in1 m ρ c b :=
  fun b hb => at4_of_ne m ρ c b fun w e => hb (Finset.mem_image.mpr ⟨w, Finset.mem_univ _, e⟩)

/-! ### The arguments end as launched, and the result is the second region's output array -/

theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := at4_of_ne m ρ c main_arg0 (by decide)
    _ = at2 m ρ c (Proc.devRef .tc main_arg0) := StableHlo.after_of_writes_sub hostOps1 _ hostOps1_writes (by decide)
    _ = at1 m ρ c (Proc.devRef .tc main_arg0) := at2_of_ne m ρ c main_arg0 (by decide)
    _ = at0 m ρ c (Proc.devRef .tc main_arg0) := StableHlo.after_of_writes_sub hostOps0 _ hostOps0_writes (by decide)
    _ = m ((c : Thread nD τ).loc main_arg0) := rfl
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := at4_of_ne m ρ c main_arg1 (by decide)
    _ = at2 m ρ c (Proc.devRef .tc main_arg1) := StableHlo.after_of_writes_sub hostOps1 _ hostOps1_writes (by decide)
    _ = at1 m ρ c (Proc.devRef .tc main_arg1) := at2_of_ne m ρ c main_arg1 (by decide)
    _ = at0 m ρ c (Proc.devRef .tc main_arg1) := StableHlo.after_of_writes_sub hostOps0 _ hostOps0_writes (by decide)
    _ = m ((c : Thread nD τ).loc main_arg1) := rfl
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := at4_of_ne m ρ c main_arg2 (by decide)
    _ = at2 m ρ c (Proc.devRef .tc main_arg2) := StableHlo.after_of_writes_sub hostOps1 _ hostOps1_writes (by decide)
    _ = at1 m ρ c (Proc.devRef .tc main_arg2) := at2_of_ne m ρ c main_arg2 (by decide)
    _ = at0 m ρ c (Proc.devRef .tc main_arg2) := StableHlo.after_of_writes_sub hostOps0 _ hostOps0_writes (by decide)
    _ = m ((c : Thread nD τ).loc main_arg2) := rfl
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := at4_of_ne m ρ c main_arg3 (by decide)
    _ = at2 m ρ c (Proc.devRef .tc main_arg3) := StableHlo.after_of_writes_sub hostOps1 _ hostOps1_writes (by decide)
    _ = at1 m ρ c (Proc.devRef .tc main_arg3) := (at2_arr m ρ c 2).trans (((Region0.dat (in0 m ρ) c).arrAt_in 2 rfl _).trans (Region0.A_eq (in0 m ρ) c 2))
    _ = at0 m ρ c (Proc.devRef .tc main_arg3) := StableHlo.after_of_writes_sub hostOps0 _ hostOps0_writes (by decide)
    _ = m ((c : Thread nD τ).loc main_arg3) := rfl
theorem at4_main_arg4 (c : Dev nD) : at4 m ρ c (Proc.devRef .tc main_arg4) = m ((c : Thread nD τ).loc main_arg4) :=
  calc at4 m ρ c (Proc.devRef .tc main_arg4)
    _ = at3 m ρ c (Proc.devRef .tc main_arg4) := at4_of_ne m ρ c main_arg4 (by decide)
    _ = at2 m ρ c (Proc.devRef .tc main_arg4) := StableHlo.after_of_writes_sub hostOps1 _ hostOps1_writes (by decide)
    _ = at1 m ρ c (Proc.devRef .tc main_arg4) := at2_of_ne m ρ c main_arg4 (by decide)
    _ = at0 m ρ c (Proc.devRef .tc main_arg4) := StableHlo.after_of_writes_sub hostOps0 _ hostOps0_writes (by decide)
    _ = m ((c : Thread nD τ).loc main_arg4) := rfl
theorem at4_main_arg5 (c : Dev nD) : at4 m ρ c (Proc.devRef .tc main_arg5) = m ((c : Thread nD τ).loc main_arg5) :=
  calc at4 m ρ c (Proc.devRef .tc main_arg5)
    _ = at3 m ρ c (Proc.devRef .tc main_arg5) := at4_of_ne m ρ c main_arg5 (by decide)
    _ = at2 m ρ c (Proc.devRef .tc main_arg5) := StableHlo.after_of_writes_sub hostOps1 _ hostOps1_writes (by decide)
    _ = at1 m ρ c (Proc.devRef .tc main_arg5) := at2_of_ne m ρ c main_arg5 (by decide)
    _ = at0 m ρ c (Proc.devRef .tc main_arg5) := StableHlo.after_of_writes_sub hostOps0 _ hostOps0_writes (by decide)
    _ = m ((c : Thread nD τ).loc main_arg5) := rfl
theorem at4_main_arg6 (c : Dev nD) : at4 m ρ c (Proc.devRef .tc main_arg6) = m ((c : Thread nD τ).loc main_arg6) :=
  calc at4 m ρ c (Proc.devRef .tc main_arg6)
    _ = at3 m ρ c (Proc.devRef .tc main_arg6) := (at4_arr m ρ c 2).trans (((Region1.dat (in1 m ρ) c).arrAt_in 2 rfl _).trans (Region1.A_eq (in1 m ρ) c 2))
    _ = at2 m ρ c (Proc.devRef .tc main_arg6) := StableHlo.after_of_writes_sub hostOps1 _ hostOps1_writes (by decide)
    _ = at1 m ρ c (Proc.devRef .tc main_arg6) := at2_of_ne m ρ c main_arg6 (by decide)
    _ = at0 m ρ c (Proc.devRef .tc main_arg6) := StableHlo.after_of_writes_sub hostOps0 _ hostOps0_writes (by decide)
    _ = m ((c : Thread nD τ).loc main_arg6) := rfl

/-- The result buffer is the second region's output window's array. -/
theorem at4_main_v0 (c : Dev nD) : at4 m ρ c (Proc.devRef .tc main_v0) = (Region1.dat (in1 m ρ) c).arrAt 4 cfg1.N :=
  at4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (in0 m ρ) c
  | ⟨1, _⟩ => fun c => Region1.dat (in1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (at4 m ρ c) ∗ ∃ r, prngReg c r)

/-! ## The regions as segments -/

set_option backward.isDefEq.respectTransparency.types false in
/-- REGION 0 over the thread state: entered from every unscoped buffer at `at1`, left at `at2`. Its arrays are split
    out of the unscoped buffers and put back at the exit contents; the generator register and the scoped rest go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (in0 m ρ) c)
    unfold Pipeline.ΦA
    iintro ⟨Hp, -, Hr⟩
    isplitl [Hr]; · iexact Hr
    iexact Hp
  hout c := by
    rw [Pipeline.ownSems0_none]
    refine BIBase.Entails.trans (Region0.hout (in0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `at3`, left at `at4`. Its arrays are split
    out of the unscoped buffers and put back at the exit contents; the generator register and the scoped rest go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (in1 m ρ) c)
    unfold Pipeline.ΦA
    iintro ⟨Hp, -, Hr⟩
    isplitl [Hr]; · iexact Hr
    iexact Hp
  hout c := by
    rw [Pipeline.ownSems0_none]
    refine BIBase.Entails.trans (Region1.hout (in1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (at0 m ρ)),
    .region (reg0 m ρ),
    .host (hseg hostOps1 hostOps1_sub hostOps1_fresh (at2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds in the result buffer what the second region's write-backs leave in
    its output array, and every argument array as launched. -/
theorem run_main : θ_run defs (onTc (τ := τ) (main (F := F))) ⟨m, fun _ => 0, ρ⟩ (fun r => ∀ c : Dev nD,
      r.2.mem ((c.tc : Thread nD τ).loc main_v0) = (Region1.dat (in1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c =>
      ⟨(h c _ (mem_uc main_v0 (by decide))).trans (at4_main_v0 m ρ c),
       (h c _ (mem_uc main_arg0 (by decide))).trans (at4_main_arg0 m ρ c),
       (h c _ (mem_uc main_arg1 (by decide))).trans (at4_main_arg1 m ρ c),
       (h c _ (mem_uc main_arg2 (by decide))).trans (at4_main_arg2 m ρ c),
       (h c _ (mem_uc main_arg3 (by decide))).trans (at4_main_arg3 m ρ c),
       (h c _ (mem_uc main_arg4 (by decide))).trans (at4_main_arg4 m ρ c),
       (h c _ (mem_uc main_arg5 (by decide))).trans (at4_main_arg5 m ρ c),
       (h c _ (mem_uc main_arg6 (by decide))).trans (at4_main_arg6 m ρ c)⟩)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Whole

end
-- ==== Proof.Spec.lean ====
/-
  The two-layer "weight bank" network as ONE function of the argument arrays, over the extended reals.

  A layer has an input x[B, N], a bank of eight candidate weights w[N, M, 8] per (input, output) pair, a table
  idx[N, M] of 32-bit words naming one candidate per pair, and a bias b[M]. Its output at row p, column o is

      max (∑ i, x[p, i] · w[i, o, cand idx[i, o]] + b[o]) 0,

  where `cand v` is the word's value reduced into 0..7 (for a word that already names a candidate, its value).
  The network is the second layer applied to the first layer's output.
-/
import Idealize.ShloMosaic.PureOps.Ideal
import Idealize.ShloMosaic.Lib.ValueIdx

open scoped BigOperators

noncomputable section

namespace Cert.Spec

open Idealize.ShloMosaic Idealize.ShloMosaic.ValueIdx

/-- The candidate a 32-bit word names: its unsigned value reduced into 0..7. -/
def cand (v : BitVec 32) : Fin 8 := ⟨v.toNat % 8, Nat.mod_lt _ (by decide)⟩

theorem cand_ofNat (k : Nat) (hk : k < 8) : cand (BitVec.ofNat 32 k) = ⟨k, hk⟩ := by
  apply Fin.ext
  show (BitVec.ofNat 32 k).toNat % 8 = k
  rw [BitVec.toNat_ofNat]; omega

/-- The selected weight of the pair (i, o): the bank's candidate the table names. -/
def wsel {N M : Nat} (w : (⟨3, ![N, M, 8]⟩ : Shape).Idx → EReal) (idx : (⟨2, ![N, M]⟩ : Shape).Idx → BitVec 32)
    (i : Fin N) (o : Fin M) : EReal :=
  w (ix3 i o (cand (idx (ix2 i o))))

/-- One layer at row `p`, column `o`. -/
def layerAt {B N M : Nat} (x : (⟨2, ![B, N]⟩ : Shape).Idx → EReal) (w : (⟨3, ![N, M, 8]⟩ : Shape).Idx → EReal)
    (idx : (⟨2, ![N, M]⟩ : Shape).Idx → BitVec 32) (b : (⟨1, ![M]⟩ : Shape).Idx → EReal) (p : Fin B) (o : Fin M) : EReal :=
  max ((∑ i : Fin N, x (ix2 p i) * wsel w idx i o) + b (ix1 o)) 0

/-- One layer as an array. -/
def layer {B N M : Nat} (x : (⟨2, ![B, N]⟩ : Shape).Idx → EReal) (w : (⟨3, ![N, M, 8]⟩ : Shape).Idx → EReal)
    (idx : (⟨2, ![N, M]⟩ : Shape).Idx → BitVec 32) (b : (⟨1, ![M]⟩ : Shape).Idx → EReal) :
    (⟨2, ![B, M]⟩ : Shape).Idx → EReal :=
  fun j => layerAt x w idx b (j 0) (j 1)

theorem layer_apply {B N M : Nat} (x : (⟨2, ![B, N]⟩ : Shape).Idx → EReal) (w : (⟨3, ![N, M, 8]⟩ : Shape).Idx → EReal)
    (idx : (⟨2, ![N, M]⟩ : Shape).Idx → BitVec 32) (b : (⟨1, ![M]⟩ : Shape).Idx → EReal) (p : Fin B) (o : Fin M) :
    layer x w idx b (ix2 p o) = layerAt x w idx b p o := rfl

/-- The network: 4096 rows, 2048 → 8192 → 2048 features. -/
def net (x : (⟨2, ![4096, 2048]⟩ : Shape).Idx → EReal) (w1 : (⟨3, ![2048, 8192, 8]⟩ : Shape).Idx → EReal)
    (b1 : (⟨1, ![8192]⟩ : Shape).Idx → EReal) (idx1 : (⟨2, ![2048, 8192]⟩ : Shape).Idx → BitVec 32)
    (w2 : (⟨3, ![8192, 2048, 8]⟩ : Shape).Idx → EReal) (b2 : (⟨1, ![2048]⟩ : Shape).Idx → EReal)
    (idx2 : (⟨2, ![8192, 2048]⟩ : Shape).Idx → BitVec 32) : (⟨2, ![4096, 2048]⟩ : Shape).Idx → EReal :=
  layer (layer x w1 idx1 b1) w2 idx2 b2

/-- A table whose every word names a candidate (as an unsigned value below 8). -/
def InRange {s : Shape} (idx : s.Idx → BitVec 32) : Prop := ∀ i, (idx i).toNat < 8

end Cert.Spec

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.KernelIdeal.Region0.Payload.lean ====
/-
  The first layer's kernel body as arithmetic: what one reduction step adds to the accumulator, and what the last step
  stores into the output tile, read at an element over the extended reals.

  A step has the input tile x[4096, 256], the weight bank's tile w[8, 256, 512] (candidate-major), the table's tile
  idx[256, 512] and the accumulator acc[4096, 512]. The body picks, per (i, q), the candidate the table names by a
  chain of eight selects over the eight planes of w (zero where no test fires), multiplies x by the picked tile on
  the matrix unit into a zero accumulator, and adds the product to acc. Where every word of the table's tile names
  a candidate the chain IS the named plane's entry, and the step adds ∑ i, x[p, i] · w[cand idx[i, q], i, q].
-/
import proofs.«423610_j1151051235470_3_alg».proof.Proof.Gen.KernelIdeal.Skeleton
import proofs.«423610_j1151051235470_3_alg».proof.Proof.Spec
import proofs.«423610_j1151051235470_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region0

open Cert.KernelIdeal Cert.KernelIdeal.Gen
open Idealize.ShloMosaic Idealize.ShloMosaic.ValueIdx

/-- One reduction step's new accumulator, from the tiles the body loads: the candidate planes of `w` are its loads
    through the eight unit rectangles along the candidate axis. -/
def accStep {F : FTy → Type} [FloatOps F] (x : Vec F S4096x256 .bf16) (w : Vec F S8x256x512 .bf16) (idx : Vec F S256x512 .i32)
    (acc : Vec F S4096x512 .f32) : Vec F S4096x512 .f32 :=
  k0_pay1 idx
    (k0_pay4 idx (View.ld w (Rect.unit (s := S8x256x512) ![0, 0, 0] S1x256x512.size inb_S8x256x512_S1x256x512_0_0_0)) (View.ld w (Rect.unit (s := S8x256x512) ![1, 0, 0] S1x256x512.size inb_S8x256x512_S1x256x512_1_0_0)) (View.ld w (Rect.unit (s := S8x256x512) ![2, 0, 0] S1x256x512.size inb_S8x256x512_S1x256x512_2_0_0)) (View.ld w (Rect.unit (s := S8x256x512) ![3, 0, 0] S1x256x512.size inb_S8x256x512_S1x256x512_3_0_0)) (View.ld w (Rect.unit (s := S8x256x512) ![4, 0, 0] S1x256x512.size inb_S8x256x512_S1x256x512_4_0_0)))
    k0_pay5 (View.ld w (Rect.unit (s := S8x256x512) ![5, 0, 0] S1x256x512.size inb_S8x256x512_S1x256x512_5_0_0)) (View.ld w (Rect.unit (s := S8x256x512) ![6, 0, 0] S1x256x512.size inb_S8x256x512_S1x256x512_6_0_0)) (View.ld w (Rect.unit (s := S8x256x512) ![7, 0, 0] S1x256x512.size inb_S8x256x512_S1x256x512_7_0_0)) x acc

/-- A word comparison of two integer vectors, read at an index, compares the two words there. -/
private theorem cmpi_apply {s : Shape} {n : Nat} (pr : CmpIPredicate) (a b : IVec s n) (j : s.Idx) :
    cmpi pr a b j = IntOp.cmpi pr (a j) (b j) := rfl

/-- The chain of eight selects on a word `v` below 8: the test "v = c" fires for exactly one candidate `c`, namely
    the one `v` names, so the chain is that candidate's value and the default `z` is never reached. The word is
    `k` for one of the eight naturals `k < 8`, and for each of them both sides compute. -/
private theorem pick_eq {α : Type} (v : BitVec 32) (hv : v.toNat < 8) (a : Fin 8 → α) (z : α) :
    Scalar.select (IntOp.cmpi .eq v 7#32) (a 7)
      (Scalar.select (IntOp.cmpi .eq v 6#32) (a 6)
        (Scalar.select (IntOp.cmpi .eq v 5#32) (a 5)
          (Scalar.select (IntOp.cmpi .eq v 4#32) (a 4)
            (Scalar.select (IntOp.cmpi .eq v 3#32) (a 3)
              (Scalar.select (IntOp.cmpi .eq v 2#32) (a 2)
                (Scalar.select (IntOp.cmpi .eq v 1#32) (a 1)
                  (Scalar.select (IntOp.cmpi .eq v 0#32) (a 0) z))))))) = a (Cert.Spec.cand v) := by
  obtain ⟨k, hk, rfl⟩ : ∃ k, k < 8 ∧ v = BitVec.ofNat 32 k :=
    ⟨v.toNat, hv, BitVec.eq_of_toNat_eq (by rw [BitVec.toNat_ofNat, Nat.mod_eq_of_lt v.isLt])⟩
  rw [Cert.Spec.cand_ofNat k hk]
  interval_cases k <;> rfl

/-- Candidate plane `c` of the bank's tile, viewed as a [256, 512] array: the unit-stride rectangle at offset
    (c, 0, 0) of extent [1, 256, 512] reads w[c + 1·0, 0 + 1·i, 0 + 1·q] at (0, i, q), and dropping the leading unit
    axis reads (0, i, q) at (i, q). -/
private theorem plane_apply (w : Vec Ideal S8x256x512 .bf16) (c : Nat) (hc : c < 8)
    (inb : ∀ a, (![c, 0, 0] : Fin 3 → Nat) a + S1x256x512.size a ≤ S8x256x512.size a) (i : Fin 256) (q : Fin 512) :
    shapeCast S256x512 (View.ld w (Rect.unit (s := S8x256x512) ![c, 0, 0] S1x256x512.size inb)) shapeCasts_S1x256x512_S256x512 (ix2 i q)
      = w (ix3 ⟨c, hc⟩ i q) := by
  refine (shapeCast_1ab_ab_apply _ shapeCasts_S1x256x512_S256x512 i q).trans ?_
  refine congrArg w (funext fun a => Fin.ext ?_)
  match a with
  | ⟨0, _⟩ => exact Nat.add_zero c
  | ⟨1, _⟩ => show 0 + 1 * i.val = i.val; omega
  | ⟨2, _⟩ => show 0 + 1 * q.val = q.val; omega

/-- The cleared accumulator is zero everywhere. -/
theorem zero_apply (j : S4096x512.Idx) : k0_pay3 (F := Ideal) j = 0 := by
  unfold k0_pay3
  rw [shapeCast_self]
  show Scalar.ofBits (F := Ideal) .f32 0x00000000#32 = 0
  exact Ideal.ofBits_zero_f32

/-- One step at an element, where the table's tile names candidates. -/
theorem accStep_apply (x : Vec Ideal S4096x256 .bf16) (w : Vec Ideal S8x256x512 .bf16) (idx : Vec Ideal S256x512 .i32)
    (acc : Vec Ideal S4096x512 .f32) (hidx : ∀ j, (idx j : BitVec 32).toNat < 8) (p : Fin 4096) (q : Fin 512) :
    accStep (F := Ideal) x w idx acc (ix2 p q)
      = acc (ix2 p q) + ∑ i : Fin 256, x (ix2 p i) * w (ix3 (Cert.Spec.cand (idx (ix2 i q))) i q) := by
  unfold accStep k0_pay1 k0_pay4 k0_pay5
  -- the outer cast keeps the shape; the sum at (p, q) is acc (p, q) plus the product's entry there
  refine (congrFun (shapeCast_self _ shapeCasts_S4096x512_S4096x512) (ix2 p q)).trans ?_
  refine (addf_apply _ _ _).trans ?_
  refine congrArg (fun t => acc (ix2 p q) + t) ?_
  -- a plain [4096, 256] by [256, 512] product into the zero accumulator: ∑ i, lhs (p, i) * rhs (i, q)
  refine (Cert.Lib.PlainDot.matmul_zero_apply ⟨rfl, rfl, rfl, rfl, rfl, rfl⟩ none _ _ p q).trans ?_
  refine Finset.sum_congr rfl fun i _ => ?_
  -- the left factor is x (p, i); the right factor is the select chain at (i, q)
  refine congrArg₂ (· * ·) (congrFun (shapeCast_self x shapeCasts_S4096x256_S4096x256) _) ?_
  simp only [select_apply, cmpi_apply, broadcast_apply]
  rw [plane_apply w 0 (by decide) inb_S8x256x512_S1x256x512_0_0_0 i q,
    plane_apply w 1 (by decide) inb_S8x256x512_S1x256x512_1_0_0 i q,
    plane_apply w 2 (by decide) inb_S8x256x512_S1x256x512_2_0_0 i q,
    plane_apply w 3 (by decide) inb_S8x256x512_S1x256x512_3_0_0 i q,
    plane_apply w 4 (by decide) inb_S8x256x512_S1x256x512_4_0_0 i q,
    plane_apply w 5 (by decide) inb_S8x256x512_S1x256x512_5_0_0 i q,
    plane_apply w 6 (by decide) inb_S8x256x512_S1x256x512_6_0_0 i q,
    plane_apply w 7 (by decide) inb_S8x256x512_S1x256x512_7_0_0 i q]
  exact pick_eq (idx (ix2 i q)) (hidx _) (fun c => w (ix3 c i q)) _

/-- The last step's store at an element: the accumulator plus the bias row, clamped at zero. -/
theorem out_apply (acc : Vec Ideal S4096x512 .f32) (b : Vec Ideal S1x512 .f32) (p : Fin 4096) (q : Fin 512) :
    k0_pay2 (F := Ideal) acc b (ix2 p q) = max (acc (ix2 p q) + b (ix2 0 q)) 0 := by
  unfold k0_pay2
  try rw [truncf_apply]
  rw [maximumf_apply, addf_apply, broadcast_apply]
  -- the bias row broadcast over the 4096 rows reads its one row at column q; the clamp's constant is zero
  have hb : broadcastTo S4096x512 (shapeCast S1x512 b shapeCasts_S1x512_S1x512) broadcasts_S1x512_S4096x512 (ix2 p q)
      = b (ix2 0 q) :=
    (broadcastTo_1b_ab_apply _ broadcasts_S1x512_S4096x512 p q).trans
      (congrFun (shapeCast_self b shapeCasts_S1x512_S1x512) _)
  have hz : (Scalar.ofBits (F := Ideal) .f32 0x00000000#32) = 0 := Ideal.ofBits_zero_f32
  rw [hb, hz]

end Cert.KernelIdeal.Region0

end
-- ==== Proof.KernelIdeal.Region0.Value.lean ====
/-
  What the first layer's region computes: its output array as ONE function of its four input arrays.

  The accumulator after grid point t = 8·o + k holds, at (p, q), the partial sum over the first 256·(k+1)
  contraction positions of x[p, j] · wt[cand idx[j, 512·o + q], j, 512·o + q]: each reduction step adds its tile's
  256 terms (the body's arithmetic, read at an element), the first step onto the cleared accumulator. At k = 7 the
  sum is complete, and the body stores max (sum + bias, 0) into the output tile, which the pipeline writes back as
  block o of the output array; the sixteen blocks tile the array.
-/
import proofs.«423610_j1151051235470_3_alg».proof.Proof.KernelIdeal.Region0.Frame
import proofs.«423610_j1151051235470_3_alg».proof.Proof.KernelIdeal.Region0.Payload
import proofs.«423610_j1151051235470_3_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

open scoped BigOperators

noncomputable section

namespace Cert.KernelIdeal.Region0

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

/-! ## What each case's stores leave, as the body's arithmetic -/

section Pieces

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- A middle step leaves one reduction step over what the point before left. -/
theorem sMid_eq (c : Dev nD) (t : Fin cfg0.N) (h0 : ¬t.val % 8 = 0) (h1 : ¬t.val % 8 = 7) (xs : Vec F S4096x512 .f32) :
    sMid V c t h0 h1 xs = accStep (iblk V c 0 t) (iblk V c 1 t) (iblk V c 2 t) xs := by
  unfold sMid
  rw [View.read_writes_eq_canon _ _ _ (scoverMid V c t h0 h1 xs)]
  unfold runMid
  dsimp only
  sl_unfold_words
  rw [View.canon_unit_zero hz2]
  unfold accStep
  simp only [View.readAt_eq_ld, (hs0 t).read_unread, (hs1 t).read_unread, (hs2 t).read_unread,
    (Memref.isWhole_whole cc0_scratch0).read_unread, View.ld_unit_zero (S := S256x512) hz2,
    View.ld_unit_zero (S := S4096x256) hz2, View.ld_unit_zero (S := S4096x512) hz2]

/-- The first step leaves one reduction step over the cleared accumulator. -/
theorem sFirst_eq (c : Dev nD) (t : Fin cfg0.N) (h0 : t.val % 8 = 0) (h1 : ¬t.val % 8 = 7) :
    sFirst V c t h0 h1 = accStep (iblk V c 0 t) (iblk V c 1 t) (iblk V c 2 t) k0_pay3 := by
  unfold sFirst
  rw [View.read_writes_eq_canon _ _ _ (scoverFirst V c t h0 h1)]
  unfold runFirst
  dsimp only
  sl_unfold_words
  rw [View.canon_cons_unit_zero (S := S4096x512) hz2, View.readCov_unit_zero (S := S4096x512) _ hz2]
  unfold accStep
  simp only [View.readAt_eq_ld, (hs0 t).read_unread, (hs1 t).read_unread, (hs2 t).read_unread,
    View.ld_unit_zero (S := S256x512) hz2, View.ld_unit_zero (S := S4096x256) hz2]

/-- The last step leaves, in the accumulator, one more reduction step, -/
theorem sLast_eq (c : Dev nD) (t : Fin cfg0.N) (h0 : ¬t.val % 8 = 0) (h1 : t.val % 8 = 7) (xs : Vec F S4096x512 .f32) :
    sLast V c t h0 h1 xs = accStep (iblk V c 0 t) (iblk V c 1 t) (iblk V c 2 t) xs := by
  unfold sLast
  rw [View.read_writes_eq_canon _ _ _ (scoverLast V c t h0 h1 xs)]
  unfold runLast
  dsimp only
  sl_unfold_words
  rw [View.canon_unit_zero hz2]
  unfold accStep
  simp only [View.readAt_eq_ld, (hs0 t).read_unread, (hs1 t).read_unread, (hs2 t).read_unread,
    (Memref.isWhole_whole cc0_scratch0).read_unread, View.ld_unit_zero (S := S256x512) hz2,
    View.ld_unit_zero (S := S4096x256) hz2, View.ld_unit_zero (S := S4096x512) hz2]

/-- and in the output tile that accumulator plus the bias row, clamped at zero. -/
theorem oLast_eq (c : Dev nD) (t : Fin cfg0.N) (h0 : ¬t.val % 8 = 0) (h1 : t.val % 8 = 7) (xs : Vec F S4096x512 .f32) :
    oLast V c t h0 h1 xs = k0_pay2 (accStep (iblk V c 0 t) (iblk V c 1 t) (iblk V c 2 t) xs) (iblk V c 3 t) := by
  unfold oLast
  rw [View.read_writes_eq_canon _ _ _ (ocoverLast V c t h0 h1 xs)]
  unfold runLast
  dsimp only
  sl_unfold_words
  rw [View.canon_unit_zero hz2, View.readCov_unit_zero (S := S4096x512) _ hz2]
  unfold accStep
  simp only [View.readAt_eq_ld, (hs0 t).read_unread, (hs1 t).read_unread, (hs2 t).read_unread, (hs3 t).read_unread,
    (Memref.isWhole_whole cc0_scratch0).read_unread, View.ld_unit_zero (S := S256x512) hz2,
    View.ld_unit_zero (S := S4096x256) hz2, View.ld_unit_zero (S := S4096x512) hz2, View.ld_unit_zero (S := S1x512) hz2]

end Pieces

/-! ## The blocks the body finds, as entries of the arrays -/

section Blocks

variable {F : FTy → Type} [FloatOps F]
variable (V : (c : Dev nD) → (b : Ref sig .tc) → Buf (Elt F) ((c : Thread nD τ).loc b))

/-- The index maps over the grid: point t = 8·o + k reads block (0, k) of x, (0, k, o) of the bank, (k, o) of the
    table, (0, o) of the bias row, and owns block (0, o) of the output. -/
theorem idx_facts : ∀ t : Fin cfg0.N,
    win0_0.index t (0 : Fin 2) = 0 ∧ win0_0.index t (1 : Fin 2) = t.val % 8
    ∧ win0_1.index t (0 : Fin 3) = 0 ∧ win0_1.index t (1 : Fin 3) = t.val % 8 ∧ win0_1.index t (2 : Fin 3) = t.val / 8
    ∧ win0_2.index t (0 : Fin 2) = t.val % 8 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

theorem xblk_apply (c : Dev nD) (t : Fin cfg0.N) (p : Fin 4096) (i : Fin 256) (hb : 256 * (t.val % 8) + i.val < 2048) :
    (iblk V c 0 t : Vec F S4096x256 .bf16) (ix2 p i)
      = (V c main_call0_v0 : Vec F S4096x2048 .bf16) (ix2 p ⟨256 * (t.val % 8) + i.val, hb⟩) := by
  obtain ⟨e0, e1, -⟩ := idx_facts t
  unfold iblk
  rw [View.read_apply]
  show V c main_call0_v0 _ = V c main_call0_v0 _
  congr 1
  funext a
  apply Fin.ext
  match a with
  | ⟨0, _⟩ => show win0_0.index t (0 : Fin 2) * 4096 + 1 * p.val = p.val; rw [e0]; omega
  | ⟨1, _⟩ => show win0_0.index t (1 : Fin 2) * 256 + 1 * i.val = 256 * (t.val % 8) + i.val; rw [e1]; omega

theorem wblk_apply (c : Dev nD) (t : Fin cfg0.N) (cc : Fin 8) (i : Fin 256) (q : Fin 512)
    (hb : 256 * (t.val % 8) + i.val < 2048) (hq : 512 * (t.val / 8) + q.val < 8192) :
    (iblk V c 1 t : Vec F S8x256x512 .bf16) (ix3 cc i q)
      = (V c main_call0_v3 : Vec F S8x2048x8192 .bf16) (ix3 cc ⟨256 * (t.val % 8) + i.val, hb⟩ ⟨512 * (t.val / 8) + q.val, hq⟩) := by
  obtain ⟨-, -, e0, e1, e2, -⟩ := idx_facts t
  unfold iblk
  rw [View.read_apply]
  show V c main_call0_v3 _ = V c main_call0_v3 _
  congr 1
  funext a
  apply Fin.ext
  match a with
  | ⟨0, _⟩ => show win0_1.index t (0 : Fin 3) * 8 + 1 * cc.val = cc.val; rw [e0]; omega
  | ⟨1, _⟩ => show win0_1.index t (1 : Fin 3) * 256 + 1 * i.val = 256 * (t.val % 8) + i.val; rw [e1]; omega
  | ⟨2, _⟩ => show win0_1.index t (2 : Fin 3) * 512 + 1 * q.val = 512 * (t.val / 8) + q.val; rw [e2]; omega

theorem tblk_apply (c : Dev nD) (t : Fin cfg0.N) (i : Fin 256) (q : Fin 512)
    (hb : 256 * (t.val % 8) + i.val < 2048) (hq : 512 * (t.val / 8) + q.val < 8192) :
    (iblk V c 2 t : Vec F S256x512 .i32) (ix2 i q)
      = (V c main_arg3 : Vec F S2048x8192 .i32) (ix2 ⟨256 * (t.val % 8) + i.val, hb⟩ ⟨512 * (t.val / 8) + q.val, hq⟩) := by
  obtain ⟨-, -, -, -, -, e0, e1, -⟩ := idx_facts t
  unfold iblk
  rw [View.read_apply]
  show V c main_arg3 _ = V c main_arg3 _
  congr 1
  funext a
  apply Fin.ext
  match a with
  | ⟨0, _⟩ => show win0_2.index t (0 : Fin 2) * 256 + 1 * i.val = 256 * (t.val % 8) + i.val; rw [e0]; omega
  | ⟨1, _⟩ => show win0_2.index t (1 : Fin 2) * 512 + 1 * q.val = 512 * (t.val / 8) + q.val; rw [e1]; omega

theorem bblk_apply (c : Dev nD) (t : Fin cfg0.N) (q : Fin 512) (hq : 512 * (t.val / 8) + q.val < 8192) :
    (iblk V c 3 t : Vec F S1x512 .f32) (ix2 0 q)
      = (V c main_call0_v1 : Vec F S1x8192 .f32) (ix2 0 ⟨512 * (t.val / 8) + q.val, hq⟩) := by
  obtain ⟨-, -, -, -, -, -, -, e0, e1, -⟩ := idx_facts t
  unfold iblk
  rw [View.read_apply]
  show V c main_call0_v1 _ = V c main_call0_v1 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * q.val = 512 * (t.val / 8) + q.val; rw [e1]; omega

end Blocks

/-! ## The accumulator in closed form -/

section Sum

variable (V : (c : Dev nD) → (b : Ref sig .tc) → Buf (Elt Ideal) ((c : Thread nD τ).loc b)) (c : Dev nD)

/-- The region's four input arrays as it finds them, at their literal types. -/
abbrev xA : Vec Ideal S4096x2048 .bf16 := V c main_call0_v0
abbrev wA : Vec Ideal S8x2048x8192 .bf16 := V c main_call0_v3
abbrev iA : Vec Ideal S2048x8192 .i32 := V c main_arg3
abbrev bA : Vec Ideal S1x8192 .f32 := V c main_call0_v1

/-- The product at row `p`, contraction position `j` and output column `col`; zero outside the arrays. -/
def term (p : Fin 4096) (col j : ℕ) : EReal :=
  if h : j < 2048 ∧ col < 8192 then
    xA V c (ix2 p ⟨j, h.1⟩) * wA V c (ix3 (Cert.Spec.cand (iA V c (ix2 ⟨j, h.1⟩ ⟨col, h.2⟩))) ⟨j, h.1⟩ ⟨col, h.2⟩)
  else 0

/-- The table's tile at a point names candidates where the table does. -/
theorem ib_inRange (hidx : Cert.Spec.InRange (V c main_arg3 : IVec S2048x8192 32)) (t : Fin cfg0.N) (j : S256x512.Idx) :
    ((iblk V c 2 t : Vec Ideal S256x512 .i32) j : BitVec 32).toNat < 8 := by
  unfold iblk; rw [View.read_apply]; exact hidx _

/-- One reduction step at point t = 8·o + k adds the 256 terms of contraction positions 256·k … 256·k + 255, at
    output column 512·o + q. -/
theorem step_apply (hidx : Cert.Spec.InRange (V c main_arg3 : IVec S2048x8192 32)) (t : Fin cfg0.N)
    (acc : Vec Ideal S4096x512 .f32) (p : Fin 4096) (q : Fin 512) :
    accStep (F := Ideal) (iblk V c 0 t) (iblk V c 1 t) (iblk V c 2 t) acc (ix2 p q)
      = acc (ix2 p q) + ∑ i ∈ Finset.range 256, term V c p (512 * (t.val / 8) + q.val) (256 * (t.val % 8) + i) := by
  have hN : t.val < 128 := lt_of_lt_of_eq t.isLt (show cfg0.N = 128 from N_0)
  refine (accStep_apply (iblk V c 0 t) (iblk V c 1 t) (iblk V c 2 t) acc (ib_inRange V c hidx t) p q).trans ?_
  congr 1
  rw [Finset.sum_range]
  refine Finset.sum_congr rfl fun i _ => ?_
  have hb : 256 * (t.val % 8) + i.val < 2048 := by have := i.isLt; omega
  have hq : 512 * (t.val / 8) + q.val < 8192 := by have := q.isLt; omega
  rw [xblk_apply V c t p i hb, tblk_apply V c t i q hb hq, wblk_apply V c t _ i q hb hq]
  unfold term
  rw [dif_pos ⟨hb, hq⟩]

/-- After a point with k = 0 the accumulator holds the first 256 terms. -/
theorem accAt_eq_first (hidx : Cert.Spec.InRange (V c main_arg3 : IVec S2048x8192 32)) (t : Fin cfg0.N) (h0 : t.val % 8 = 0)
    (p : Fin 4096) (q : Fin 512) :
    accAt V c t.val t.isLt (ix2 p q) = ∑ j ∈ Finset.range (256 * (t.val % 8 + 1)), term V c p (512 * (t.val / 8) + q.val) j := by
  have h1 : ¬t.val % 8 = 7 := by omega
  rw [accAt_first V c t h0 h1, sFirst_eq, step_apply V c hidx, zero_apply, zero_add]
  rw [show 256 * (t.val % 8 + 1) = 256 from by omega]
  exact Finset.sum_congr rfl fun i _ => congrArg (term V c p (512 * (t.val / 8) + q.val)) (by omega)

/-- THE PARTIAL SUM. After point n = 8·o + k the accumulator holds, at (p, q), the first 256·(k + 1) terms of output
    column 512·o + q: by induction on the point. -/
theorem accAt_eq (hidx : Cert.Spec.InRange (V c main_arg3 : IVec S2048x8192 32)) :
    ∀ (n : ℕ) (h : n < cfg0.N) (p : Fin 4096) (q : Fin 512),
      accAt V c n h (ix2 p q) = ∑ j ∈ Finset.range (256 * (n % 8 + 1)), term V c p (512 * (n / 8) + q.val) j := by
  intro n
  induction n with
  | zero => intro h p q; exact accAt_eq_first V c hidx ⟨0, h⟩ (Nat.zero_mod _) p q
  | succ n ih =>
    intro h p q
    by_cases h0 : (n + 1) % 8 = 0
    · exact accAt_eq_first V c hidx ⟨n + 1, h⟩ h0 p q
    · have eAcc : accAt V c (n + 1) h
          = accStep (iblk V c 0 ⟨n + 1, h⟩) (iblk V c 1 ⟨n + 1, h⟩) (iblk V c 2 ⟨n + 1, h⟩) (accAt V c n (Nat.lt_of_succ_lt h)) := by
        by_cases h1 : (n + 1) % 8 = 7
        · exact (accAt_last V c ⟨n + 1, h⟩ h0 h1).trans (sLast_eq V c ⟨n + 1, h⟩ h0 h1 _)
        · exact (accAt_mid V c ⟨n + 1, h⟩ h0 h1).trans (sMid_eq V c ⟨n + 1, h⟩ h0 h1 _)
      rw [congrFun eAcc (ix2 p q), step_apply V c hidx ⟨n + 1, h⟩, ih (Nat.lt_of_succ_lt h) p q]
      have e1 : n % 8 + 1 = (n + 1) % 8 := by omega
      have e2 : n / 8 = (n + 1) / 8 := by omega
      rw [e1, e2, show 256 * ((n + 1) % 8 + 1) = 256 * ((n + 1) % 8) + 256 from by omega, Finset.sum_range_add]

/-- The complete sum is the layer's contraction over all 2048 positions. -/
theorem sum_full (p : Fin 4096) (col : Fin 8192) :
    ∑ j ∈ Finset.range 2048, term V c p col.val j
      = ∑ i : Fin 2048, xA V c (ix2 p i) * wA V c (ix3 (Cert.Spec.cand (iA V c (ix2 i col))) i col) := by
  rw [Finset.sum_range]
  refine Finset.sum_congr rfl fun i _ => ?_
  unfold term
  rw [dif_pos ⟨i.isLt, col.isLt⟩]

end Sum

/-! ## The output array -/

section Array

variable (V : (c : Dev nD) → (b : Ref sig .tc) → Buf (Elt Ideal) ((c : Thread nD τ).loc b)) (c : Dev nD)

/-- The layer over the region's own arrays: the input `x`[4096, 2048], the weight bank candidate-major
    `wt`[8, 2048, 8192], the table `idx`[2048, 8192] and the bias as a row `b`[1, 8192]: at (p, o),
    max (∑ i, x[p, i] · wt[cand idx[i, o], i, o] + b[0, o]) 0. -/
def regionOut (x : Vec Ideal S4096x2048 .bf16) (wt : Vec Ideal S8x2048x8192 .bf16) (idx : Vec Ideal S2048x8192 .i32)
    (b : Vec Ideal S1x8192 .f32) : Vec Ideal S4096x8192 .bf16 :=
  fun j => max ((∑ i : Fin 2048, x (ix2 (j 0) i) * wt (ix3 (Cert.Spec.cand (idx (ix2 i (j 1)))) i (j 1))) + b (ix2 0 (j 1))) 0

/-- WHAT A WRITE-BACK WRITES: at the points with k = 7 — the only ones that write the output tile back — the tile is
    block o of the layer's output. -/
theorem flushed_eq (hidx : Cert.Spec.InRange (V c main_arg3 : IVec S2048x8192 32)) (t : Fin cfg0.N) (hf : (cfg0.win 4).flush t = true) :
    (dat (F := Ideal) V c).flushed 4 t
      = ((cfg0.win 4).blk t).view.read (Elt Ideal) (regionOut (V c main_call0_v0) (V c main_call0_v3) (V c main_arg3) (V c main_call0_v1)) := by
  have h1 : t.val % 8 = 7 := (flush0_4 t).mp hf
  have h0 : ¬t.val % 8 = 0 := by omega
  have hN : t.val < 128 := lt_of_lt_of_eq t.isLt (show cfg0.N = 128 from N_0)
  obtain ⟨-, -, -, -, -, -, -, -, -, e0, e1⟩ := idx_facts t
  show (cfg0.win 4).cut (grid0.coords t) ((dat V c).after 4 t) = _
  rw [after_4, outAt_last V c t h0 h1, oLast_eq]
  funext j
  obtain ⟨p, q, rfl⟩ : ∃ (p : Fin 4096) (q : Fin 512), j = ix2 p q := ⟨j 0, j 1, eq_ix2 j⟩
  have hq : 512 * (t.val / 8) + q.val < 8192 := by have := q.isLt; omega
  have hemb : ((cfg0.win 4).blk t).view.emb (ix2 p q) = ix2 p ⟨512 * (t.val / 8) + q.val, hq⟩ := by
    funext a; apply Fin.ext
    match a with
    | ⟨0, _⟩ => show win0_4.index t (0 : Fin 2) * 4096 + 1 * p.val = p.val; rw [e0]; omega
    | ⟨1, _⟩ => show win0_4.index t (1 : Fin 2) * 512 + 1 * q.val = 512 * (t.val / 8) + q.val; rw [e1]; omega
  show k0_pay2 (F := Ideal) (accStep (iblk V c 0 t) (iblk V c 1 t) (iblk V c 2 t) (accAt V c (t.val - 1) _)) (iblk V c 3 t) (ix2 p q)
    = regionOut (V c main_call0_v0) (V c main_call0_v3) (V c main_arg3) (V c main_call0_v1) (((cfg0.win 4).blk t).view.emb (ix2 p q))
  rw [hemb]
  refine (out_apply _ _ p q).trans ?_
  rw [bblk_apply V c t q hq]
  have hacc : accStep (F := Ideal) (iblk V c 0 t) (iblk V c 1 t) (iblk V c 2 t)
        (accAt V c (t.val - 1) (Nat.lt_of_le_of_lt (Nat.sub_le _ _) t.isLt)) (ix2 p q)
      = ∑ j ∈ Finset.range 2048, term V c p (512 * (t.val / 8) + q.val) j := by
    have e := accAt_eq V c hidx t.val t.isLt p q
    rw [accAt_last V c t h0 h1, sLast_eq] at e
    rw [e, show 256 * (t.val % 8 + 1) = 2048 from by omega]
  rw [hacc, sum_full V c p ⟨512 * (t.val / 8) + q.val, hq⟩]
  rfl

/-- An index of the output array is in point `t`'s block iff each coordinate is in the block's range on its axis. -/
theorem mem_blk4 (t : Fin cfg0.N) (i : S4096x8192.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_call0_v4).slice (win0_4.rect t)).set ↔ _
  rw [View.set_slice_whole, Rect.mem_set_unit]
  exact Iff.rfl

/-- THE COVER: column c of the output lies in block c / 512, written back at point 8·(c / 512) + 7. -/
theorem covered (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  have hN : cfg0.N = 128 := N_0
  have hlt : 8 * ((i 1).val / 512) + 7 < cfg0.N := by rw [hN]; omega
  obtain ⟨-, -, -, -, -, -, -, -, -, e0, e1⟩ := idx_facts ⟨8 * ((i 1).val / 512) + 7, hlt⟩
  refine ⟨⟨8 * ((i 1).val / 512) + 7, hlt⟩, (flush0_4 _).mpr (by show (8 * ((i 1).val / 512) + 7) % 8 = 7; omega), ?_⟩
  rw [mem_blk4]
  intro a
  match a with
  | ⟨0, _⟩ =>
    show win0_4.index ⟨8 * ((i 1).val / 512) + 7, hlt⟩ (0 : Fin 2) * 4096 ≤ (i 0).val ∧ (i 0).val < win0_4.index ⟨8 * ((i 1).val / 512) + 7, hlt⟩ (0 : Fin 2) * 4096 + 4096
    rw [e0]; omega
  | ⟨1, _⟩ =>
    show win0_4.index ⟨8 * ((i 1).val / 512) + 7, hlt⟩ (1 : Fin 2) * 512 ≤ (i 1).val ∧ (i 1).val < win0_4.index ⟨8 * ((i 1).val / 512) + 7, hlt⟩ (1 : Fin 2) * 512 + 512
    rw [e1]; show (8 * ((i 1).val / 512) + 7) / 8 * 512 ≤ (i 1).val ∧ (i 1).val < (8 * ((i 1).val / 512) + 7) / 8 * 512 + 512; omega

/-- Where every word of the table names a candidate, the region's output array ends holding that function of the
    arrays the region was entered with. -/
theorem arrAt_out (hidx : Cert.Spec.InRange (V c main_arg3 : IVec S2048x8192 32)) :
    (dat (F := Ideal) V c).arrAt 4 cfg0.N
      = regionOut (V c main_call0_v0) (V c main_call0_v3) (V c main_arg3) (V c main_call0_v1) :=
  (dat (F := Ideal) V c).arrAt_eq_of_cover 4 _ (fun t hf => flushed_eq V c hidx t hf) (covered)

end Array

end Cert.KernelIdeal.Region0

end
-- ==== Proof.KernelIdeal.Region1.Payload.lean ====
/-
  The second layer's kernel body as arithmetic: what one reduction step adds to the accumulator, and what the last step
  stores into the output tile, read at an element over the extended reals.

  A step has the input tile x[4096, 256], the weight bank's tile w[8, 256, 512] (candidate-major), the table's tile
  idx[256, 512] and the accumulator acc[4096, 512]. The body picks, per (i, q), the candidate the table names by a
  chain of eight selects over the eight planes of w (zero where no test fires), multiplies x by the picked tile on
  the matrix unit into a zero accumulator, and adds the product to acc. Where every word of the table's tile names
  a candidate the chain IS the named plane's entry, and the step adds ∑ i, x[p, i] · w[cand idx[i, q], i, q].
-/
import proofs.«423610_j1151051235470_3_alg».proof.Proof.Gen.KernelIdeal.Skeleton
import proofs.«423610_j1151051235470_3_alg».proof.Proof.Spec
import proofs.«423610_j1151051235470_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region1

open Cert.KernelIdeal Cert.KernelIdeal.Gen
open Idealize.ShloMosaic Idealize.ShloMosaic.ValueIdx

/-- One reduction step's new accumulator, from the tiles the body loads: the candidate planes of `w` are its loads
    through the eight unit rectangles along the candidate axis. -/
def accStep {F : FTy → Type} [FloatOps F] (x : Vec F S4096x256 .bf16) (w : Vec F S8x256x512 .bf16) (idx : Vec F S256x512 .i32)
    (acc : Vec F S4096x512 .f32) : Vec F S4096x512 .f32 :=
  k1_pay1 idx
    (k1_pay4 idx (View.ld w (Rect.unit (s := S8x256x512) ![0, 0, 0] S1x256x512.size inb_S8x256x512_S1x256x512_0_0_0)) (View.ld w (Rect.unit (s := S8x256x512) ![1, 0, 0] S1x256x512.size inb_S8x256x512_S1x256x512_1_0_0)) (View.ld w (Rect.unit (s := S8x256x512) ![2, 0, 0] S1x256x512.size inb_S8x256x512_S1x256x512_2_0_0)) (View.ld w (Rect.unit (s := S8x256x512) ![3, 0, 0] S1x256x512.size inb_S8x256x512_S1x256x512_3_0_0)) (View.ld w (Rect.unit (s := S8x256x512) ![4, 0, 0] S1x256x512.size inb_S8x256x512_S1x256x512_4_0_0)))
    k1_pay5 (View.ld w (Rect.unit (s := S8x256x512) ![5, 0, 0] S1x256x512.size inb_S8x256x512_S1x256x512_5_0_0)) (View.ld w (Rect.unit (s := S8x256x512) ![6, 0, 0] S1x256x512.size inb_S8x256x512_S1x256x512_6_0_0)) (View.ld w (Rect.unit (s := S8x256x512) ![7, 0, 0] S1x256x512.size inb_S8x256x512_S1x256x512_7_0_0)) x acc

/-- A word comparison of two integer vectors, read at an index, compares the two words there. -/
private theorem cmpi_apply {s : Shape} {n : Nat} (pr : CmpIPredicate) (a b : IVec s n) (j : s.Idx) :
    cmpi pr a b j = IntOp.cmpi pr (a j) (b j) := rfl

/-- The chain of eight selects on a word `v` below 8: the test "v = c" fires for exactly one candidate `c`, namely
    the one `v` names, so the chain is that candidate's value and the default `z` is never reached. The word is
    `k` for one of the eight naturals `k < 8`, and for each of them both sides compute. -/
private theorem pick_eq {α : Type} (v : BitVec 32) (hv : v.toNat < 8) (a : Fin 8 → α) (z : α) :
    Scalar.select (IntOp.cmpi .eq v 7#32) (a 7)
      (Scalar.select (IntOp.cmpi .eq v 6#32) (a 6)
        (Scalar.select (IntOp.cmpi .eq v 5#32) (a 5)
          (Scalar.select (IntOp.cmpi .eq v 4#32) (a 4)
            (Scalar.select (IntOp.cmpi .eq v 3#32) (a 3)
              (Scalar.select (IntOp.cmpi .eq v 2#32) (a 2)
                (Scalar.select (IntOp.cmpi .eq v 1#32) (a 1)
                  (Scalar.select (IntOp.cmpi .eq v 0#32) (a 0) z))))))) = a (Cert.Spec.cand v) := by
  obtain ⟨k, hk, rfl⟩ : ∃ k, k < 8 ∧ v = BitVec.ofNat 32 k :=
    ⟨v.toNat, hv, BitVec.eq_of_toNat_eq (by rw [BitVec.toNat_ofNat, Nat.mod_eq_of_lt v.isLt])⟩
  rw [Cert.Spec.cand_ofNat k hk]
  interval_cases k <;> rfl

/-- Candidate plane `c` of the bank's tile, viewed as a [256, 512] array: the unit-stride rectangle at offset
    (c, 0, 0) of extent [1, 256, 512] reads w[c + 1·0, 0 + 1·i, 0 + 1·q] at (0, i, q), and dropping the leading unit
    axis reads (0, i, q) at (i, q). -/
private theorem plane_apply (w : Vec Ideal S8x256x512 .bf16) (c : Nat) (hc : c < 8)
    (inb : ∀ a, (![c, 0, 0] : Fin 3 → Nat) a + S1x256x512.size a ≤ S8x256x512.size a) (i : Fin 256) (q : Fin 512) :
    shapeCast S256x512 (View.ld w (Rect.unit (s := S8x256x512) ![c, 0, 0] S1x256x512.size inb)) shapeCasts_S1x256x512_S256x512 (ix2 i q)
      = w (ix3 ⟨c, hc⟩ i q) := by
  refine (shapeCast_1ab_ab_apply _ shapeCasts_S1x256x512_S256x512 i q).trans ?_
  refine congrArg w (funext fun a => Fin.ext ?_)
  match a with
  | ⟨0, _⟩ => exact Nat.add_zero c
  | ⟨1, _⟩ => show 0 + 1 * i.val = i.val; omega
  | ⟨2, _⟩ => show 0 + 1 * q.val = q.val; omega

/-- The cleared accumulator is zero everywhere. -/
theorem zero_apply (j : S4096x512.Idx) : k1_pay3 (F := Ideal) j = 0 := by
  unfold k1_pay3
  rw [shapeCast_self]
  show Scalar.ofBits (F := Ideal) .f32 0x00000000#32 = 0
  exact Ideal.ofBits_zero_f32

/-- One step at an element, where the table's tile names candidates. -/
theorem accStep_apply (x : Vec Ideal S4096x256 .bf16) (w : Vec Ideal S8x256x512 .bf16) (idx : Vec Ideal S256x512 .i32)
    (acc : Vec Ideal S4096x512 .f32) (hidx : ∀ j, (idx j : BitVec 32).toNat < 8) (p : Fin 4096) (q : Fin 512) :
    accStep (F := Ideal) x w idx acc (ix2 p q)
      = acc (ix2 p q) + ∑ i : Fin 256, x (ix2 p i) * w (ix3 (Cert.Spec.cand (idx (ix2 i q))) i q) := by
  unfold accStep k1_pay1 k1_pay4 k1_pay5
  -- the outer cast keeps the shape; the sum at (p, q) is acc (p, q) plus the product's entry there
  refine (congrFun (shapeCast_self _ shapeCasts_S4096x512_S4096x512) (ix2 p q)).trans ?_
  refine (addf_apply _ _ _).trans ?_
  refine congrArg (fun t => acc (ix2 p q) + t) ?_
  -- a plain [4096, 256] by [256, 512] product into the zero accumulator: ∑ i, lhs (p, i) * rhs (i, q)
  refine (Cert.Lib.PlainDot.matmul_zero_apply ⟨rfl, rfl, rfl, rfl, rfl, rfl⟩ none _ _ p q).trans ?_
  refine Finset.sum_congr rfl fun i _ => ?_
  -- the left factor is x (p, i); the right factor is the select chain at (i, q)
  refine congrArg₂ (· * ·) (congrFun (shapeCast_self x shapeCasts_S4096x256_S4096x256) _) ?_
  simp only [select_apply, cmpi_apply, broadcast_apply]
  rw [plane_apply w 0 (by decide) inb_S8x256x512_S1x256x512_0_0_0 i q,
    plane_apply w 1 (by decide) inb_S8x256x512_S1x256x512_1_0_0 i q,
    plane_apply w 2 (by decide) inb_S8x256x512_S1x256x512_2_0_0 i q,
    plane_apply w 3 (by decide) inb_S8x256x512_S1x256x512_3_0_0 i q,
    plane_apply w 4 (by decide) inb_S8x256x512_S1x256x512_4_0_0 i q,
    plane_apply w 5 (by decide) inb_S8x256x512_S1x256x512_5_0_0 i q,
    plane_apply w 6 (by decide) inb_S8x256x512_S1x256x512_6_0_0 i q,
    plane_apply w 7 (by decide) inb_S8x256x512_S1x256x512_7_0_0 i q]
  exact pick_eq (idx (ix2 i q)) (hidx _) (fun c => w (ix3 c i q)) _

/-- The last step's store at an element: the accumulator plus the bias row, clamped at zero. -/
theorem out_apply (acc : Vec Ideal S4096x512 .f32) (b : Vec Ideal S1x512 .f32) (p : Fin 4096) (q : Fin 512) :
    k1_pay2 (F := Ideal) acc b (ix2 p q) = max (acc (ix2 p q) + b (ix2 0 q)) 0 := by
  unfold k1_pay2
  try rw [truncf_apply]
  rw [maximumf_apply, addf_apply, broadcast_apply]
  -- the bias row broadcast over the 4096 rows reads its one row at column q; the clamp's constant is zero
  have hb : broadcastTo S4096x512 (shapeCast S1x512 b shapeCasts_S1x512_S1x512) broadcasts_S1x512_S4096x512 (ix2 p q)
      = b (ix2 0 q) :=
    (broadcastTo_1b_ab_apply _ broadcasts_S1x512_S4096x512 p q).trans
      (congrFun (shapeCast_self b shapeCasts_S1x512_S1x512) _)
  have hz : (Scalar.ofBits (F := Ideal) .f32 0x00000000#32) = 0 := Ideal.ofBits_zero_f32
  rw [hb, hz]

end Cert.KernelIdeal.Region1

end
-- ==== Proof.KernelIdeal.Region1.Value.lean ====
/-
  What the second layer's region computes: its output array as ONE function of its four input arrays.

  The accumulator after grid point t = 32·o + k holds, at (p, q), the partial sum over the first 256·(k+1)
  contraction positions of x[p, j] · wt[cand idx[j, 512·o + q], j, 512·o + q]: each reduction step adds its tile's
  256 terms (the body's arithmetic, read at an element), the first step onto the cleared accumulator. At k = 31 the
  sum is complete, and the body stores max (sum + bias, 0) into the output tile, which the pipeline writes back as
  block o of the output array; the four blocks tile the array.
-/
import proofs.«423610_j1151051235470_3_alg».proof.Proof.KernelIdeal.Region1.Frame
import proofs.«423610_j1151051235470_3_alg».proof.Proof.KernelIdeal.Region1.Payload
import proofs.«423610_j1151051235470_3_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

open scoped BigOperators

noncomputable section

namespace Cert.KernelIdeal.Region1

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

/-! ## What each case's stores leave, as the body's arithmetic -/

section Pieces

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- A middle step leaves one reduction step over what the point before left. -/
theorem sMid_eq (c : Dev nD) (t : Fin cfg1.N) (h0 : ¬t.val % 32 = 0) (h1 : ¬t.val % 32 = 31) (xs : Vec F S4096x512 .f32) :
    sMid V c t h0 h1 xs = accStep (iblk V c 0 t) (iblk V c 1 t) (iblk V c 2 t) xs := by
  unfold sMid
  rw [View.read_writes_eq_canon _ _ _ (scoverMid V c t h0 h1 xs)]
  unfold runMid
  dsimp only
  sl_unfold_words
  rw [View.canon_unit_zero hz2]
  unfold accStep
  simp only [View.readAt_eq_ld, (hs0 t).read_unread, (hs1 t).read_unread, (hs2 t).read_unread,
    (Memref.isWhole_whole cc1_scratch0).read_unread, View.ld_unit_zero (S := S256x512) hz2,
    View.ld_unit_zero (S := S4096x256) hz2, View.ld_unit_zero (S := S4096x512) hz2]

/-- The first step leaves one reduction step over the cleared accumulator. -/
theorem sFirst_eq (c : Dev nD) (t : Fin cfg1.N) (h0 : t.val % 32 = 0) (h1 : ¬t.val % 32 = 31) :
    sFirst V c t h0 h1 = accStep (iblk V c 0 t) (iblk V c 1 t) (iblk V c 2 t) k1_pay3 := by
  unfold sFirst
  rw [View.read_writes_eq_canon _ _ _ (scoverFirst V c t h0 h1)]
  unfold runFirst
  dsimp only
  sl_unfold_words
  rw [View.canon_cons_unit_zero (S := S4096x512) hz2, View.readCov_unit_zero (S := S4096x512) _ hz2]
  unfold accStep
  simp only [View.readAt_eq_ld, (hs0 t).read_unread, (hs1 t).read_unread, (hs2 t).read_unread,
    View.ld_unit_zero (S := S256x512) hz2, View.ld_unit_zero (S := S4096x256) hz2]

/-- The last step leaves, in the accumulator, one more reduction step, -/
theorem sLast_eq (c : Dev nD) (t : Fin cfg1.N) (h0 : ¬t.val % 32 = 0) (h1 : t.val % 32 = 31) (xs : Vec F S4096x512 .f32) :
    sLast V c t h0 h1 xs = accStep (iblk V c 0 t) (iblk V c 1 t) (iblk V c 2 t) xs := by
  unfold sLast
  rw [View.read_writes_eq_canon _ _ _ (scoverLast V c t h0 h1 xs)]
  unfold runLast
  dsimp only
  sl_unfold_words
  rw [View.canon_unit_zero hz2]
  unfold accStep
  simp only [View.readAt_eq_ld, (hs0 t).read_unread, (hs1 t).read_unread, (hs2 t).read_unread,
    (Memref.isWhole_whole cc1_scratch0).read_unread, View.ld_unit_zero (S := S256x512) hz2,
    View.ld_unit_zero (S := S4096x256) hz2, View.ld_unit_zero (S := S4096x512) hz2]

/-- and in the output tile that accumulator plus the bias row, clamped at zero. -/
theorem oLast_eq (c : Dev nD) (t : Fin cfg1.N) (h0 : ¬t.val % 32 = 0) (h1 : t.val % 32 = 31) (xs : Vec F S4096x512 .f32) :
    oLast V c t h0 h1 xs = k1_pay2 (accStep (iblk V c 0 t) (iblk V c 1 t) (iblk V c 2 t) xs) (iblk V c 3 t) := by
  unfold oLast
  rw [View.read_writes_eq_canon _ _ _ (ocoverLast V c t h0 h1 xs)]
  unfold runLast
  dsimp only
  sl_unfold_words
  rw [View.canon_unit_zero hz2, View.readCov_unit_zero (S := S4096x512) _ hz2]
  unfold accStep
  simp only [View.readAt_eq_ld, (hs0 t).read_unread, (hs1 t).read_unread, (hs2 t).read_unread, (hs3 t).read_unread,
    (Memref.isWhole_whole cc1_scratch0).read_unread, View.ld_unit_zero (S := S256x512) hz2,
    View.ld_unit_zero (S := S4096x256) hz2, View.ld_unit_zero (S := S4096x512) hz2, View.ld_unit_zero (S := S1x512) hz2]

end Pieces

/-! ## The blocks the body finds, as entries of the arrays -/

section Blocks

variable {F : FTy → Type} [FloatOps F]
variable (V : (c : Dev nD) → (b : Ref sig .tc) → Buf (Elt F) ((c : Thread nD τ).loc b))

/-- The index maps over the grid: point t = 32·o + k reads block (0, k) of x, (0, k, o) of the bank, (k, o) of the
    table, (0, o) of the bias row, and owns block (0, o) of the output. -/
theorem idx_facts : ∀ t : Fin cfg1.N,
    win1_0.index t (0 : Fin 2) = 0 ∧ win1_0.index t (1 : Fin 2) = t.val % 32
    ∧ win1_1.index t (0 : Fin 3) = 0 ∧ win1_1.index t (1 : Fin 3) = t.val % 32 ∧ win1_1.index t (2 : Fin 3) = t.val / 32
    ∧ win1_2.index t (0 : Fin 2) = t.val % 32 ∧ win1_2.index t (1 : Fin 2) = t.val / 32
    ∧ win1_3.index t (0 : Fin 2) = 0 ∧ win1_3.index t (1 : Fin 2) = t.val / 32
    ∧ win1_4.index t (0 : Fin 2) = 0 ∧ win1_4.index t (1 : Fin 2) = t.val / 32 :=
  (by decide +kernel : ∀ t : Fin grid1.N, _)

theorem xblk_apply (c : Dev nD) (t : Fin cfg1.N) (p : Fin 4096) (i : Fin 256) (hb : 256 * (t.val % 32) + i.val < 8192) :
    (iblk V c 0 t : Vec F S4096x256 .bf16) (ix2 p i)
      = (V c main_call0_v4 : Vec F S4096x8192 .bf16) (ix2 p ⟨256 * (t.val % 32) + i.val, hb⟩) := by
  obtain ⟨e0, e1, -⟩ := idx_facts t
  unfold iblk
  rw [View.read_apply]
  show V c main_call0_v4 _ = V c main_call0_v4 _
  congr 1
  funext a
  apply Fin.ext
  match a with
  | ⟨0, _⟩ => show win1_0.index t (0 : Fin 2) * 4096 + 1 * p.val = p.val; rw [e0]; omega
  | ⟨1, _⟩ => show win1_0.index t (1 : Fin 2) * 256 + 1 * i.val = 256 * (t.val % 32) + i.val; rw [e1]; omega

theorem wblk_apply (c : Dev nD) (t : Fin cfg1.N) (cc : Fin 8) (i : Fin 256) (q : Fin 512)
    (hb : 256 * (t.val % 32) + i.val < 8192) (hq : 512 * (t.val / 32) + q.val < 2048) :
    (iblk V c 1 t : Vec F S8x256x512 .bf16) (ix3 cc i q)
      = (V c main_call0_v7 : Vec F S8x8192x2048 .bf16) (ix3 cc ⟨256 * (t.val % 32) + i.val, hb⟩ ⟨512 * (t.val / 32) + q.val, hq⟩) := by
  obtain ⟨-, -, e0, e1, e2, -⟩ := idx_facts t
  unfold iblk
  rw [View.read_apply]
  show V c main_call0_v7 _ = V c main_call0_v7 _
  congr 1
  funext a
  apply Fin.ext
  match a with
  | ⟨0, _⟩ => show win1_1.index t (0 : Fin 3) * 8 + 1 * cc.val = cc.val; rw [e0]; omega
  | ⟨1, _⟩ => show win1_1.index t (1 : Fin 3) * 256 + 1 * i.val = 256 * (t.val % 32) + i.val; rw [e1]; omega
  | ⟨2, _⟩ => show win1_1.index t (2 : Fin 3) * 512 + 1 * q.val = 512 * (t.val / 32) + q.val; rw [e2]; omega

theorem tblk_apply (c : Dev nD) (t : Fin cfg1.N) (i : Fin 256) (q : Fin 512)
    (hb : 256 * (t.val % 32) + i.val < 8192) (hq : 512 * (t.val / 32) + q.val < 2048) :
    (iblk V c 2 t : Vec F S256x512 .i32) (ix2 i q)
      = (V c main_arg6 : Vec F S8192x2048 .i32) (ix2 ⟨256 * (t.val % 32) + i.val, hb⟩ ⟨512 * (t.val / 32) + q.val, hq⟩) := by
  obtain ⟨-, -, -, -, -, e0, e1, -⟩ := idx_facts t
  unfold iblk
  rw [View.read_apply]
  show V c main_arg6 _ = V c main_arg6 _
  congr 1
  funext a
  apply Fin.ext
  match a with
  | ⟨0, _⟩ => show win1_2.index t (0 : Fin 2) * 256 + 1 * i.val = 256 * (t.val % 32) + i.val; rw [e0]; omega
  | ⟨1, _⟩ => show win1_2.index t (1 : Fin 2) * 512 + 1 * q.val = 512 * (t.val / 32) + q.val; rw [e1]; omega

theorem bblk_apply (c : Dev nD) (t : Fin cfg1.N) (q : Fin 512) (hq : 512 * (t.val / 32) + q.val < 2048) :
    (iblk V c 3 t : Vec F S1x512 .f32) (ix2 0 q)
      = (V c main_call0_v5 : Vec F S1x2048 .f32) (ix2 0 ⟨512 * (t.val / 32) + q.val, hq⟩) := by
  obtain ⟨-, -, -, -, -, -, -, e0, e1, -⟩ := idx_facts t
  unfold iblk
  rw [View.read_apply]
  show V c main_call0_v5 _ = V c main_call0_v5 _
  congr 1
  funext a
  apply Fin.ext
  match a with
  | ⟨0, _⟩ => show win1_3.index t (0 : Fin 2) * 1 + 1 * 0 = 0; rw [e0]
  | ⟨1, _⟩ => show win1_3.index t (1 : Fin 2) * 512 + 1 * q.val = 512 * (t.val / 32) + q.val; rw [e1]; omega

end Blocks

/-! ## The accumulator in closed form -/

section Sum

variable (V : (c : Dev nD) → (b : Ref sig .tc) → Buf (Elt Ideal) ((c : Thread nD τ).loc b)) (c : Dev nD)

/-- The region's four input arrays as it finds them, at their literal types. -/
abbrev xA : Vec Ideal S4096x8192 .bf16 := V c main_call0_v4
abbrev wA : Vec Ideal S8x8192x2048 .bf16 := V c main_call0_v7
abbrev iA : Vec Ideal S8192x2048 .i32 := V c main_arg6
abbrev bA : Vec Ideal S1x2048 .f32 := V c main_call0_v5

/-- The product at row `p`, contraction position `j` and output column `col`; zero outside the arrays. -/
def term (p : Fin 4096) (col j : ℕ) : EReal :=
  if h : j < 8192 ∧ col < 2048 then
    xA V c (ix2 p ⟨j, h.1⟩) * wA V c (ix3 (Cert.Spec.cand (iA V c (ix2 ⟨j, h.1⟩ ⟨col, h.2⟩))) ⟨j, h.1⟩ ⟨col, h.2⟩)
  else 0

/-- The table's tile at a point names candidates where the table does. -/
theorem ib_inRange (hidx : Cert.Spec.InRange (V c main_arg6 : IVec S8192x2048 32)) (t : Fin cfg1.N) (j : S256x512.Idx) :
    ((iblk V c 2 t : Vec Ideal S256x512 .i32) j : BitVec 32).toNat < 8 := by
  unfold iblk; rw [View.read_apply]; exact hidx _

/-- One reduction step at point t = 32·o + k adds the 256 terms of contraction positions 256·k … 256·k + 255, at
    output column 512·o + q. -/
theorem step_apply (hidx : Cert.Spec.InRange (V c main_arg6 : IVec S8192x2048 32)) (t : Fin cfg1.N)
    (acc : Vec Ideal S4096x512 .f32) (p : Fin 4096) (q : Fin 512) :
    accStep (F := Ideal) (iblk V c 0 t) (iblk V c 1 t) (iblk V c 2 t) acc (ix2 p q)
      = acc (ix2 p q) + ∑ i ∈ Finset.range 256, term V c p (512 * (t.val / 32) + q.val) (256 * (t.val % 32) + i) := by
  have hN : t.val < 128 := lt_of_lt_of_eq t.isLt (show cfg1.N = 128 from N_1)
  refine (accStep_apply (iblk V c 0 t) (iblk V c 1 t) (iblk V c 2 t) acc (ib_inRange V c hidx t) p q).trans ?_
  congr 1
  rw [Finset.sum_range]
  refine Finset.sum_congr rfl fun i _ => ?_
  have hb : 256 * (t.val % 32) + i.val < 8192 := by have := i.isLt; omega
  have hq : 512 * (t.val / 32) + q.val < 2048 := by have := q.isLt; omega
  rw [xblk_apply V c t p i hb, tblk_apply V c t i q hb hq, wblk_apply V c t _ i q hb hq]
  unfold term
  rw [dif_pos ⟨hb, hq⟩]

/-- After a point with k = 0 the accumulator holds the first 256 terms. -/
theorem accAt_eq_first (hidx : Cert.Spec.InRange (V c main_arg6 : IVec S8192x2048 32)) (t : Fin cfg1.N) (h0 : t.val % 32 = 0)
    (p : Fin 4096) (q : Fin 512) :
    accAt V c t.val t.isLt (ix2 p q) = ∑ j ∈ Finset.range (256 * (t.val % 32 + 1)), term V c p (512 * (t.val / 32) + q.val) j := by
  have h1 : ¬t.val % 32 = 31 := by omega
  rw [accAt_first V c t h0 h1, sFirst_eq, step_apply V c hidx, zero_apply, zero_add]
  rw [show 256 * (t.val % 32 + 1) = 256 from by omega]
  exact Finset.sum_congr rfl fun i _ => congrArg (term V c p (512 * (t.val / 32) + q.val)) (by omega)

/-- THE PARTIAL SUM. After point n = 32·o + k the accumulator holds, at (p, q), the first 256·(k + 1) terms of output
    column 512·o + q: by induction on the point. -/
theorem accAt_eq (hidx : Cert.Spec.InRange (V c main_arg6 : IVec S8192x2048 32)) :
    ∀ (n : ℕ) (h : n < cfg1.N) (p : Fin 4096) (q : Fin 512),
      accAt V c n h (ix2 p q) = ∑ j ∈ Finset.range (256 * (n % 32 + 1)), term V c p (512 * (n / 32) + q.val) j := by
  intro n
  induction n with
  | zero => intro h p q; exact accAt_eq_first V c hidx ⟨0, h⟩ (Nat.zero_mod _) p q
  | succ n ih =>
    intro h p q
    by_cases h0 : (n + 1) % 32 = 0
    · exact accAt_eq_first V c hidx ⟨n + 1, h⟩ h0 p q
    · have eAcc : accAt V c (n + 1) h
          = accStep (iblk V c 0 ⟨n + 1, h⟩) (iblk V c 1 ⟨n + 1, h⟩) (iblk V c 2 ⟨n + 1, h⟩) (accAt V c n (Nat.lt_of_succ_lt h)) := by
        by_cases h1 : (n + 1) % 32 = 31
        · exact (accAt_last V c ⟨n + 1, h⟩ h0 h1).trans (sLast_eq V c ⟨n + 1, h⟩ h0 h1 _)
        · exact (accAt_mid V c ⟨n + 1, h⟩ h0 h1).trans (sMid_eq V c ⟨n + 1, h⟩ h0 h1 _)
      rw [congrFun eAcc (ix2 p q), step_apply V c hidx ⟨n + 1, h⟩, ih (Nat.lt_of_succ_lt h) p q]
      have e1 : n % 32 + 1 = (n + 1) % 32 := by omega
      have e2 : n / 32 = (n + 1) / 32 := by omega
      rw [e1, e2, show 256 * ((n + 1) % 32 + 1) = 256 * ((n + 1) % 32) + 256 from by omega, Finset.sum_range_add]

/-- The complete sum is the layer's contraction over all 8192 positions. -/
theorem sum_full (p : Fin 4096) (col : Fin 2048) :
    ∑ j ∈ Finset.range 8192, term V c p col.val j
      = ∑ i : Fin 8192, xA V c (ix2 p i) * wA V c (ix3 (Cert.Spec.cand (iA V c (ix2 i col))) i col) := by
  rw [Finset.sum_range]
  refine Finset.sum_congr rfl fun i _ => ?_
  unfold term
  rw [dif_pos ⟨i.isLt, col.isLt⟩]

end Sum

/-! ## The output array -/

section Array

variable (V : (c : Dev nD) → (b : Ref sig .tc) → Buf (Elt Ideal) ((c : Thread nD τ).loc b)) (c : Dev nD)

/-- The layer over the region's own arrays: the input `x`[4096, 8192], the weight bank candidate-major
    `wt`[8, 8192, 2048], the table `idx`[8192, 2048] and the bias as a row `b`[1, 2048]: at (p, o),
    max (∑ i, x[p, i] · wt[cand idx[i, o], i, o] + b[0, o]) 0. -/
def regionOut (x : Vec Ideal S4096x8192 .bf16) (wt : Vec Ideal S8x8192x2048 .bf16) (idx : Vec Ideal S8192x2048 .i32)
    (b : Vec Ideal S1x2048 .f32) : Vec Ideal S4096x2048 .f32 :=
  fun j => max ((∑ i : Fin 8192, x (ix2 (j 0) i) * wt (ix3 (Cert.Spec.cand (idx (ix2 i (j 1)))) i (j 1))) + b (ix2 0 (j 1))) 0

/-- WHAT A WRITE-BACK WRITES: at the points with k = 31 — the only ones that write the output tile back — the tile is
    block o of the layer's output. -/
theorem flushed_eq (hidx : Cert.Spec.InRange (V c main_arg6 : IVec S8192x2048 32)) (t : Fin cfg1.N) (hf : (cfg1.win 4).flush t = true) :
    (dat (F := Ideal) V c).flushed 4 t
      = ((cfg1.win 4).blk t).view.read (Elt Ideal) (regionOut (V c main_call0_v4) (V c main_call0_v7) (V c main_arg6) (V c main_call0_v5)) := by
  have h1 : t.val % 32 = 31 := (flush1_4 t).mp hf
  have h0 : ¬t.val % 32 = 0 := by omega
  have hN : t.val < 128 := lt_of_lt_of_eq t.isLt (show cfg1.N = 128 from N_1)
  obtain ⟨-, -, -, -, -, -, -, -, -, e0, e1⟩ := idx_facts t
  show (cfg1.win 4).cut (grid1.coords t) ((dat V c).after 4 t) = _
  rw [after_4, outAt_last V c t h0 h1, oLast_eq]
  funext j
  obtain ⟨p, q, rfl⟩ : ∃ (p : Fin 4096) (q : Fin 512), j = ix2 p q := ⟨j 0, j 1, eq_ix2 j⟩
  have hq : 512 * (t.val / 32) + q.val < 2048 := by have := q.isLt; omega
  have hemb : ((cfg1.win 4).blk t).view.emb (ix2 p q) = ix2 p ⟨512 * (t.val / 32) + q.val, hq⟩ := by
    funext a; apply Fin.ext
    match a with
    | ⟨0, _⟩ => show win1_4.index t (0 : Fin 2) * 4096 + 1 * p.val = p.val; rw [e0]; omega
    | ⟨1, _⟩ => show win1_4.index t (1 : Fin 2) * 512 + 1 * q.val = 512 * (t.val / 32) + q.val; rw [e1]; omega
  show k1_pay2 (F := Ideal) (accStep (iblk V c 0 t) (iblk V c 1 t) (iblk V c 2 t) (accAt V c (t.val - 1) _)) (iblk V c 3 t) (ix2 p q)
    = regionOut (V c main_call0_v4) (V c main_call0_v7) (V c main_arg6) (V c main_call0_v5) (((cfg1.win 4).blk t).view.emb (ix2 p q))
  rw [hemb]
  refine (out_apply _ _ p q).trans ?_
  rw [bblk_apply V c t q hq]
  have hacc : accStep (F := Ideal) (iblk V c 0 t) (iblk V c 1 t) (iblk V c 2 t)
        (accAt V c (t.val - 1) (Nat.lt_of_le_of_lt (Nat.sub_le _ _) t.isLt)) (ix2 p q)
      = ∑ j ∈ Finset.range 8192, term V c p (512 * (t.val / 32) + q.val) j := by
    have e := accAt_eq V c hidx t.val t.isLt p q
    rw [accAt_last V c t h0 h1, sLast_eq] at e
    rw [e, show 256 * (t.val % 32 + 1) = 8192 from by omega]
  rw [hacc, sum_full V c p ⟨512 * (t.val / 32) + q.val, hq⟩]
  rfl

/-- An index of the output array is in point `t`'s block iff each coordinate is in the block's range on its axis. -/
theorem mem_blk4 (t : Fin cfg1.N) (i : S4096x2048.Idx) :
    i ∈ ((cfg1.win 4).blk t).view.set ↔ ∀ a : Fin 2, win1_4.index t a * S4096x512.size a ≤ (i a).val ∧ (i a).val < win1_4.index t a * S4096x512.size a + S4096x512.size a := by
  show i ∈ ((View.whole main_v0).slice (win1_4.rect t)).set ↔ _
  rw [View.set_slice_whole, Rect.mem_set_unit]
  exact Iff.rfl

/-- THE COVER: column c of the output lies in block c / 512, written back at point 32·(c / 512) + 31. -/
theorem covered (i : S4096x2048.Idx) : ∃ t : Fin cfg1.N, (cfg1.win 4).flush t = true ∧ i ∈ ((cfg1.win 4).blk t).view.set := by
  have hi0 : (i 0).val < 4096 := (i 0).isLt
  have hi1 : (i 1).val < 2048 := (i 1).isLt
  have hN : cfg1.N = 128 := N_1
  have hlt : 32 * ((i 1).val / 512) + 31 < cfg1.N := by rw [hN]; omega
  obtain ⟨-, -, -, -, -, -, -, -, -, e0, e1⟩ := idx_facts ⟨32 * ((i 1).val / 512) + 31, hlt⟩
  refine ⟨⟨32 * ((i 1).val / 512) + 31, hlt⟩, (flush1_4 _).mpr (by show (32 * ((i 1).val / 512) + 31) % 32 = 31; omega), ?_⟩
  rw [mem_blk4]
  intro a
  match a with
  | ⟨0, _⟩ =>
    show win1_4.index ⟨32 * ((i 1).val / 512) + 31, hlt⟩ (0 : Fin 2) * 4096 ≤ (i 0).val ∧ (i 0).val < win1_4.index ⟨32 * ((i 1).val / 512) + 31, hlt⟩ (0 : Fin 2) * 4096 + 4096
    rw [e0]; omega
  | ⟨1, _⟩ =>
    show win1_4.index ⟨32 * ((i 1).val / 512) + 31, hlt⟩ (1 : Fin 2) * 512 ≤ (i 1).val ∧ (i 1).val < win1_4.index ⟨32 * ((i 1).val / 512) + 31, hlt⟩ (1 : Fin 2) * 512 + 512
    rw [e1]; show (32 * ((i 1).val / 512) + 31) / 32 * 512 ≤ (i 1).val ∧ (i 1).val < (32 * ((i 1).val / 512) + 31) / 32 * 512 + 512; omega

/-- Where every word of the table names a candidate, the region's output array ends holding that function of the
    arrays the region was entered with. -/
theorem arrAt_out (hidx : Cert.Spec.InRange (V c main_arg6 : IVec S8192x2048 32)) :
    (dat (F := Ideal) V c).arrAt 4 cfg1.N
      = regionOut (V c main_call0_v4) (V c main_call0_v7) (V c main_arg6) (V c main_call0_v5) :=
  (dat (F := Ideal) V c).arrAt_eq_of_cover 4 _ (fun t hf => flushed_eq V c hidx t hf) (covered)

end Array

end Cert.KernelIdeal.Region1

end
-- ==== Proof.KernelIdeal.Result.lean ====
/-
  The program's result as the specification: the second region's output array, entered with the first region's
  output, the transposed weight banks, the bias rows and the tables, is the two-layer network of the arguments.
-/
import proofs.«423610_j1151051235470_3_alg».proof.Proof.KernelIdeal.Whole
import proofs.«423610_j1151051235470_3_alg».proof.Proof.KernelIdeal.Region0.Value
import proofs.«423610_j1151051235470_3_alg».proof.Proof.KernelIdeal.Region1.Value
import proofs.«423610_j1151051235470_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

open scoped BigOperators

noncomputable section

namespace Cert.KernelIdeal.Result

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat)

/-! ## The layer the regions state is the specification's layer -/

/-- The bank transposed candidate-major (permutation [2, 0, 1]) reads, at (candidate, input, output), the bank at
    (input, output, candidate). -/
theorem transpose_ix3_201_apply {α : Type} {a b k : ℕ} (w : (⟨3, ![a, b, k]⟩ : Shape).Idx → α)
    (h : (⟨3, ![a, b, k]⟩ : Shape).Transposes [2, 0, 1] ⟨3, ![k, a, b]⟩) (cc : Fin k) (i : Fin a) (o : Fin b) :
    transpose ⟨3, ![k, a, b]⟩ [2, 0, 1] w h (ix3 cc i o) = w (ix3 i o cc) :=
  transpose_apply _ w h _ _ fun d => match d with | ⟨0, _⟩ => rfl | ⟨1, _⟩ => rfl | ⟨2, _⟩ => rfl

/-- One layer over the candidate-major bank and the bias as a row, at row `p` and column `o`, is the specification's
    layer there: the transposed bank read at (candidate, i, o) is the bank at (i, o, candidate), the row read at
    (0, o) is the bias at o, and the sums over the inputs agree term by term. -/
theorem layerAt_eq {B N M : ℕ} (x : (⟨2, ![B, N]⟩ : Shape).Idx → EReal) (w : (⟨3, ![N, M, 8]⟩ : Shape).Idx → EReal)
    (idx : (⟨2, ![N, M]⟩ : Shape).Idx → BitVec 32) (b : (⟨1, ![M]⟩ : Shape).Idx → EReal)
    (ht : (⟨3, ![N, M, 8]⟩ : Shape).Transposes [2, 0, 1] ⟨3, ![8, N, M]⟩) (hc : (⟨1, ![M]⟩ : Shape).ShapeCasts ⟨2, ![1, M]⟩)
    (p : Fin B) (o : Fin M) :
    max ((∑ i : Fin N, x (ix2 p i) * transpose ⟨3, ![8, N, M]⟩ [2, 0, 1] w ht (ix3 (Cert.Spec.cand (idx (ix2 i o))) i o))
        + shapeCast ⟨2, ![1, M]⟩ b hc (ix2 (0 : Fin 1) o)) 0
      = Cert.Spec.layerAt x w idx b p o := by
  unfold Cert.Spec.layerAt Cert.Spec.wsel
  rw [shapeCast_a_1a_apply b hc (0 : Fin 1) o]
  refine congrArg (fun t : EReal => max (t + b (ix1 o)) 0) ?_
  exact Finset.sum_congr rfl fun i _ => by rw [transpose_ix3_201_apply w ht]

/-- The first region's function of the input cast to the narrower format, the bank transposed and cast, the table and
    the bias as a row is the specification's first layer: over the extended reals a cast is the identity. -/
theorem region0_eq_layer (x : FVec Ideal S4096x2048 .f32) (w : FVec Ideal S2048x8192x8 .f32) (idx : IVec S2048x8192 32)
    (b : FVec Ideal S8192 .f32) (hx : FTy.bits .bf16 < FTy.bits .f32) (ht : S2048x8192x8.Transposes [2, 0, 1] S8x2048x8192)
    (hc : S8192.ShapeCasts S1x8192) :
    Region0.regionOut (truncf .bf16 x hx) (truncf .bf16 (transpose S8x2048x8192 [2, 0, 1] w ht) hx) idx (shapeCast S1x8192 b hc)
      = Cert.Spec.layer x w idx b :=
  funext fun j => layerAt_eq x w idx b ht hc (j 0) (j 1)

/-- The second region's function likewise, over any input array, is the specification's layer of that array. -/
theorem region1_eq_layer (x : FVec Ideal S4096x8192 .bf16) (w : FVec Ideal S8192x2048x8 .f32) (idx : IVec S8192x2048 32)
    (b : FVec Ideal S2048 .f32) (hx : FTy.bits .bf16 < FTy.bits .f32) (ht : S8192x2048x8.Transposes [2, 0, 1] S8x8192x2048)
    (hc : S2048.ShapeCasts S1x2048) :
    Region1.regionOut x (truncf .bf16 (transpose S8x8192x2048 [2, 0, 1] w ht) hx) idx (shapeCast S1x2048 b hc)
      = Cert.Spec.layer x w idx b :=
  funext fun j => layerAt_eq x w idx b ht hc (j 0) (j 1)

/-! ## What each region is entered with, as a term of the arguments -/

section Entry

variable (m : (ℓ : Loc nD τ sig) → Buf (Elt Ideal) ℓ) (ρ : Dev nD → PrngReg) (c : Dev nD)

/-- The first table is written by no host operation before the first region: the region is entered with it as launched. -/
theorem in0_arg3 : in0 m ρ c main_arg3 = m ((c : Thread nD τ).loc main_arg3) :=
  StableHlo.after_of_writes_sub hostOps0 _ hostOps0_writes (by decide)

/-- The second table is written by neither host stretch and is no array of the first region: the second region is
    entered with it as launched. -/
theorem in1_arg6 : in1 m ρ c main_arg6 = m ((c : Thread nD τ).loc main_arg6) :=
  calc in1 m ρ c main_arg6
    _ = at2 m ρ c (Proc.devRef .tc main_arg6) := StableHlo.after_of_writes_sub hostOps1 _ hostOps1_writes (by decide)
    _ = at1 m ρ c (Proc.devRef .tc main_arg6) := at2_of_ne m ρ c main_arg6 (by decide)
    _ = at0 m ρ c (Proc.devRef .tc main_arg6) := StableHlo.after_of_writes_sub hostOps0 _ hostOps0_writes (by decide)
    _ = m ((c : Thread nD τ).loc main_arg6) := rfl

/-- The second region's input array is the first region's output array: the second host stretch does not write it. -/
theorem in1_v4 : in1 m ρ c main_call0_v4 = (Region0.dat (F := Ideal) (in0 m ρ) c).arrAt 4 cfg0.N :=
  calc in1 m ρ c main_call0_v4
    _ = at2 m ρ c (Proc.devRef .tc main_call0_v4) := StableHlo.after_of_writes_sub hostOps1 _ hostOps1_writes (by decide)
    _ = (Region0.dat (F := Ideal) (in0 m ρ) c).arrAt 4 cfg0.N := at2_arr m ρ c 4

/-- The first region's input array is the input argument cast to the narrower format. -/
theorem in0_v0 : @Eq (FVec Ideal S4096x2048 .bf16) (in0 m ρ c main_call0_v0)
    (truncf .bf16 (m ((c : Thread nD τ).loc main_arg0) : FVec Ideal S4096x2048 .f32) bitsLt_bf16_f32) := by
  show StableHlo.after hostOps0 _ (Proc.devRef .tc main_call0_v0) = _
  after_results
  rfl

/-- The first region's bias row is the first bias reshaped [8192] → [1, 8192]. -/
theorem in0_v1 : @Eq (FVec Ideal S1x8192 .f32) (in0 m ρ c main_call0_v1)
    (shapeCast S1x8192 (m ((c : Thread nD τ).loc main_arg2) : FVec Ideal S8192 .f32) shapeCasts_S8192_S1x8192) := by
  show StableHlo.after hostOps0 _ (Proc.devRef .tc main_call0_v1) = _
  after_results
  rfl

/-- The first region's bank is the first weight bank transposed candidate-major, then cast. -/
theorem in0_v3 : @Eq (FVec Ideal S8x2048x8192 .bf16) (in0 m ρ c main_call0_v3)
    (truncf .bf16 (transpose S8x2048x8192 [2, 0, 1] (m ((c : Thread nD τ).loc main_arg1) : FVec Ideal S2048x8192x8 .f32)
      transposes_S2048x8192x8_S8x2048x8192_2_0_1) bitsLt_bf16_f32) := by
  show StableHlo.after hostOps0 _ (Proc.devRef .tc main_call0_v3) = _
  after_results
  rfl

/-- The second weight bank is as launched at the first region's exit. -/
theorem at2_arg4 : at2 m ρ c (Proc.devRef .tc main_arg4) = m ((c : Thread nD τ).loc main_arg4) :=
  (at2_of_ne m ρ c main_arg4 (by decide)).trans (StableHlo.after_of_writes_sub hostOps0 _ hostOps0_writes (by decide))

/-- The second bias is as launched at the first region's exit. -/
theorem at2_arg5 : at2 m ρ c (Proc.devRef .tc main_arg5) = m ((c : Thread nD τ).loc main_arg5) :=
  (at2_of_ne m ρ c main_arg5 (by decide)).trans (StableHlo.after_of_writes_sub hostOps0 _ hostOps0_writes (by decide))

/-- The second region's bias row is the second bias reshaped [2048] → [1, 2048]. -/
theorem in1_v5 : @Eq (FVec Ideal S1x2048 .f32) (in1 m ρ c main_call0_v5)
    (shapeCast S1x2048 (m ((c : Thread nD τ).loc main_arg5) : FVec Ideal S2048 .f32) shapeCasts_S2048_S1x2048) := by
  refine Eq.trans ?_ (congrArg (fun v : FVec Ideal S2048 .f32 => shapeCast S1x2048 v shapeCasts_S2048_S1x2048) (at2_arg5 m ρ c))
  show StableHlo.after hostOps1 _ (Proc.devRef .tc main_call0_v5) = _
  after_results
  rfl

/-- The second region's bank is the second weight bank transposed candidate-major, then cast. -/
theorem in1_v7 : @Eq (FVec Ideal S8x8192x2048 .bf16) (in1 m ρ c main_call0_v7)
    (truncf .bf16 (transpose S8x8192x2048 [2, 0, 1] (m ((c : Thread nD τ).loc main_arg4) : FVec Ideal S8192x2048x8 .f32)
      transposes_S8192x2048x8_S8x8192x2048_2_0_1) bitsLt_bf16_f32) := by
  refine Eq.trans ?_ (congrArg (fun v : FVec Ideal S8192x2048x8 .f32 =>
    truncf .bf16 (transpose S8x8192x2048 [2, 0, 1] v transposes_S8192x2048x8_S8x8192x2048_2_0_1) bitsLt_bf16_f32) (at2_arg4 m ρ c))
  show StableHlo.after hostOps1 _ (Proc.devRef .tc main_call0_v7) = _
  after_results
  rfl

end Entry

/-! ## The result -/

/-- Where both tables name candidates, the second region's output array is the network of the arguments. -/
theorem result_eq_net (m : (ℓ : Loc nD τ sig) → Buf (Elt Ideal) ℓ) (ρ : Dev nD → PrngReg) (c : Dev nD)
    (h3 : Cert.Spec.InRange (m ((c : Thread nD τ).loc main_arg3) : IVec S2048x8192 32))
    (h6 : Cert.Spec.InRange (m ((c : Thread nD τ).loc main_arg6) : IVec S8192x2048 32)) :
    (Region1.dat (F := Ideal) (in1 m ρ) c).arrAt 4 cfg1.N
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- each region is entered with its table as launched, so each table names candidates there too
  have h6' : Cert.Spec.InRange (in1 m ρ c main_arg6 : IVec S8192x2048 32) := by rw [in1_arg6 m ρ c]; exact h6
  have h3' : Cert.Spec.InRange (in0 m ρ c main_arg3 : IVec S2048x8192 32) := by rw [in0_arg3 m ρ c]; exact h3
  -- the second region's function of its four arrays, the first of them the first region's function of its own four
  rw [Region1.arrAt_out (in1 m ρ) c h6', in1_v4 m ρ c, Region0.arrAt_out (in0 m ρ) c h3', in1_v7 m ρ c, in1_v5 m ρ c,
    in1_arg6 m ρ c, in0_v0 m ρ c, in0_v3 m ρ c, in0_v1 m ρ c, in0_arg3 m ρ c]
  -- each is the specification's layer; the network is the second layer of the first
  rw [region0_eq_layer, region1_eq_layer]
  rfl

end Cert.KernelIdeal.Result

end
-- ==== Proof.RefValue.lean ====
/-
  The reference program's result is the two-layer network of the specification.

  The reference picks each pair's weight out of its bank of eight by an index array that it first normalises — a
  negative word is wrapped by the axis length 8 —, masks by the bounds 0 ≤ · ≤ 7, uses as the start index of a gather
  along the bank's last axis, and replaces by a not-a-number word where the mask is off. Under the precondition that
  every word of a table is below 8 as an unsigned value, the wrap is not taken, the mask is set everywhere, and the gather
  reads the candidate the word names: the array handed to the product is the specification's selected weight. The
  product, the bias and the comparison with zero are then the specification's layer, element by element, and the second
  layer runs on the first layer's output.
-/
import proofs.«423610_j1151051235470_3_alg».proof.Proof.RefRun
import proofs.«423610_j1151051235470_3_alg».proof.Proof.RefRead
import proofs.«423610_j1151051235470_3_alg».proof.Proof.Spec
import Idealize.ShloMosaic.Lib.StableHlo.Predicate
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
  Idealize.ShloMosaic.ValueIdx Idealize.ShloMosaic.StableHlo Idealize.SL.Sem
open scoped BigOperators

/-! ## A table word that names a candidate

For a 32-bit word whose unsigned value is below 8 the index normalisation does nothing: the word is not negative, so the
wrap by the axis length 8 is not taken; it lies in the closed range from 0 to 7, so its bounds-mask bit is set; and read
as a signed start index and clamped into that range it is its own value, the candidate the specification reads. -/

section Words
variable {v : BitVec 32}

/-- A word below 8 is not negative. -/
theorem slt_zero_of_lt (hv : v.toNat < 8) : IntOp.cmpi .slt v 0#32 = 0#1 := by
  refine eq_zero_of_ne_one fun h => ?_
  have h' := (Predicate.slt_iff_toNat (a := v) (b := 0#32) (by omega) (by decide)).1 h
  have h0 : (0#32 : BitVec 32).toNat = 0 := rfl
  omega

/-- So the wrap is not taken: the select between the wrapped word and the word keeps the word. -/
theorem wrap_of_lt (hv : v.toNat < 8) (a : BitVec 32) : Scalar.select (IntOp.cmpi .slt v 0#32) a v = v := by
  rw [slt_zero_of_lt hv, select_zero]

/-- A word below 8 is at least 0 … -/
theorem sge_zero_of_lt (hv : v.toNat < 8) : IntOp.cmpi .sge v 0#32 = 1#1 :=
  (Predicate.sge_iff_toNat (a := v) (b := 0#32) (by omega) (by decide)).2 (Nat.zero_le _)

/-- … and at most 7. -/
theorem sle_seven_of_lt (hv : v.toNat < 8) : IntOp.cmpi .sle v 7#32 = 1#1 := by
  refine (Predicate.sle_iff_toNat (a := v) (b := 7#32) (by omega) (by decide)).2 ?_
  have h7 : (7#32 : BitVec 32).toNat = 7 := rfl
  omega

/-- Its bounds-mask bit is set. -/
theorem mask_of_lt (hv : v.toNat < 8) : IntOp.andi (IntOp.cmpi .sge v 0#32) (IntOp.cmpi .sle v 7#32) = 1#1 := by
  rw [sge_zero_of_lt hv, sle_seven_of_lt hv]; decide

/-- Read signed and clamped into 0..7, it is its value, which is the value reduced modulo 8. -/
theorem clamp_of_lt (hv : v.toNat < 8) : min v.toInt.toNat 7 = v.toNat % 8 := by
  rw [Predicate.toInt_eq_toNat_of_lt (a := v) (by omega), Int.toNat_natCast]
  omega

end Words

/-! ## A reduction by "and" of set bits -/

/-- Folding "and" from 1 over bits that are all 1 gives 1. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = (1#1 : BitVec 1) from by decide]
    exact ih

/-- A reduction by "and", from an initial value 1, of an array whose bits are all 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The gather of one candidate per (input, output) pair

The dimension numbers of the gather that picks, for a bank w[N, M, 8] and start indices [N, M, 1, 1], one candidate per
pair: the first two axes are batching axes of both arrays, axis 2 of the bank is collapsed and is the one the start index
names, every slice has size 1. Result element (i, o, 0) is the bank at (i, o, k), with k the start index at (i, o, 0, 0)
read signed and clamped into 0..7. -/

section Bank
variable {α : Type}

/-- Those dimension numbers; their conditions are decided on a program's literal shapes. -/
abbrev bankDims (N M : Nat)
    (wf : GatherDims.WF ⟨3, ![N, M, 8]⟩ ⟨4, ![N, M, 1, 1]⟩ ⟨3, ![N, M, 1]⟩ [] [2] [0, 1] [2] [0, 1] 3 ![1, 1, 1]) :
    GatherDims ⟨3, ![N, M, 8]⟩ ⟨4, ![N, M, 1, 1]⟩ ⟨3, ![N, M, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather read at (i, o, 0). -/
theorem gather_bank_apply {N M w : Nat}
    (wf : GatherDims.WF ⟨3, ![N, M, 8]⟩ ⟨4, ![N, M, 1, 1]⟩ ⟨3, ![N, M, 1]⟩ [] [2] [0, 1] [2] [0, 1] 3 ![1, 1, 1])
    (x : (⟨3, ![N, M, 8]⟩ : Shape).Idx → α) (idx : IVec ⟨4, ![N, M, 1, 1]⟩ w) (i : Fin N) (o : Fin M) :
    Host.gather (bankDims N M wf) x idx (ix3 i o 0)
      = x (ix3 i o ⟨min (idx (ix4 i o 0 0)).toInt.toNat 7, by omega⟩) := by
  have hb0 : (0 : Fin 3) ∈ (bankDims N M wf).operandBatchingDims := List.mem_cons_self
  have hb1 : (1 : Fin 3) ∈ (bankDims N M wf).operandBatchingDims := List.mem_cons_of_mem _ List.mem_cons_self
  have hb2 : (2 : Fin 3) ∉ (bankDims N M wf).operandBatchingDims := by
    show (2 : Fin 3) ∉ ([0, 1] : List (Fin 3)); decide
  have hc2 : (2 : Fin 3) ∈ (bankDims N M wf).collapsedSliceDims := List.mem_singleton.mpr rfl
  have hm2 : (2 : Fin 3) ∈ (bankDims N M wf).startIndexMap := List.mem_singleton.mpr rfl
  unfold Host.gather
  congr 1
  funext a
  refine Fin.ext ?_
  match a with
  | ⟨0, _⟩ =>
    show (bankDims N M wf).start (ix3 i o 0) idx 0 + (bankDims N M wf).batchCoord (ix3 i o 0) 0
      + (bankDims N M wf).offCoord (ix3 i o 0) 0 = i.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show (bankDims N M wf).start (ix3 i o 0) idx 1 + (bankDims N M wf).batchCoord (ix3 i o 0) 1
      + (bankDims N M wf).offCoord (ix3 i o 0) 1 = o.val
    rw [GatherDims.start_batching _ _ _ _ hb1,
      GatherDims.offCoord_eq_zero _ _ _ (fun h => ((GatherDims.mem_sKept _ _).mp h).2 hb1)]
    simp only [Nat.zero_add, Nat.add_zero]
    unfold GatherDims.batchCoord
    rw [dif_pos hb1]
    rfl
  | ⟨2, _⟩ =>
    show (bankDims N M wf).start (ix3 i o 0) idx 2 + (bankDims N M wf).batchCoord (ix3 i o 0) 2
      + (bankDims N M wf).offCoord (ix3 i o 0) 2 = min (idx (ix4 i o 0 0)).toInt.toNat 7
    rw [GatherDims.batchCoord_eq_zero _ _ _ hb2,
      GatherDims.offCoord_eq_zero _ _ _ (fun h => ((GatherDims.mem_sKept _ _).mp h).1 hc2)]
    simp only [Nat.add_zero]
    unfold GatherDims.start
    rw [dif_pos hm2]
    have hsi : (bankDims N M wf).siIdx (ix3 i o 0) ⟨List.idxOf (2 : Fin 3) (bankDims N M wf).startIndexMap,
        List.idxOf_lt_length_iff.2 hm2⟩ = ix4 i o 0 0 := by
      funext b; refine Fin.ext ?_
      match b with
      | ⟨0, _⟩ => rfl
      | ⟨1, _⟩ => rfl
      | ⟨2, _⟩ => rfl
      | ⟨3, _⟩ => rfl
    rw [hsi]
    rfl

end Bank

/-! ## The selected weights of layer 1: the array the product takes is the bank's candidate the table names -/

section Weights1
variable (t : (⟨S2048x8192, .i32⟩ : BufTy).Contents (Elt Ideal)) (ht : Cert.Spec.InRange (t : IVec S2048x8192 32))
include ht

/-- The normalised start index at any position is the table's word there: the wrap is not taken. -/
theorem start1_eq (k : S2048x8192x1x1.Idx) :
    val_main_call0_v5 (F := Ideal) t k = t (idx_main_v0 (idx_main_call0_v5 k)) := by
  rw [val_main_call0_v5_apply, val_main_call0_v4_apply, val_main_call0_v1_apply, val_main_v0_apply, val_main_call0_v0_apply,
    val_main_call0_c_apply]
  exact wrap_of_lt (ht _) _

/-- Position (i, o, 0, 0) reads the table at (i, o). -/
theorem start1_at (i : Fin 2048) (o : Fin 8192) :
    val_main_call0_v5 (F := Ideal) t (ix4 i o 0 0) = t (ix2 i o) := by
  rw [start1_eq t ht]
  congr 1
  funext a
  refine Fin.ext ?_
  have hi := i.isLt
  have ho := o.isLt
  match a with
  | ⟨0, _⟩ => show (((i.val * 8192 + o.val) * 1 + 0) * 1 + 0) / 8192 = i.val; omega
  | ⟨1, _⟩ => show (((i.val * 8192 + o.val) * 1 + 0) * 1 + 0) / 1 % 8192 = o.val; omega

/-- The bounds mask is set everywhere … -/
theorem mask1_eq (k : S2048x8192x1x1.Idx) : val_main_call0_v11 (F := Ideal) t k = 1#1 := by
  rw [val_main_call0_v11_apply, val_main_call0_v7_apply, val_main_call0_v10_apply, val_main_call0_v6_apply, val_main_call0_c_2_apply,
    val_main_call0_v9_apply, val_main_call0_v8_apply, val_main_call0_c_1_apply, start1_eq t ht]
  exact mask_of_lt (ht _)

/-- … and so is its reduction over the last axis. -/
theorem all1_eq (j : S2048x8192x1.Idx) : val_main_call0_v12 (F := Ideal) t j = 1#1 := by
  unfold val_main_call0_v12
  exact reduce_andi_ones _ _ _ _ (mask1_eq t ht) (fun _ => rfl) j

/-- The gather reads the candidate the table names. -/
theorem gather1_at (w : (⟨S2048x8192x8, .f32⟩ : BufTy).Contents (Elt Ideal)) (i : Fin 2048) (o : Fin 8192) :
    val_main_call0_v13 (F := Ideal) w t (ix3 i o 0) = w (ix3 i o (Cert.Spec.cand (t (ix2 i o)))) := by
  unfold val_main_call0_v13
  refine (gather_bank_apply (N := 2048) (M := 8192) gather_S2048x8192x8_S2048x8192x1x1_S2048x8192x1_n_2_01_01_2_3_111.wf w
    (val_main_call0_v5 (F := Ideal) t) i o).trans (congrArg w (congrArg (ix3 i o) (Fin.ext ?_)))
  show min (val_main_call0_v5 (F := Ideal) t (ix4 i o 0 0)).toInt.toNat 7 = (t (ix2 i o)).toNat % 8
  rw [start1_at t ht i o]
  exact clamp_of_lt (ht _)

/-- The array handed to the product, at (i, o): the selected weight. -/
theorem weights1_at (w : (⟨S2048x8192x8, .f32⟩ : BufTy).Contents (Elt Ideal)) (i : Fin 2048) (o : Fin 8192) :
    val_main_v2 (F := Ideal) w t (ix2 i o) = Cert.Spec.wsel w t i o := by
  rw [val_main_v2_apply]
  have e : idx_main_v2 (ix2 i o) = ix3 i o 0 := by
    funext a
    refine Fin.ext ?_
    have hi := i.isLt
    have ho := o.isLt
    match a with
    | ⟨0, _⟩ => show (i.val * 8192 + o.val) / 8192 = i.val; omega
    | ⟨1, _⟩ => show (i.val * 8192 + o.val) / 1 % 8192 = o.val; omega
    | ⟨2, _⟩ => rfl
  rw [e, val_main_v1_apply, all1_eq t ht, select_one]
  exact gather1_at t ht w i o

end Weights1

/-! ## The selected weights of layer 2: the array the product takes is the bank's candidate the table names -/

section Weights2
variable (t : (⟨S8192x2048, .i32⟩ : BufTy).Contents (Elt Ideal)) (ht : Cert.Spec.InRange (t : IVec S8192x2048 32))
include ht

/-- The normalised start index at any position is the table's word there: the wrap is not taken. -/
theorem start2_eq (k : S8192x2048x1x1.Idx) :
    val_main_call2_v5 (F := Ideal) t k = t (idx_main_v8 (idx_main_call2_v5 k)) := by
  rw [val_main_call2_v5_apply, val_main_call2_v4_apply, val_main_call2_v1_apply, val_main_v8_apply, val_main_call2_v0_apply,
    val_main_call2_c_apply]
  exact wrap_of_lt (ht _) _

/-- Position (i, o, 0, 0) reads the table at (i, o). -/
theorem start2_at (i : Fin 8192) (o : Fin 2048) :
    val_main_call2_v5 (F := Ideal) t (ix4 i o 0 0) = t (ix2 i o) := by
  rw [start2_eq t ht]
  congr 1
  funext a
  refine Fin.ext ?_
  have hi := i.isLt
  have ho := o.isLt
  match a with
  | ⟨0, _⟩ => show (((i.val * 2048 + o.val) * 1 + 0) * 1 + 0) / 2048 = i.val; omega
  | ⟨1, _⟩ => show (((i.val * 2048 + o.val) * 1 + 0) * 1 + 0) / 1 % 2048 = o.val; omega

/-- The bounds mask is set everywhere … -/
theorem mask2_eq (k : S8192x2048x1x1.Idx) : val_main_call2_v11 (F := Ideal) t k = 1#1 := by
  rw [val_main_call2_v11_apply, val_main_call2_v7_apply, val_main_call2_v10_apply, val_main_call2_v6_apply, val_main_call2_c_2_apply,
    val_main_call2_v9_apply, val_main_call2_v8_apply, val_main_call2_c_1_apply, start2_eq t ht]
  exact mask_of_lt (ht _)

/-- … and so is its reduction over the last axis. -/
theorem all2_eq (j : S8192x2048x1.Idx) : val_main_call2_v12 (F := Ideal) t j = 1#1 := by
  unfold val_main_call2_v12
  exact reduce_andi_ones _ _ _ _ (mask2_eq t ht) (fun _ => rfl) j

/-- The gather reads the candidate the table names. -/
theorem gather2_at (w : (⟨S8192x2048x8, .f32⟩ : BufTy).Contents (Elt Ideal)) (i : Fin 8192) (o : Fin 2048) :
    val_main_call2_v13 (F := Ideal) w t (ix3 i o 0) = w (ix3 i o (Cert.Spec.cand (t (ix2 i o)))) := by
  unfold val_main_call2_v13
  refine (gather_bank_apply (N := 8192) (M := 2048) gather_S8192x2048x8_S8192x2048x1x1_S8192x2048x1_n_2_01_01_2_3_111.wf w
    (val_main_call2_v5 (F := Ideal) t) i o).trans (congrArg w (congrArg (ix3 i o) (Fin.ext ?_)))
  show min (val_main_call2_v5 (F := Ideal) t (ix4 i o 0 0)).toInt.toNat 7 = (t (ix2 i o)).toNat % 8
  rw [start2_at t ht i o]
  exact clamp_of_lt (ht _)

/-- The array handed to the product, at (i, o): the selected weight. -/
theorem weights2_at (w : (⟨S8192x2048x8, .f32⟩ : BufTy).Contents (Elt Ideal)) (i : Fin 8192) (o : Fin 2048) :
    val_main_v10 (F := Ideal) w t (ix2 i o) = Cert.Spec.wsel w t i o := by
  rw [val_main_v10_apply]
  have e : idx_main_v10 (ix2 i o) = ix3 i o 0 := by
    funext a
    refine Fin.ext ?_
    have hi := i.isLt
    have ho := o.isLt
    match a with
    | ⟨0, _⟩ => show (i.val * 2048 + o.val) / 2048 = i.val; omega
    | ⟨1, _⟩ => show (i.val * 2048 + o.val) / 1 % 2048 = o.val; omega
    | ⟨2, _⟩ => rfl
  rw [e, val_main_v9_apply, all2_eq t ht, select_one]
  exact gather2_at t ht w i o

end Weights2

/-! ## The two layers -/

section Layers
variable (x0 : (⟨S4096x2048, .f32⟩ : BufTy).Contents (Elt Ideal)) (x1 : (⟨S2048x8192x8, .f32⟩ : BufTy).Contents (Elt Ideal))
  (x2 : (⟨S8192, .f32⟩ : BufTy).Contents (Elt Ideal)) (x3 : (⟨S2048x8192, .i32⟩ : BufTy).Contents (Elt Ideal))
  (x4 : (⟨S8192x2048x8, .f32⟩ : BufTy).Contents (Elt Ideal)) (x5 : (⟨S2048, .f32⟩ : BufTy).Contents (Elt Ideal))
  (x6 : (⟨S8192x2048, .i32⟩ : BufTy).Contents (Elt Ideal))

/-- The first layer's output at (p, o): the product with the selected weights, plus the bias, against zero. -/
theorem layer1_at (h3 : Cert.Spec.InRange (x3 : IVec S2048x8192 32)) (p : Fin 4096) (o : Fin 8192) :
    val_main_v7 (F := Ideal) x0 x1 x2 x3 (ix2 p o) = Cert.Spec.layerAt x0 x1 x3 x2 p o := by
  rw [val_main_v7_apply, val_main_v6_apply, val_main_v3_apply, val_main_v5_apply, val_main_v4_apply, val_main_call1_v0_apply,
    val_main_call1_cst_apply]
  show max ((∑ k : Fin 2048, x0 (lidx_main_v3 (ix2 p o) k) * val_main_v2 (F := Ideal) x1 x3 (ridx_main_v3 (ix2 p o) k))
      + x2 (idx_main_v4 (idx_main_v5 (ix2 p o)))) (Ideal.ofBits .f32 0x00000000#32) = _
  rw [Ideal.ofBits_zero_f32]
  unfold Cert.Spec.layerAt
  have el : ∀ k : Fin 2048, lidx_main_v3 (ix2 p o) k = ix2 p k := fun k => by
    funext a; match a with | ⟨0, _⟩ => rfl | ⟨1, _⟩ => rfl
  have er : ∀ k : Fin 2048, ridx_main_v3 (ix2 p o) k = ix2 k o := fun k => by
    funext a; match a with | ⟨0, _⟩ => rfl | ⟨1, _⟩ => rfl
  have eb : idx_main_v4 (idx_main_v5 (ix2 p o)) = ix1 o := by
    funext a; match a with | ⟨0, _⟩ => rfl
  rw [eb]
  congr 2
  refine Finset.sum_congr rfl fun k _ => ?_
  rw [el, er, weights1_at x3 h3 x1 k o]

/-- The first layer as an array. -/
theorem layer1_eq (h3 : Cert.Spec.InRange (x3 : IVec S2048x8192 32)) :
    val_main_v7 (F := Ideal) x0 x1 x2 x3 = Cert.Spec.layer x0 x1 x3 x2 := by
  funext j
  obtain ⟨p, o, rfl⟩ : ∃ (p : Fin 4096) (o : Fin 8192), j = ix2 p o := ⟨j 0, j 1, eq_ix2 j⟩
  exact layer1_at x0 x1 x2 x3 h3 p o

/-- The second layer's output at (p, o), over the first layer's output. -/
theorem layer2_at (h6 : Cert.Spec.InRange (x6 : IVec S8192x2048 32)) (p : Fin 4096) (o : Fin 2048) :
    val_main_v15 (F := Ideal) x0 x1 x2 x3 x4 x5 x6 (ix2 p o)
      = Cert.Spec.layerAt (val_main_v7 (F := Ideal) x0 x1 x2 x3) x4 x6 x5 p o := by
  rw [val_main_v15_apply, val_main_v14_apply, val_main_v11_apply, val_main_v13_apply, val_main_v12_apply, val_main_call3_v0_apply,
    val_main_call3_cst_apply]
  show max ((∑ k : Fin 8192, val_main_v7 (F := Ideal) x0 x1 x2 x3 (lidx_main_v11 (ix2 p o) k)
        * val_main_v10 (F := Ideal) x4 x6 (ridx_main_v11 (ix2 p o) k))
      + x5 (idx_main_v12 (idx_main_v13 (ix2 p o)))) (Ideal.ofBits .f32 0x00000000#32) = _
  rw [Ideal.ofBits_zero_f32]
  unfold Cert.Spec.layerAt
  have el : ∀ k : Fin 8192, lidx_main_v11 (ix2 p o) k = ix2 p k := fun k => by
    funext a; match a with | ⟨0, _⟩ => rfl | ⟨1, _⟩ => rfl
  have er : ∀ k : Fin 8192, ridx_main_v11 (ix2 p o) k = ix2 k o := fun k => by
    funext a; match a with | ⟨0, _⟩ => rfl | ⟨1, _⟩ => rfl
  have eb : idx_main_v12 (idx_main_v13 (ix2 p o)) = ix1 o := by
    funext a; match a with | ⟨0, _⟩ => rfl
  rw [eb]
  congr 2
  refine Finset.sum_congr rfl fun k _ => ?_
  rw [el, er, weights2_at x6 h6 x4 k o]

/-- The reference's stages compose to the network of the specification. -/
theorem val_eq_net (h3 : Cert.Spec.InRange (x3 : IVec S2048x8192 32)) (h6 : Cert.Spec.InRange (x6 : IVec S8192x2048 32)) :
    val_main_v15 (F := Ideal) x0 x1 x2 x3 x4 x5 x6 = Cert.Spec.net x0 x1 x2 x3 x4 x5 x6 := by
  funext j
  obtain ⟨p, o, rfl⟩ : ∃ (p : Fin 4096) (o : Fin 2048), j = ix2 p o := ⟨j 0, j 1, eq_ix2 j⟩
  rw [layer2_at x0 x1 x2 x3 x4 x5 x6 h6 p o, layer1_eq x0 x1 x2 x3 h3]
  rfl

end Layers

/-! ## The reference's result is the specification -/

/-- The reference's result, as the run states it, is the network of the specification over the arguments' launch
    contents, on every device whose two tables name candidates. -/
theorem res_eq_net (m : (ℓ : Loc nD τ sig) → Buf (Elt Ideal) ℓ) (c : Dev nD)
    (h3 : Cert.Spec.InRange (m ((c.tc : Thread nD τ).loc main_arg3) : IVec S2048x8192 32))
    (h6 : Cert.Spec.InRange (m ((c.tc : Thread nD τ).loc main_arg6) : IVec S8192x2048 32)) :
    Cert.ReferenceIdeal.ValueP.res_main_v15 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.ReferenceIdeal.ReadP.val_main_v15_eq]
  exact val_eq_net _ _ _ _ _ _ _ h3 h6

/-- The reference's run with the specification in its post: every weakly fair execution terminates with the result
    buffer at the network of the arguments' launch contents and the arguments unchanged. -/
theorem run_net (m : (ℓ : Loc nD τ sig) → Buf (Elt Ideal) ℓ) (ρ : Dev nD → PrngReg)
    (h3 : ∀ c : Dev nD, Cert.Spec.InRange (m ((c.tc : Thread nD τ).loc main_arg3) : IVec S2048x8192 32))
    (h6 : ∀ c : Dev nD, Cert.Spec.InRange (m ((c.tc : Thread nD τ).loc main_arg6) : IVec S8192x2048 32)) :
    θ_run defs (onTc (τ := τ) (main (F := Ideal))) ⟨m, fun _ => 0, ρ⟩ fun r => ∀ c : Dev nD,
      r.2.mem ((c.tc : Thread nD τ).loc main_v15) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq_net m c (h3 c) (h6 c)), (h c).2⟩)
    (Cert.ReferenceIdeal.ValueP.run (F := Ideal) m ρ)

end Cert.ReferenceIdeal.RefValue

end
-- ==== Proof.PreIdx.lean ====
/-
  From the precondition to the index tables' range: every word of the two candidate tables is, read unsigned, below 8.

  The precondition is a conjunction (an `and` chain of one-bit words) of seven "for all entries" tests. The last two
  say of each index table that every word w satisfies 0 ≤ w and w < 8, both read as signed integers. A 32-bit word whose
  signed reading lies in [0, 8) has its top bit clear, so its unsigned reading is the same number, hence below 8.
-/
import proofs.«423610_j1151051235470_3_alg».proof.Pre_finite_inputs
import proofs.«423610_j1151051235470_3_alg».proof.Proof.Spec
import Idealize.ShloMosaic.PureOps.Ideal
import Idealize.ShloMosaic.Lib.ReduceAll
import Idealize.ShloMosaic.Lib.StableHlo.Predicate

noncomputable section

namespace Cert.PreIdx

open Idealize.ShloMosaic Cert.Pre_finite_inputs

variable [Cert.Pre_finite_inputs.Facts]

/-- The scalar shape has exactly one index (the empty tuple of coordinates). -/
private instance subsingleton_scalar_idx : Subsingleton S_.Idx := ⟨fun a b => funext fun d => d.elim0⟩

/-- A word between 0 (inclusive) and 8 (exclusive) in the signed reading is below 8 in the unsigned reading:
    a nonnegative signed reading means the top bit is clear, and then both readings agree. -/
private theorem toNat_lt_eight {w : BitVec 32}
    (h0 : IntOp.cmpi .sge w 0#32 = 1#1) (h8 : IntOp.cmpi .slt w 8#32 = 1#1) : w.toNat < 8 := by
  rw [IntOp.cmpi_sge, show (0#32 : BitVec 32).toInt = 0 from by decide] at h0
  rw [IntOp.cmpi_slt, show (8#32 : BitVec 32).toInt = 8 from by decide] at h8
  have hc := BitVec.toInt_eq_toNat_cond w
  split at hc <;> omega

/-- A one-bit array that is, entrywise, the `and` of "w ≥ 0" and "w < 8" (signed) over a table of words, and
    whose every entry is 1, certifies the table's range. -/
private theorem inRange_of_all {s : Shape} (idx : IVec s 32) (zero eight : IVec s 32)
    (hz : ∀ i, zero i = 0#32) (he : ∀ i, eight i = 8#32)
    (hall : ∀ i, andi (cmpi .sge idx zero) (cmpi .slt idx eight) i = 1#1) : Cert.Spec.InRange idx := by
  intro i
  have hi := hall i
  change IntOp.andi (IntOp.cmpi .sge (idx i) (zero i)) (IntOp.cmpi .slt (idx i) (eight i)) = 1#1 at hi
  rw [hz i, he i, IntOp.andi_eq_one] at hi
  exact toNat_lt_eight hi.1 hi.2

/-- Where the printed precondition evaluates to all ones, both candidate tables hold only words whose unsigned value is below 8. -/
theorem inRange_of_pre (a0 : FVec Ideal S4096x2048 .f32) (a1 : FVec Ideal S2048x8192x8 .f32) (a2 : FVec Ideal S8192 .f32)
    (a3 : IVec S2048x8192 32) (a4 : FVec Ideal S8192x2048x8 .f32) (a5 : FVec Ideal S2048 .f32) (a6 : IVec S8192x2048 32)
    (h : Cert.Pre_finite_inputs.fn (F := Ideal) a0 a1 a2 a3 a4 a5 a6 = fun _ => 1#1) :
    Cert.Spec.InRange a3 ∧ Cert.Spec.InRange a6 := by
  have h0 := congrFun h ValueIdx.ix0
  dsimp only [fn, fn_part1, fn_part2] at h0
  -- a scalar `and` word that is 1 has both operands 1
  have split : ∀ x y : IVec S_ 1, andi x y ValueIdx.ix0 = 1#1 → x ValueIdx.ix0 = 1#1 ∧ y ValueIdx.ix0 = 1#1 :=
    fun x y e => IntOp.andi_eq_one.1 e
  -- the chain associates to the left: the last conjunct is the second table's test, the one before it the first table's
  obtain ⟨h1, h6⟩ := split _ _ h0
  obtain ⟨-, h3⟩ := split _ _ h1
  exact ⟨inRange_of_all a3 _ _ (fun _ => rfl) (fun _ => rfl) (Host.reduce_andi_all _ _ _ _ _ h3),
    inRange_of_all a6 _ _ (fun _ => rfl) (fun _ => rfl) (Host.reduce_andi_all _ _ _ _ _ h6)⟩

end Cert.PreIdx

end
-- ==== Proof.lean ====
/-
  The certificate: the Pallas "weight bank" network (two layers; each picks one of eight candidate weights per
  (input, output) pair by a table of indices, multiplies, adds a bias and clamps at zero) against its jnp reference.

  Both idealized programs compute, over the extended reals, the ONE function `Cert.Spec.net` of the argument arrays
  (Proof/Spec.lean), given that every index of the two tables lies in 0..7 — the statement's precondition, decoded in
  Proof/PreIdx.lean:
  * the kernel picks a candidate by a chain of eight selects over the candidate planes, which is the named candidate
    where the index is in range; it sums the products tile by tile over the reduction axis into an accumulator, which
    is the whole sum by associativity and commutativity of addition alone (Proof/KernelIdeal/Region*/Value.lean);
    its casts to and from bf16 are the identity here, its transposition of the weight bank a re-indexing
    (Proof/KernelIdeal/Result.lean);
  * the reference gathers the candidate along the last axis, which reads the named candidate where the index is in
    range (Proof/RefValue.lean), and contracts over the whole axis at once.
  The frames — each program runs to its end, faults nowhere and leaves its arguments as launched — need no
  precondition: the kernel's, at the word level and idealized, are its two pipelined regions composed with its host
  operations (Proof/Kernel/Whole.lean, Proof/KernelIdeal/Whole.lean), each region's invariant carrying the
  accumulator from grid point to grid point; the reference's is its run with the result dropped. The idealization
  rewrote nothing, so `preserves` has nothing to state.
-/
import proofs.«423610_j1151051235470_3_alg».proof.Defs
import proofs.«423610_j1151051235470_3_alg».proof.Proof.Gen.Kernel
import proofs.«423610_j1151051235470_3_alg».proof.Proof.Gen.KernelIdeal
import proofs.«423610_j1151051235470_3_alg».proof.Proof.Gen.ReferenceIdeal
import proofs.«423610_j1151051235470_3_alg».proof.Proof.Gen.Pre_finite_inputs
import proofs.«423610_j1151051235470_3_alg».proof.Proof.Kernel.Whole
import proofs.«423610_j1151051235470_3_alg».proof.Proof.KernelIdeal.Whole
import proofs.«423610_j1151051235470_3_alg».proof.Proof.KernelIdeal.Result
import proofs.«423610_j1151051235470_3_alg».proof.Proof.RefValue
import proofs.«423610_j1151051235470_3_alg».proof.Proof.PreIdx
import Idealize.ShloMosaic.Adequacy
import Idealize.ShloMosaic.Init

noncomputable section

namespace Cert.Proof

open Idealize.ShloMosaic Idealize.SL.Sem

attribute [local instance] Cert.Pre_finite_inputs.Gen.facts Cert.Kernel.Gen.facts Cert.KernelIdeal.Gen.facts Cert.ReferenceIdeal.Gen.facts

/-- The word-level kernel runs and leaves its arguments as launched. -/
theorem frame_k : Cert.frame_Kernel := fun m ρ _ => Cert.Kernel.Whole.frame (F := Bits) m ρ

/-- So does the idealized kernel. -/
theorem frame_ki : Cert.frame_KernelIdeal := fun m ρ _ => Cert.KernelIdeal.Whole.frame (F := Ideal) m ρ

/-- And the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the network of the arguments in their result. -/
theorem algebraic : Cert.algebraic_KernelIdeal_ReferenceIdeal := by
  intro m ρ m' ρ' hpre hagree
  have hr := fun c => Cert.PreIdx.inRange_of_pre _ _ _ _ _ _ _ (hpre c)
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Result.result_eq_net m ρ c (hr c).1 (hr c).2), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.RefValue.run_net m' ρ'
        (fun c => by rw [(hagree c).2.2.2.1]; exact (hr c).1) (fun c => by rw [(hagree c).2.2.2.2.2.2]; exact (hr c).2))
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
